-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x8x16 : Shape := ⟨3, ![16384, 8, 16]⟩
abbrev S64x144 : Shape := ⟨2, ![64, 144]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8x16 : S_.BroadcastsInDim S16384x8x16 (![] : Fin 0 → Fin S16384x8x16.rank)
  reducesTo_S16384x8x16_S_d0_1_2 : S16384x8x16.ReducesTo [0, 1, 2] S_
  bcast_S_S64x144 : S_.BroadcastsInDim S64x144 (![] : Fin 0 → Fin S64x144.rank)
  reducesTo_S64x144_S_d0_1 : S64x144.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S128x64 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x8x16 .f32) (main_arg2 : FVec F S64x144 .f32) (main_arg3 : FVec F S64 .f32) (main_arg4 : FVec F S64 .f32) (main_arg5 : FVec F S64 .f32) (main_arg6 : FVec F S128x64 .f32) (main_arg7 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x8x16 .f32 := Host.absf main_arg1
  let main_cst_0 : FVec F S_ .f32 := constant S_ .f32 0x7F800000#32
  let main_v5 : FVec F S16384x8x16 .f32 := broadcastInDim S16384x8x16 ![] bcast_S_S16384x8x16 main_cst_0
  let main_v6 : IVec S16384x8x16 1 := cmpf .olt main_v4 main_v5
  let main_c_1 : IVec S_ 1 := constantI S_ 1 1#1
  let main_v7 : IVec S_ 1 := (fun x v => Host.reduce IntOp.andi x v reducesTo_S16384x8x16_S_d0_1_2 h_S_) main_v6 main_c_1
  let main_v8 : IVec S_ 1 := andi main_v3 main_v7
  let main_v9 : FVec F S64x144 .f32 := Host.absf main_arg2
  let main_cst_2 : FVec F S_ .f32 := constant S_ .f32 0x7F800000#32
  let main_v10 : FVec F S64x144 .f32 := broadcastInDim S64x144 ![] bcast_S_S64x144 main_cst_2
  let main_v11 : IVec S64x144 1 := cmpf .olt main_v9 main_v10
  let main_c_3 : IVec S_ 1 := constantI S_ 1 1#1
  let main_v12 : IVec S_ 1 := (fun x v => Host.reduce IntOp.andi x v reducesTo_S64x144_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S16384x512 : Shape := ⟨2, ![16384, 512]⟩
abbrev S16384x8x16 : Shape := ⟨3, ![16384, 8, 16]⟩
abbrev S64x144 : Shape := ⟨2, ![64, 144]⟩
abbrev S64 : Shape := ⟨1, ![64]⟩
abbrev S128x64 : Shape := ⟨2, ![128, 64]⟩
abbrev S128 : Shape := ⟨1, ![128]⟩
abbrev S16384x1x16 : Shape := ⟨3, ![16384, 1, 16]⟩
abbrev S16384x16 : Shape := ⟨2, ![16384, 16]⟩
abbrev S64x128 : Shape := ⟨2, ![64, 128]⟩
abbrev S64x16 : Shape := ⟨2, ![64, 16]⟩
abbrev S16x64 : Shape := ⟨2, ![16, 64]⟩
abbrev S1x64 : Shape := ⟨2, ![1, 64]⟩
abbrev S16384x64 : Shape := ⟨2, ![16384, 64]⟩
abbrev S8x64 : Shape := ⟨2, ![8, 64]⟩
abbrev S1024x128 : Shape := ⟨2, ![1024, 128]⟩
abbrev S1024x16 : Shape := ⟨2, ![1024, 16]⟩
abbrev S1024x64 : Shape := ⟨2, ![1024, 64]⟩
abbrev S6x64 : Shape := ⟨2, ![6, 64]⟩
abbrev S1x128 : Shape := ⟨2, ![1, 128]⟩
abbrev S1024x512 : Shape := ⟨2, ![1024, 512]⟩

abbrev nBuf : Space → Nat
  | .hbm => 22
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x8x16, .f32⟩
  | .hbm, ⟨2, _⟩ => ⟨S64x144, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S16384x1x16, .f32⟩
  | .hbm, ⟨9, _⟩ => ⟨S16384x16, .f32⟩
  | .hbm, ⟨10, _⟩ => ⟨S64x128, .f32⟩
  | .hbm, ⟨11, _⟩ => ⟨S128x64, .f32⟩
  | .hbm, ⟨12, _⟩ => ⟨S64x16, .f32⟩
  | .hbm, ⟨13, _⟩ => ⟨S16x64, .f32⟩
  | .hbm, ⟨14, _⟩ => ⟨S64x128, .f32⟩
  | .hbm, ⟨15, _⟩ => ⟨S1x64, .f32⟩
  | .hbm, ⟨16, _⟩ => ⟨S16384x64, .f32⟩
  | .hbm, ⟨17, _⟩ => ⟨S8x64, .f32⟩
  | .hbm, ⟨18, _⟩ => ⟨S1x64, .f32⟩
  | .hbm, ⟨19, _⟩ => ⟨S1x64, .f32⟩
  | .hbm, ⟨20, _⟩ => ⟨S1x128, .f32⟩
  | .hbm, ⟨21, _⟩ => ⟨S16384x512, .f32⟩
  | .local _ .vmem, ⟨0, _⟩ => ⟨S1024x128, .f32⟩
  | .local _ .vmem, ⟨1, _⟩ => ⟨S1024x128, .f32⟩
  | .local _ .vmem, ⟨2, _⟩ => ⟨S1024x16, .f32⟩
  | .local _ .vmem, ⟨3, _⟩ => ⟨S1024x16, .f32⟩
  | .local _ .vmem, ⟨4, _⟩ => ⟨S128x64, .f32⟩
  | .local _ .vmem, ⟨5, _⟩ => ⟨S16x64, .f32⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | .local _ .vmem, ⟨9, _⟩ => ⟨S8x64, .f32⟩
  | .local _ .vmem, ⟨10, _⟩ => ⟨S1024x64, .f32⟩
  | .local _ .vmem, ⟨11, _⟩ => ⟨S1024x64, .f32⟩
  | .local _ .vmem, ⟨12, _⟩ => ⟨S8x64, .f32⟩
  | .local _ .vmem, ⟨13, _⟩ => ⟨S1x64, .f32⟩
  | .local _ .vmem, ⟨14, _⟩ => ⟨S1x64, .f32⟩
  | .local _ .vmem, ⟨15, _⟩ => ⟨S64x128, .f32⟩
  | .local _ .vmem, ⟨16, _⟩ => ⟨S1x128, .f32⟩
  | .local _ .vmem, ⟨17, _⟩ => ⟨S1024x512, .f32⟩
  | .local _ .vmem, ⟨18, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S16384x8x16_S16384x1x16_0_3_0 : S16384x8x16.Slices ![0, 3, 0] S16384x1x16
  shapeCasts_S16384x1x16_S16384x16 : S16384x1x16.ShapeCasts S16384x16
  slices_S64x144_S64x128_0_0 : S64x144.Slices ![0, 0] S64x128
  transposes_S64x128_S128x64_1_0 : S64x128.Transposes [1, 0] S128x64
  slices_S64x144_S64x16_0_128 : S64x144.Slices ![0, 128] S64x16
  transposes_S64x16_S16x64_1_0 : S64x16.Transposes [1, 0] S16x64
  transposes_S128x64_S64x128_1_0 : S128x64.Transposes [1, 0] S64x128
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  reduces_S1024x64_S64 : S1024x64.Reduces [0] S64
  concatenates_S1x64_S1x64_S6x64_S8x64_d0 : Shape.Concatenates [S1x64, S1x64, S6x64] S8x64 0
  inb_S8x64_S8x64_0_0 : ∀ a, (![0, 0] : Fin 2 → Nat) a + S8x64.size a ≤ S8x64.size a
  h_S8x64 : 0 < S8x64.numel
  shapeCasts_S8x64_S8x64 : S8x64.ShapeCasts S8x64
  shapeCasts_S128_S1x128 : S128.ShapeCasts S1x128
  slices_S8x64_o0_0_S1x64 : S8x64.Slices ![0, 0] S1x64
  slices_S8x64_o1_0_S1x64 : S8x64.Slices ![1, 0] S1x64
  shapeCasts_S1024x64_S1024x64 : S1024x64.ShapeCasts S1024x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x512_S1024x512_0_0 : ∀ a, (![0, 0] : Fin 2 → Nat) a + S1024x512.size a ≤ S1024x512.size a
  h_S1024x512 : 0 < S1024x512.numel
  inb_S1024x512_S1024x128_0_128 : ∀ a, (![0, 128] : Fin 2 → Nat) a + S1024x128.size a ≤ S1024x512.size a
  dot_S1024x128_S128x64_S1024x64_1_0_0_1_n_n_wf : DotDims.WF S1024x128 S128x64 S1024x64 [1] [0] [0] [1] [] []
  dot_S1024x16_S16x64_S1024x64_1_0_0_1_n_n_wf : DotDims.WF S1024x16 S16x64 S1024x64 [1] [0] [0] [1] [] []
  dot_S1024x64_S64x128_S1024x128_1_0_0_1_n_n_wf : DotDims.WF S1024x64 S64x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x512.size a
  hwx0_0 : ∀ i : grid0.Coords, EltTy.bits .f32 = 32 ∨ (Rect.block (s := S16384x512) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S16384x16.size a
  hwx0_1 : ∀ i : grid0.Coords, EltTy.bits .f32 = 32 ∨ (Rect.block (s := S16384x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64.size a ≤ S8x64.size a
  hwx0_6 : ∀ i : grid0.Coords, EltTy.bits .f32 = 32 ∨ (Rect.block (s := S8x64) S8x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S16384x64.size a
  hwx1_0 : ∀ i : grid1.Coords, EltTy.bits .f32 = 32 ∨ (Rect.block (s := S16384x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S16384x512.size a
  hwx1_6 : ∀ i : grid1.Coords, EltTy.bits .f32 = 32 ∨ (Rect.block (s := S16384x512) S1024x512.size (cc1_transform_6 i) (hinb1_6 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x16_S16x64_S1024x64_1_0_0_1_n_n : DotDims S1024x16 S16x64 S1024x64 where
  lhsContracting := [1]
  rhsContracting := [0]
  lhsNonContracting := [0]
  rhsNonContracting := [1]
  lhsBatch := []
  rhsBatch := []
  wf := dot_S1024x16_S16x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S8x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x512 : Shape := ⟨2, ![16384, 512]⟩
abbrev S16384x8x16 : Shape := ⟨3, ![16384, 8, 16]⟩
abbrev S64x144 : Shape := ⟨2, ![64, 144]⟩
abbrev S64 : Shape := ⟨1, ![64]⟩
abbrev S128x64 : Shape := ⟨2, ![128, 64]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S16384x128 : Shape := ⟨2, ![16384, 128]⟩
abbrev S16384x1x16 : Shape := ⟨3, ![16384, 1, 16]⟩
abbrev S16384x16 : Shape := ⟨2, ![16384, 16]⟩
abbrev S16384x144 : Shape := ⟨2, ![16384, 144]⟩
abbrev S144x64 : Shape := ⟨2, ![144, 64]⟩
abbrev S16384x64 : Shape := ⟨2, ![16384, 64]⟩
abbrev S1x64 : Shape := ⟨2, ![1, 64]⟩
abbrev S64x128 : Shape := ⟨2, ![64, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x8x16, .f32⟩
  | .hbm, ⟨2, _⟩ => ⟨S64x144, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S1, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S1x1, .i32⟩
  | .hbm, ⟨23, _⟩ => ⟨S128x1, .i32⟩
  | .hbm, ⟨24, _⟩ => ⟨S128x1, .i1⟩
  | .hbm, ⟨25, _⟩ => ⟨S128x1, .i1⟩
  | .hbm, ⟨26, _⟩ => ⟨S_, .i1⟩
  | .hbm, ⟨27, _⟩ => ⟨S128, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S16384x1x16, .f32⟩
  | .hbm, ⟨34, _⟩ => ⟨S16384x16, .f32⟩
  | .hbm, ⟨35, _⟩ => ⟨S16384x144, .f32⟩
  | .hbm, ⟨36, _⟩ => ⟨S144x64, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S1x64, .f32⟩
  | .hbm, ⟨80, _⟩ => ⟨S16384x64, .f32⟩
  | .hbm, ⟨81, _⟩ => ⟨S16384x64, .f32⟩
  | .hbm, ⟨82, _⟩ => ⟨S1x64, .f32⟩
  | .hbm, ⟨83, _⟩ => ⟨S16384x64, .f32⟩
  | .hbm, ⟨84, _⟩ => ⟨S16384x64, .f32⟩
  | .hbm, ⟨85, _⟩ => ⟨S_, .f32⟩
  | .hbm, ⟨86, _⟩ => ⟨S16384x64, .f32⟩
  | .hbm, ⟨87, _⟩ => ⟨S16384x64, .i1⟩
  | .hbm, ⟨88, _⟩ => ⟨S_, .f32⟩
  | .hbm, ⟨89, _⟩ => ⟨S16384x64, .f32⟩
  | .hbm, ⟨90, _⟩ => ⟨S16384x64, .i1⟩
  | .hbm, ⟨91, _⟩ => ⟨S_, .f32⟩
  | .hbm, ⟨92, _⟩ => ⟨S_, .f32⟩
  | .hbm, ⟨93, _⟩ => ⟨S16384x64, .f32⟩
  | .hbm, ⟨94, _⟩ => ⟨S16384x64, .f32⟩
  | .hbm, ⟨95, _⟩ => ⟨S16384x64, .f32⟩
  | .hbm, ⟨96, _⟩ => ⟨S_, .f32⟩
  | .hbm, ⟨97, _⟩ => ⟨S16384x64, .f32⟩
  | .hbm, ⟨98, _⟩ => ⟨S16384x64, .f32⟩
  | .hbm, ⟨99, _⟩ => ⟨S16384x64, .f32⟩
  | .hbm, ⟨100, _⟩ => ⟨S64x128, .f32⟩
  | .hbm, ⟨101, _⟩ => ⟨S16384x128, .f32⟩
  | .hbm, ⟨102, _⟩ => ⟨S1x128, .f32⟩
  | .hbm, ⟨103, _⟩ => ⟨S16384x128, .f32⟩
  | .hbm, ⟨104, _⟩ => ⟨S16384x128, .f32⟩
  | .hbm, ⟨105, _⟩ => ⟨S16384x128, .f32⟩
  | .hbm, ⟨106, _⟩ => ⟨S_, .f32⟩
  | .hbm, ⟨107, _⟩ => ⟨S16384x512, .f32⟩
  | .hbm, ⟨108, _⟩ => ⟨S_, .i32⟩
  | .hbm, ⟨109, _⟩ => ⟨S128, .i32⟩
  | .hbm, ⟨110, _⟩ => ⟨S128, .i1⟩
  | .hbm, ⟨111, _⟩ => ⟨S_, .i32⟩
  | .hbm, ⟨112, _⟩ => ⟨S128, .i32⟩
  | .hbm, ⟨113, _⟩ => ⟨S128, .i32⟩
  | .hbm, ⟨114, _⟩ => ⟨S128, .i32⟩
  | .hbm, ⟨115, _⟩ => ⟨S128x1, .i32⟩
  | .hbm, ⟨116, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_c_2 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst_3 : Ref sig .tc := ⟨.hbm, 63, rfl⟩
abbrev main_call1_v12 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_3 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_cst_1 : Ref sig .tc := ⟨.hbm, 91, rfl⟩
abbrev main_call2_call0_v0 : Ref sig .tc := ⟨.hbm, 92, rfl⟩
abbrev main_call2_call0_v1 : Ref sig .tc := ⟨.hbm, 93, rfl⟩
abbrev main_call2_v4 : Ref sig .tc := ⟨.hbm, 94, rfl⟩
abbrev main_call2_v5 : Ref sig .tc := ⟨.hbm, 95, rfl⟩
abbrev main_call2_cst_2 : Ref sig .tc := ⟨.hbm, 96, rfl⟩
abbrev main_call2_v6 : Ref sig .tc := ⟨.hbm, 97, rfl⟩
abbrev main_call2_v7 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_cst_4 : Ref sig .tc := ⟨.hbm, 106, rfl⟩
abbrev main_v35 : Ref sig .tc := ⟨.hbm, 107, rfl⟩
abbrev main_c_5 : Ref sig .tc := ⟨.hbm, 108, rfl⟩
abbrev main_v36 : Ref sig .tc := ⟨.hbm, 109, rfl⟩
abbrev main_v37 : Ref sig .tc := ⟨.hbm, 110, rfl⟩
abbrev main_c_6 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S16384x128_1 : S128.BroadcastsInDim S16384x128 (![1] : Fin 1 → Fin S16384x128.rank)
  bcast_S_S16384x128 : S_.BroadcastsInDim S16384x128 (![] : Fin 0 → Fin S16384x128.rank)
  slices_S16384x8x16_S16384x1x16_0_3_0 : S16384x8x16.Slices ![0, 3, 0] S16384x1x16
  shapeCasts_S16384x1x16_S16384x16 : S16384x1x16.ShapeCasts S16384x16
  concatenates_S16384x128_S16384x16_S16384x144_d1 : Shape.Concatenates [S16384x128, S16384x16] S16384x144 1
  transposes_S64x144_S144x64_1_0 : S64x144.Transposes [1, 0] S144x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  bcast_S_S64 : S_.BroadcastsInDim S64 (![] : Fin 0 → Fin S64.rank)
  bcast_S_S1x64 : S_.BroadcastsInDim S1x64 (![] : Fin 0 → Fin S1x64.rank)
  bcast_S_S16384x64 : S_.BroadcastsInDim S16384x64 (![] : Fin 0 → Fin S16384x64.rank)
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x512 : S_.BroadcastsInDim S16384x512 (![] : Fin 0 → Fin S16384x512.rank)
  gather_S16384x512_S128x1_S16384x128_0_1_n_n_1_1_163841_wf : GatherDims.WF S16384x512 S128x1 S16384x128 [0] [1] [] [1] [] 1 ![16384, 1]
  dot_S16384x144_S144x64_S16384x64_1_0_0_1_n_n_wf : DotDims.WF S16384x144 S144x64 S16384x64 [1] [0] [0] [1] [] []
  dot_S16384x64_S64x128_S16384x128_1_0_0_1_n_n_wf : DotDims.WF S16384x64 S64x128 S16384x128 [1] [0] [0] [1] [] []
  scatter_S16384x512_S128x1_S16384x128_0_1_1_1_wf : ScatterDims.WF S16384x512 S128x1 S16384x128 [0] [1] [1] 1

variable [Facts₀]

def gather_S16384x512_S128x1_S16384x128_0_1_n_n_1_1_163841 : GatherDims S16384x512 S128x1 S16384x128 where
  offsetDims := [0]
  collapsedSliceDims := [1]
  operandBatchingDims := []
  startIndicesBatchingDims := []
  startIndexMap := [1]
  indexVectorDim := 1
  sliceSizes := ![16384, 1]
  wf := gather_S16384x512_S128x1_S16384x128_0_1_n_n_1_1_163841_wf
def dot_S16384x144_S144x64_S16384x64_1_0_0_1_n_n : DotDims S16384x144 S144x64 S16384x64 where
  lhsContracting := [1]
  rhsContracting := [0]
  lhsNonContracting := [0]
  rhsNonContracting := [1]
  lhsBatch := []
  rhsBatch := []
  wf := dot_S16384x144_S144x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def scatter_S16384x512_S128x1_S16384x128_0_1_1_1 : ScatterDims S16384x512 S128x1 S16384x128 where
  updateWindowDims := [0]
  insertedWindowDims := [1]
  scatterDimsToOperandDims := [1]
  indexVectorDim := 1
  wf := scatter_S16384x512_S128x1_S16384x128_0_1_1_1_wf

class Facts : Prop extends Facts₀ where

variable [Facts]
-- ==== Proof.Spec.lean ====
/-
  The function both programs compute, stated once over the extended reals, with no program in sight.

  Rows R < 16384 are samples; a sample's input is the first 128 columns of x beside row 3 of attr (16 numbers).
    * first linear layer        h R j   = Σ_k xin R k · W1 j k + b1 j                      (j < 64)
    * batch statistics          S1 j    = Σ_R h R j,   S2 j = Σ_R (h R j)²
    * batch normalisation       (h R j − mean j) / sqrt (var j + ε) · γ j + β j
    * ELU                       v ↦ v for v > 0, exp v − 1 otherwise
    * second linear layer, tanh  tanh (Σ_k act R k · W2 n k + b2 n)                          (n < 128)
    * placement                 columns 128 … 255 of an otherwise zero [16384, 512] array.
  The kernel-side form (`kernelValue`) splits the first product in two, takes the variance as S2/N − mean², and
  folds 1/sqrt into a scale and a shift; the reference-side form (`refValue`) centres before it squares and
  divides by the square root. They agree when every input entry is a real number (Proof/Bridge.lean).
-/
import Idealize.ShloMosaic.PureOps.Ideal
import Idealize.ShloMosaic.Lib.ValueIdx

noncomputable section

namespace Cert.Node

open Idealize.ShloMosaic Idealize.ShloMosaic.ValueIdx

/-- A rank-2 array of extended reals with literal extents. -/
abbrev Mat (a b : ℕ) : Type := (⟨2, ![a, b]⟩ : Shape).Idx → EReal
/-- A rank-1 array. -/
abbrev Vc (a : ℕ) : Type := (⟨1, ![a]⟩ : Shape).Idx → EReal
/-- A rank-3 array. -/
abbrev Ten (a b c : ℕ) : Type := (⟨3, ![a, b, c]⟩ : Shape).Idx → EReal

/-- Every entry is a real number (neither infinity). -/
def IsReal {S : Shape} (v : S.Idx → EReal) : Prop := ∀ i, ∃ r : ℝ, v i = (r : EReal)

/-! ## Constants (kept as the words both programs spell) -/

/-- 2⁻¹⁴ = 1/16384, the kernel's factor for a batch mean. -/
def invN : EReal := Ideal.ofBits .f32 0x38800000#32
/-- 16384, the reference's divisor for a batch mean. -/
def bigN : EReal := Ideal.ofBits .f32 0x46800000#32
/-- The variance's guard ε (the float nearest 1e-5), the same word in both programs. -/
def eps : EReal := Ideal.ofBits .f32 0x3727C5AC#32

/-! ## The kernel-side form, region by region -/

/-- First linear layer as the first region computes it: the product over x's 128 columns, plus the product over the 16
    attr numbers, plus the bias row. `wa` is [128, 64] and `wb` [16, 64] (the two transposed column blocks of W1). -/
def lin1 (x : Mat 16384 512) (a : Mat 16384 16) (wa : Mat 128 64) (wb : Mat 16 64) (b : Mat 1 64)
    (R : Fin 16384) (j : Fin 64) : EReal :=
  ((∑ k : Fin 128, x (ix2 R (Fin.castLE (by norm_num) k)) * wa (ix2 k j)) + (∑ k : Fin 16, a (ix2 R k) * wb (ix2 k j)))
    + b (ix2 0 j)

/-- The statistics block [8, 64] the first region leaves: row 0 the column sums of h, row 1 of h², rows 2–7 zero. -/
def stats (h : Fin 16384 → Fin 64 → EReal) (p : Fin 8) (j : Fin 64) : EReal :=
  if p.val = 0 then ∑ R : Fin 16384, h R j else if p.val = 1 then ∑ R : Fin 16384, h R j * h R j else 0

def mean (st : Mat 8 64) (j : Fin 64) : EReal := st (ix2 0 j) * invN
def var (st : Mat 8 64) (j : Fin 64) : EReal := st (ix2 1 j) * invN - mean st j * mean st j
def scale (st : Mat 8 64) (g : Mat 1 64) (j : Fin 64) : EReal := Ideal.rsqrt (var st j + eps) * g (ix2 0 j)
def shift (st : Mat 8 64) (g be : Mat 1 64) (j : Fin 64) : EReal := be (ix2 0 j) - mean st j * scale st g j
/-- Batch normalisation as the second region computes it: h · scale + shift. -/
def normed (h : Mat 16384 64) (st : Mat 8 64) (g be : Mat 1 64) (R : Fin 16384) (j : Fin 64) : EReal :=
  h (ix2 R j) * scale st g j + shift st g be j

/-- ELU: v where v > 0, exp v − 1 elsewhere. -/
def elu (v : EReal) : EReal := Scalar.select (Ideal.cmp .ogt v 0) v (Ideal.exp v - 1)

/-- Second linear layer and tanh, `w2` the transposed [64, 128] weight. -/
def lin2 (h : Mat 16384 64) (st : Mat 8 64) (g be : Mat 1 64) (w2 : Mat 64 128) (b2 : Mat 1 128)
    (R : Fin 16384) (n : Fin 128) : EReal :=
  Ideal.tanh ((∑ k : Fin 64, elu (normed h st g be R k) * w2 (ix2 k n)) + b2 (ix2 0 n))

/-- A [16384, 128] result placed in columns 128 … 255 of a zero [16384, 512] array. -/
def placed (f : Fin 16384 → Fin 128 → EReal) (R : Fin 16384) (c : Fin 512) : EReal :=
  if h : 128 ≤ c.val ∧ c.val < 256 then f R ⟨c.val - 128, by omega⟩ else 0

/-! ## The host's views of the arguments -/

/-- attr[:, 3, :] as a [16384, 16] matrix. -/
def attrRow (ar : Ten 16384 8 16) : Mat 16384 16 := fun i => ar (ix3 (i 0) (3 : Fin 8) (i 1))
/-- W1[:, :128]ᵀ. -/
def w1Left (w1 : Mat 64 144) : Mat 128 64 := fun i => w1 (ix2 (i 1) (Fin.castLE (by norm_num) (i 0) : Fin 144))
/-- W1[:, 128:]ᵀ. -/
def w1Right (w1 : Mat 64 144) : Mat 16 64 :=
  fun i => w1 (ix2 (i 1) (⟨128 + (i 0).val, by have := (i 0).isLt; simp only [Matrix.cons_val_zero] at this; omega⟩ : Fin 144))
/-- A vector as a one-row matrix. -/
def rowOf {n : ℕ} (v : Vc n) : Mat 1 n := fun i => v (ix1 (i 1))
/-- The transpose. -/
def transposed {a b : ℕ} (w : Mat a b) : Mat b a := fun i => w (ix2 (i 1) (i 0))

/-- The first region's h array from the arguments. -/
def hArr (x : Mat 16384 512) (ar : Ten 16384 8 16) (w1 : Mat 64 144) (b1 : Vc 64) : Mat 16384 64 :=
  fun i => lin1 x (attrRow ar) (w1Left w1) (w1Right w1) (rowOf b1) (i 0) (i 1)
/-- The first region's statistics array from the arguments. -/
def stArr (x : Mat 16384 512) (ar : Ten 16384 8 16) (w1 : Mat 64 144) (b1 : Vc 64) : Mat 8 64 :=
  fun i => stats (lin1 x (attrRow ar) (w1Left w1) (w1Right w1) (rowOf b1)) (i 0) (i 1)

/-- THE KERNEL-SIDE VALUE: what the two regions leave in the result array, from the arguments. -/
def kernelValue (x : Mat 16384 512) (ar : Ten 16384 8 16) (w1 : Mat 64 144) (b1 g be : Vc 64) (w2 : Mat 128 64)
    (b2 : Vc 128) : Mat 16384 512 :=
  fun i => placed (lin2 (hArr x ar w1 b1) (stArr x ar w1 b1) (rowOf g) (rowOf be) (transposed w2) (rowOf b2)) (i 0) (i 1)

/-! ## The reference-side form -/

/-- A sample's input: x's first 128 columns, then attr's row 3. -/
def xin (x : Mat 16384 512) (ar : Ten 16384 8 16) (R : Fin 16384) (k : Fin 144) : EReal :=
  if h : k.val < 128 then x (ix2 R (⟨k.val, by omega⟩ : Fin 512))
  else ar (ix3 R (3 : Fin 8) (⟨k.val - 128, by have := k.isLt; omega⟩ : Fin 16))

def rlin1 (x : Mat 16384 512) (ar : Ten 16384 8 16) (w1 : Mat 64 144) (b1 : Vc 64) (R : Fin 16384) (j : Fin 64) : EReal :=
  (∑ k : Fin 144, xin x ar R k * w1 (ix2 j k)) + b1 (ix1 j)

def rmean (h : Fin 16384 → Fin 64 → EReal) (j : Fin 64) : EReal := Ideal.div (∑ R : Fin 16384, h R j) bigN
def rvar (h : Fin 16384 → Fin 64 → EReal) (j : Fin 64) : EReal :=
  Ideal.div (∑ R : Fin 16384, (h R j - rmean h j) * (h R j - rmean h j)) bigN
def rnormed (h : Fin 16384 → Fin 64 → EReal) (g be : Vc 64) (R : Fin 16384) (j : Fin 64) : EReal :=
  Ideal.div (h R j - rmean h j) (Ideal.sqrt (rvar h j + eps)) * g (ix1 j) + be (ix1 j)

/-- ELU as jax.nn.elu writes it: v where v > 0, else 1 · expm1 of (0 where v > 0, else v). -/
def relu (v : EReal) : EReal :=
  Scalar.select (Ideal.cmp .ogt v 0) v (1 * (Ideal.exp (Scalar.select (Ideal.cmp .ogt v 0) 0 v) - 1))

def rlin2 (h : Fin 16384 → Fin 64 → EReal) (g be : Vc 64) (w2 : Mat 128 64) (b2 : Vc 128) (R : Fin 16384) (n : Fin 128) : EReal :=
  Ideal.tanh ((∑ k : Fin 64, relu (rnormed h g be R k) * w2 (ix2 n k)) + b2 (ix1 n))

/-- THE REFERENCE-SIDE VALUE. -/
def refValue (x : Mat 16384 512) (ar : Ten 16384 8 16) (w1 : Mat 64 144) (b1 g be : Vc 64) (w2 : Mat 128 64)
    (b2 : Vc 128) : Mat 16384 512 :=
  fun i => placed (rlin2 (rlin1 x ar w1 b1) g be w2 b2) (i 0) (i 1)

end Cert.Node

end
-- ==== Proof.KR0Pay.lean ====
import proofs.«107747_g15401752723588_cont_week2b_928_3_alg».proof.Proof.Gen.KernelIdeal.Frame
import proofs.«107747_g15401752723588_cont_week2b_928_3_alg».proof.Proof.Spec
import Idealize.ShloMosaic.Lib.Pipeline.Value
import Idealize.ShloMosaic.PureOps.Ideal.Laws

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The operand indices of the two products, axis by axis -/

/-- The x-block product reads its left operand at the result's row … -/
private theorem lhs_dot_S1024x128_S128x64_S1024x64_1_0_0_1_n_n_0 (j : S1024x64.Idx)
    (k : dot_S1024x128_S128x64_S1024x64_1_0_0_1_n_n.contr.Idx) :
    (dot_S1024x128_S128x64_S1024x64_1_0_0_1_n_n.lhsIdx j k 0).val = (j 0).val := rfl
/-- … and at the contraction position; -/
private theorem lhs_dot_S1024x128_S128x64_S1024x64_1_0_0_1_n_n_1 (j : S1024x64.Idx)
    (k : dot_S1024x128_S128x64_S1024x64_1_0_0_1_n_n.contr.Idx) :
    (dot_S1024x128_S128x64_S1024x64_1_0_0_1_n_n.lhsIdx j k 1).val = (k ⟨0, by decide⟩).val :=
  DotDims.lhsIdx_val_of_single dot_S1024x128_S128x64_S1024x64_1_0_0_1_n_n (cl := 1) rfl j k
/-- its right operand at the contraction position … -/
private theorem rhs_dot_S1024x128_S128x64_S1024x64_1_0_0_1_n_n_0 (j : S1024x64.Idx)
    (k : dot_S1024x128_S128x64_S1024x64_1_0_0_1_n_n.contr.Idx) :
    (dot_S1024x128_S128x64_S1024x64_1_0_0_1_n_n.rhsIdx j k 0).val = (k ⟨0, by decide⟩).val :=
  DotDims.rhsIdx_val_of_single dot_S1024x128_S128x64_S1024x64_1_0_0_1_n_n (cr := 0) rfl j k
/-- … and at the result's column. -/
private theorem rhs_dot_S1024x128_S128x64_S1024x64_1_0_0_1_n_n_1 (j : S1024x64.Idx)
    (k : dot_S1024x128_S128x64_S1024x64_1_0_0_1_n_n.contr.Idx) :
    (dot_S1024x128_S128x64_S1024x64_1_0_0_1_n_n.rhsIdx j k 1).val = (j 1).val := rfl

/-- The attr-block product: the same four. -/
private theorem lhs_dot_S1024x16_S16x64_S1024x64_1_0_0_1_n_n_0 (j : S1024x64.Idx)
    (k : dot_S1024x16_S16x64_S1024x64_1_0_0_1_n_n.contr.Idx) :
    (dot_S1024x16_S16x64_S1024x64_1_0_0_1_n_n.lhsIdx j k 0).val = (j 0).val := rfl
private theorem lhs_dot_S1024x16_S16x64_S1024x64_1_0_0_1_n_n_1 (j : S1024x64.Idx)
    (k : dot_S1024x16_S16x64_S1024x64_1_0_0_1_n_n.contr.Idx) :
    (dot_S1024x16_S16x64_S1024x64_1_0_0_1_n_n.lhsIdx j k 1).val = (k ⟨0, by decide⟩).val :=
  DotDims.lhsIdx_val_of_single dot_S1024x16_S16x64_S1024x64_1_0_0_1_n_n (cl := 1) rfl j k
private theorem rhs_dot_S1024x16_S16x64_S1024x64_1_0_0_1_n_n_0 (j : S1024x64.Idx)
    (k : dot_S1024x16_S16x64_S1024x64_1_0_0_1_n_n.contr.Idx) :
    (dot_S1024x16_S16x64_S1024x64_1_0_0_1_n_n.rhsIdx j k 0).val = (k ⟨0, by decide⟩).val :=
  DotDims.rhsIdx_val_of_single dot_S1024x16_S16x64_S1024x64_1_0_0_1_n_n (cr := 0) rfl j k
private theorem rhs_dot_S1024x16_S16x64_S1024x64_1_0_0_1_n_n_1 (j : S1024x64.Idx)
    (k : dot_S1024x16_S16x64_S1024x64_1_0_0_1_n_n.contr.Idx) :
    (dot_S1024x16_S16x64_S1024x64_1_0_0_1_n_n.rhsIdx j k 1).val = (j 1).val := rfl

/-! ## Each product into the zero accumulator, entry by entry -/

/-- Entry (r, j) of the x-block product is the sum over the 128 columns. -/
private theorem prodX_apply (a : FVec Ideal S1024x128 .f32) (w : FVec Ideal S128x64 .f32) (r : Fin 1024) (j : Fin 64) :
    matmul (F := Ideal) dot_S1024x128_S128x64_S1024x64_1_0_0_1_n_n none a w (constant (F := Ideal) S1024x64 .f32 0x00000000#32) (ix2 r j)
      = ∑ k : Fin 128, a (ix2 r k) * w (ix2 k j) := by
  refine (Ideal.matmul_constant_zero_apply dot_S1024x128_S128x64_S1024x64_1_0_0_1_n_n none a w (ix2 r j)).trans ?_
  rw [← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 r j)
      ((contrEquiv1 dot_S1024x128_S128x64_S1024x64_1_0_0_1_n_n 128 rfl rfl).symm k) = ix2 r k := by
    funext ax; apply Fin.ext
    match ax with
    | ⟨0, _⟩ => exact lhs_dot_S1024x128_S128x64_S1024x64_1_0_0_1_n_n_0 _ _
    | ⟨1, _⟩ => exact (lhs_dot_S1024x128_S128x64_S1024x64_1_0_0_1_n_n_1 _ _).trans hk
  have er : dot_S1024x128_S128x64_S1024x64_1_0_0_1_n_n.rhsIdx (ix2 r j)
      ((contrEquiv1 dot_S1024x128_S128x64_S1024x64_1_0_0_1_n_n 128 rfl rfl).symm k) = ix2 k j := by
    funext ax; apply Fin.ext
    match ax with
    | ⟨0, _⟩ => exact (rhs_dot_S1024x128_S128x64_S1024x64_1_0_0_1_n_n_0 _ _).trans hk
    | ⟨1, _⟩ => exact rhs_dot_S1024x128_S128x64_S1024x64_1_0_0_1_n_n_1 _ _
  rw [el, er]

/-- Entry (r, j) of the attr-block product is the sum over the 16 attr numbers. -/
private theorem prodA_apply (a : FVec Ideal S1024x16 .f32) (w : FVec Ideal S16x64 .f32) (r : Fin 1024) (j : Fin 64) :
    matmul (F := Ideal) dot_S1024x16_S16x64_S1024x64_1_0_0_1_n_n none a w (constant (F := Ideal) S1024x64 .f32 0x00000000#32) (ix2 r j)
      = ∑ k : Fin 16, a (ix2 r k) * w (ix2 k j) := by
  refine (Ideal.matmul_constant_zero_apply dot_S1024x16_S16x64_S1024x64_1_0_0_1_n_n none a w (ix2 r j)).trans ?_
  rw [← Equiv.sum_comp (contrEquiv1 dot_S1024x16_S16x64_S1024x64_1_0_0_1_n_n 16 rfl rfl).symm]
  refine Finset.sum_congr rfl fun k _ => ?_
  have hk := contrEquiv1_symm_val dot_S1024x16_S16x64_S1024x64_1_0_0_1_n_n 16 rfl rfl k
  have el : dot_S1024x16_S16x64_S1024x64_1_0_0_1_n_n.lhsIdx (ix2 r j)
      ((contrEquiv1 dot_S1024x16_S16x64_S1024x64_1_0_0_1_n_n 16 rfl rfl).symm k) = ix2 r k := by
    funext ax; apply Fin.ext
    match ax with
    | ⟨0, _⟩ => exact lhs_dot_S1024x16_S16x64_S1024x64_1_0_0_1_n_n_0 _ _
    | ⟨1, _⟩ => exact (lhs_dot_S1024x16_S16x64_S1024x64_1_0_0_1_n_n_1 _ _).trans hk
  have er : dot_S1024x16_S16x64_S1024x64_1_0_0_1_n_n.rhsIdx (ix2 r j)
      ((contrEquiv1 dot_S1024x16_S16x64_S1024x64_1_0_0_1_n_n 16 rfl rfl).symm k) = ix2 k j := by
    funext ax; apply Fin.ext
    match ax with
    | ⟨0, _⟩ => exact (rhs_dot_S1024x16_S16x64_S1024x64_1_0_0_1_n_n_0 _ _).trans hk
    | ⟨1, _⟩ => exact rhs_dot_S1024x16_S16x64_S1024x64_1_0_0_1_n_n_1 _ _
  rw [el, er]

/-! ## The bias row under every row -/

/-- The [1, 64] bias row broadcast to [1024, 64] reads, in every row, the row's entry of that column. -/
private theorem bias_apply (b : FVec Ideal S1x64 .f32) (r : Fin 1024) (j : Fin 64) :
    broadcastTo S1024x64 b broadcasts_S1x64_S1024x64 (ix2 r j) = b (ix2 0 j) := by
  refine broadcastTo_apply b broadcasts_S1x64_S1024x64 (ix2 r j) (ix2 (0 : Fin 1) j) fun ax => ?_
  match ax with
  | ⟨0, _⟩ => rfl
  | ⟨1, _⟩ => rfl

/-- The first region's block of h at one grid point, entry by entry: row r of the block is the two products of that
    row of the x block and of the attr block with the two weight blocks, plus the bias row. -/
theorem pay1_apply (v0 : Vec Ideal S1024x128 .f32) (v1 : Vec Ideal S128x64 .f32) (v4 : Vec Ideal S1024x16 .f32)
    (v6 : Vec Ideal S16x64 .f32) (v10 : Vec Ideal S1x64 .f32) (r : Fin 1024) (j : Fin 64) :
    k0_pay1 (F := Ideal) v0 v1 v4 v6 v10 (ix2 r j)
      = ((∑ k : Fin 128, v0 (ix2 r k) * v1 (ix2 k j)) + (∑ k : Fin 16, v4 (ix2 r k) * v6 (ix2 k j))) + v10 (ix2 0 j) := by
  unfold k0_pay1
  simp only [shapeCast_self]
  rw [addf_apply, addf_apply, prodX_apply, prodA_apply, bias_apply]

end Cert.KernelIdeal.R0

end
-- ==== Proof.KR0H.lean ====
/-
  The first region's h array. Each of its 16 grid points stores, whole, one block of 1024 rows of the [16384, 64] array:
  the payload of that point's five input blocks (rows 1024 t … 1024 t + 1023 of x's first 128 columns and of attr, the two
  weight arrays and the bias row whole). Read at an index that payload is the first linear layer at row 1024 t + r; the 16
  blocks tile the array (row R lies in the block of point R / 1024), so the array ends holding the first linear layer of the
  region's operand arrays, whatever the region found in them.
-/
import proofs.«107747_g15401752723588_cont_week2b_928_3_alg».proof.Proof.KR0Pay

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

private theorem hz2 : (![0, 0] : Fin 2 → Nat) = fun _ => 0 := funext fun a => by fin_cases a <;> rfl

/-! ## What the body leaves in the h block, in either control case: the one store's payload of the five loads -/

section Pieces
variable {F : FTy → Type} [FloatOps F]

/-- At the first point the h block's buffer holds the payload of the five input blocks (x, weights left, attr, weights
    right, bias, in the payload's order). -/
private theorem out_A (c : Dev nD) (i : grid0.Coords) (a1 : Memref sig .tc .vmem S1024x128 .f32) (h1 : a1.IsWhole)
    (a2 : Memref sig .tc .vmem S1024x16 .f32) (h2 : a2.IsWhole) (a3 : Memref sig .tc .vmem S128x64 .f32) (h3 : a3.IsWhole)
    (a4 : Memref sig .tc .vmem S16x64 .f32) (h4 : a4.IsWhole) (a5 : Memref sig .tc .vmem S1x64 .f32) (h5 : a5.IsWhole)
    (a6 : Memref sig .tc .vmem S1024x64 .f32) (h6 : a6.IsWhole) (a7 : Memref sig .tc .vmem S8x64 .f32) (h7 : a7.IsWhole)
    (hc : cond0_0 i) (x0 : Vec F S1024x128 .f32) (x1 : Vec F S1024x16 .f32) (x2 : Vec F S128x64 .f32)
    (x3 : Vec F S16x64 .f32) (x4 : Vec F S1x64 .f32) :
    out0_A_5 c i a1 h1 a2 h2 a3 h3 a4 h4 a5 h5 a6 h6 a7 h7 hc x0 x1 x2 x3 x4 = k0_pay1 x0 x2 x1 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  try sl_unfold_words
  rw [View.canon_unit_zero hz2]
  simp only [View.readAt_eq_ld, h1.read_unread, h2.read_unread, h3.read_unread, h4.read_unread, h5.read_unread,
    View.ld_unit_zero (S := S1024x128) hz2, View.ld_unit_zero (S := S128x64) hz2, View.ld_unit_zero (S := S1024x16) hz2,
    View.ld_unit_zero (S := S16x64) hz2, View.ld_unit_zero (S := S1x64) hz2]

/-- At every later point the same, whatever the statistics block held. -/
private theorem out_B (c : Dev nD) (i : grid0.Coords) (a1 : Memref sig .tc .vmem S1024x128 .f32) (h1 : a1.IsWhole)
    (a2 : Memref sig .tc .vmem S1024x16 .f32) (h2 : a2.IsWhole) (a3 : Memref sig .tc .vmem S128x64 .f32) (h3 : a3.IsWhole)
    (a4 : Memref sig .tc .vmem S16x64 .f32) (h4 : a4.IsWhole) (a5 : Memref sig .tc .vmem S1x64 .f32) (h5 : a5.IsWhole)
    (a6 : Memref sig .tc .vmem S1024x64 .f32) (h6 : a6.IsWhole) (a7 : Memref sig .tc .vmem S8x64 .f32) (h7 : a7.IsWhole)
    (hc : ¬cond0_0 i) (x0 : Vec F S1024x128 .f32) (x1 : Vec F S1024x16 .f32) (x2 : Vec F S128x64 .f32)
    (x3 : Vec F S16x64 .f32) (x4 : Vec F S1x64 .f32) (xo6 : Vec F S8x64 .f32) :
    out0_B_5 c i a1 h1 a2 h2 a3 h3 a4 h4 a5 h5 a6 h6 a7 h7 hc x0 x1 x2 x3 x4 xo6 = k0_pay1 x0 x2 x1 x3 x4 := by
  unfold out0_B_5
  rw [View.read_writes_eq_canon _ _ _ (cover0_B_5 c i a1 h1 a2 h2 a3 h3 a4 h4 a5 h5 a6 h6 a7 h7 hc x0 x1 x2 x3 x4 xo6)]
  unfold kernelRun0_B
  dsimp only
  try sl_unfold_words
  rw [View.canon_unit_zero hz2]
  simp only [View.readAt_eq_ld, h1.read_unread, h2.read_unread, h3.read_unread, h4.read_unread, h5.read_unread,
    View.ld_unit_zero (S := S1024x128) hz2, View.ld_unit_zero (S := S128x64) hz2, View.ld_unit_zero (S := S1024x16) hz2,
    View.ld_unit_zero (S := S16x64) hz2, View.ld_unit_zero (S := S1x64) hz2]

end Pieces

variable (V : (c : Dev nD) → (b : Ref sig .tc) → Buf (Elt Ideal) ((c : Thread nD τ).loc b))

/-! ## The five input blocks at a point and the five operand arrays, by their literal types -/

private abbrev xblk (c : Dev nD) (t : Fin cfg0.N) : Vec Ideal S1024x128 .f32 := iblk0 V c 0 t
private abbrev ablk (c : Dev nD) (t : Fin cfg0.N) : Vec Ideal S1024x16 .f32 := iblk0 V c 1 t
private abbrev wablk (c : Dev nD) (t : Fin cfg0.N) : Vec Ideal S128x64 .f32 := iblk0 V c 2 t
private abbrev wbblk (c : Dev nD) (t : Fin cfg0.N) : Vec Ideal S16x64 .f32 := iblk0 V c 3 t
private abbrev bblk (c : Dev nD) (t : Fin cfg0.N) : Vec Ideal S1x64 .f32 := iblk0 V c 4 t

private abbrev xarr (c : Dev nD) : Cert.Node.Mat 16384 512 := V c main_arg0
private abbrev aarr (c : Dev nD) : Cert.Node.Mat 16384 16 := V c main_v1
private abbrev waarr (c : Dev nD) : Cert.Node.Mat 128 64 := V c main_v3
private abbrev wbarr (c : Dev nD) : Cert.Node.Mat 16 64 := V c main_v5
private abbrev barr (c : Dev nD) : Cert.Node.Mat 1 64 := V c main_v7

/-- The h array the region is to leave: the first linear layer of its operand arrays. -/
private abbrev harr (c : Dev nD) : Cert.Node.Mat 16384 64 :=
  fun i => Cert.Node.lin1 (xarr V c) (aarr V c) (waarr V c) (wbarr V c) (barr V c) (i 0) (i 1)

/-- After the body at any point the h block's buffer holds the payload of that point's input blocks. -/
private theorem blk_at (c : Dev nD) (t : Fin cfg0.N) :
    (outsAt0 V c t.val t.isLt).1 = k0_pay1 (F := Ideal) (xblk V c t) (wablk V c t) (ablk V c t) (wbblk V c t) (bblk V c t) := by
  by_cases h0 : t.val % 16 = 0
  · rw [outsAt0_A V c t h0]
    dsimp only
    exact out_A (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h0)
      (xblk V c t) (ablk V c t) (wablk V c t) (wbblk V c t) (bblk V c t)
  · rw [outsAt0_B V c t h0]
    dsimp only
    exact out_B (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h => h0 ((hcond0_0 t).mp h))
      (xblk V c t) (ablk V c t) (wablk V c t) (wbblk V c t) (bblk V c t)
      (outsAt0 V c (t.val - 1) (Nat.lt_of_le_of_lt (Nat.sub_le _ _) t.isLt)).2

/-! ## The index maps over the grid, and each input block read at an index -/

/-- The x, attr and h windows' block index at point t is (t, 0); the two weight windows' and the bias window's is (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the x block at point t is row 1024 t + r of x, within its first 128 columns. -/
private theorem xblk_apply (c : Dev nD) (t : Fin cfg0.N) (r : Fin 1024) (k : Fin 128) (R : Fin 16384)
    (hR : R.val = 1024 * t.val + r.val) :
    xblk V c t (ix2 r k) = xarr V c (ix2 R (Fin.castLE (by norm_num) k)) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 128 + 1 * k.val = k.val; rw [e1]; omega

/-- Row r of the attr block at point t is row 1024 t + r of attr. -/
private theorem ablk_apply (c : Dev nD) (t : Fin cfg0.N) (r : Fin 1024) (k : Fin 16) (R : Fin 16384)
    (hR : R.val = 1024 * t.val + r.val) :
    ablk V c t (ix2 r k) = aarr V c (ix2 R k) := by
  obtain ⟨-, -, e0, e1, -⟩ := idx_facts t
  unfold ablk iblk0
  rw [View.read_apply]
  show V c main_v1 _ = V c main_v1 _
  congr 1
  funext a
  apply Fin.ext
  match a with
  | ⟨0, _⟩ => show win0_1.index t (0 : Fin 2) * 1024 + 1 * r.val = R.val; rw [e0, hR]; omega
  | ⟨1, _⟩ => show win0_1.index t (1 : Fin 2) * 16 + 1 * k.val = k.val; rw [e1]; omega

/-- The left weight block is the whole left weight array at every point. -/
private theorem wablk_apply (c : Dev nD) (t : Fin cfg0.N) (k : Fin 128) (j : Fin 64) :
    wablk V c t (ix2 k j) = waarr V c (ix2 k j) := by
  obtain ⟨-, -, -, -, e0, e1, -⟩ := idx_facts t
  unfold wablk iblk0
  rw [View.read_apply]
  show V c main_v3 _ = V c main_v3 _
  congr 1
  funext a
  apply Fin.ext
  match a with
  | ⟨0, _⟩ => show win0_2.index t (0 : Fin 2) * 128 + 1 * k.val = k.val; rw [e0]; omega
  | ⟨1, _⟩ => show win0_2.index t (1 : Fin 2) * 64 + 1 * j.val = j.val; rw [e1]; omega

/-- The right weight block is the whole right weight array at every point. -/
private theorem wbblk_apply (c : Dev nD) (t : Fin cfg0.N) (k : Fin 16) (j : Fin 64) :
    wbblk V c t (ix2 k j) = wbarr V c (ix2 k j) := by
  obtain ⟨-, -, -, -, -, -, e0, e1, -⟩ := idx_facts t
  unfold wbblk iblk0
  rw [View.read_apply]
  show V c main_v5 _ = V c main_v5 _
  congr 1
  funext a
  apply Fin.ext
  match a with
  | ⟨0, _⟩ => show win0_3.index t (0 : Fin 2) * 16 + 1 * k.val = k.val; rw [e0]; omega
  | ⟨1, _⟩ => show win0_3.index t (1 : Fin 2) * 64 + 1 * j.val = j.val; rw [e1]; omega

/-- The bias block is the whole bias row at every point. -/
private theorem bblk_apply (c : Dev nD) (t : Fin cfg0.N) (k : Fin 1) (j : Fin 64) :
    bblk V c t (ix2 k j) = barr V c (ix2 k j) := by
  obtain ⟨-, -, -, -, -, -, -, -, e0, e1, -⟩ := idx_facts t
  unfold bblk iblk0
  rw [View.read_apply]
  show V c main_v7 _ = V c main_v7 _
  congr 1
  funext a
  apply Fin.ext
  match a with
  | ⟨0, _⟩ => show win0_4.index t (0 : Fin 2) * 1 + 1 * k.val = k.val; rw [e0]; omega
  | ⟨1, _⟩ => show win0_4.index t (1 : Fin 2) * 64 + 1 * j.val = j.val; rw [e1]; omega

/-- The payload of point t's blocks at row r, column j, is the first linear layer at row 1024 t + r, column j. -/
private theorem pay_at (c : Dev nD) (t : Fin cfg0.N) (r : Fin 1024) (j : Fin 64) (R : Fin 16384) (J : Fin 64)
    (hR : R.val = 1024 * t.val + r.val) (hJ : J = j) :
    k0_pay1 (F := Ideal) (xblk V c t) (wablk V c t) (ablk V c t) (wbblk V c t) (bblk V c t) (ix2 r j)
      = Cert.Node.lin1 (xarr V c) (aarr V c) (waarr V c) (wbarr V c) (barr V c) R J := by
  subst hJ
  refine (pay1_apply (xblk V c t) (wablk V c t) (ablk V c t) (wbblk V c t) (bblk V c t) r J).trans ?_
  unfold Cert.Node.lin1
  refine congrArg₂ (· + ·) (congrArg₂ (· + ·) (Finset.sum_congr rfl fun k _ => ?_) (Finset.sum_congr rfl fun k _ => ?_)) ?_
  · rw [xblk_apply V c t r k R hR, wablk_apply V c t k J]
  · rw [ablk_apply V c t r k R hR, wbblk_apply V c t k J]
  · exact bblk_apply V c t 0 J

/-! ## What each point writes back, the cover, the array -/

/-- What point t writes back is its block of the h array. -/
private theorem flushed_eq (c : Dev nD) (t : Fin cfg0.N) :
    (dat0 (F := Ideal) V c).flushed 5 t = ((cfg0.win 5).blk t).view.read (Elt Ideal) (harr V c) := by
  show (cfg0.win 5).cut (grid0.coords t) ((dat0 (F := Ideal) V c).after 5 t) = _
  rw [after0_5, blk_at]
  obtain ⟨-, -, -, -, -, -, -, -, -, -, e0, e1⟩ := idx_facts t
  funext y
  obtain ⟨r, j, rfl⟩ : ∃ (r : Fin 1024) (j : Fin 64), y = ix2 r j := ⟨y 0, y 1, eq_ix2 (n0 := 1024) (n1 := 64) y⟩
  rw [View.read_apply]
  show k0_pay1 (F := Ideal) (xblk V c t) (wablk V c t) (ablk V c t) (wbblk V c t) (bblk V c t) (ix2 r j)
    = harr V c (((cfg0.win 5).blk t).view.emb (ix2 r j))
  exact pay_at V c t r j ((((cfg0.win 5).blk t).view.emb (ix2 r j)) 0) ((((cfg0.win 5).blk t).view.emb (ix2 r j)) 1)
    (by show win0_5.index t (0 : Fin 2) * 1024 + 1 * r.val = 1024 * t.val + r.val; rw [e0]; omega)
    (Fin.ext (by show win0_5.index t (1 : Fin 2) * 64 + 1 * j.val = j.val; rw [e1]; omega))

/-- An index of the h array is in point t's block iff each coordinate is in the block's range on its axis. -/
private theorem mem_blk (t : Fin cfg0.N) (i : S16384x64.Idx) :
    i ∈ ((cfg0.win 5).blk t).view.set ↔ ∀ a : Fin 2, win0_5.index t a * S1024x64.size a ≤ (i a).val
      ∧ (i a).val < win0_5.index t a * S1024x64.size a + S1024x64.size a := by
  show i ∈ ((View.whole main_v8_0).slice (win0_5.rect t)).set ↔ _
  rw [View.set_slice_whole, Rect.mem_set_unit]
  exact Iff.rfl

/-- Row R of the h array lies in the block of point R / 1024, and every point writes its block back. -/
private theorem covered (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 :=
    ⟨⟨(i 0).val / 1024, lt_of_lt_of_eq (by omega) hN.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 64 ≤ (i 1).val ∧ (i 1).val < win0_5.index t (1 : Fin 2) * 64 + 64
    rw [e1]; omega

/-- After the first region the h array holds the first linear layer of the region's operand arrays. -/
theorem h_final (c : Dev nD) :
    (dat0 (F := Ideal) V c).arrAt 5 cfg0.N
      = fun i => Cert.Node.lin1 (V c main_arg0) (V c main_v1) (V c main_v3) (V c main_v5) (V c main_v7) (i 0) (i 1) :=
  (dat0 (F := Ideal) V c).arrAt_eq_of_cover 5 (harr V c) (fun t _ => flushed_eq V c t) (covered)

end Cert.KernelIdeal.R0

end
-- ==== Proof.LibBlockSum.lean ====
/-
  A sum over a·b consecutive indices, taken block by block: a blocks of b.
-/
import Mathlib.Algebra.BigOperators.Fin
import Mathlib.Logic.Equiv.Fin.Basic

namespace Cert.Lib

/-- The sum of `f` over the indices below `a * b` is the sum over the `a` blocks (a `Finset.range`, as a fold over
    grid points leaves it) of the sums over the `b` indices inside each block, index `b * s + r` being entry `r` of
    block `s`. Holds in any commutative additive monoid (the extended reals included: no finiteness is asked). -/
theorem sum_range_blocks {M : Type*} [AddCommMonoid M] (a b : ℕ) (f : ℕ → M) :
    ∑ s ∈ Finset.range a, ∑ r : Fin b, f (b * s + r.val) = ∑ R : Fin (a * b), f R.val := by
  rw [Finset.sum_range (fun s => ∑ r : Fin b, f (b * s + r.val))]
  rw [← Equiv.sum_comp (finProdFinEquiv (m := a) (n := b)) (fun R : Fin (a * b) => f R.val), Fintype.sum_prod_type]
  refine Finset.sum_congr rfl fun s _ => Finset.sum_congr rfl fun r _ => ?_
  congr 1
  simp [finProdFinEquiv, Nat.add_comm]

end Cert.Lib
-- ==== Proof.KR0St.lean ====
/-
  The statistics array after the first region.

  The region's grid has 16 points; point t computes rows 1024 t … 1024 t + 1023 of h = x·Wa + a·Wb + b and keeps ONE
  [8, 64] statistics block across the points: zeroed at point 0, then at every point row 0 gains the column sums of that
  point's rows of h, row 1 the column sums of their squares, rows 2–7 gain zeros; the block is written back once, after
  the last point, and is the whole array. Read in that order below: what the body leaves in the block at a point (the
  first point over zeros, a later point over what the point before left); the update at an entry over the extended
  reals; the input blocks as rows of the arrays; the block after point n as the sum of the addends of points 0 … n, by
  induction on n; sixteen blocks of 1024 rows re-indexed as 16384 rows; the one write-back.
-/
import proofs.«107747_g15401752723588_cont_week2b_928_3_alg».proof.Proof.KR0Pay
import proofs.«107747_g15401752723588_cont_week2b_928_3_alg».proof.Proof.LibBlockSum
import Idealize.ShloMosaic.Lib.ValueLayout
import Idealize.ShloMosaic.Lib.Tactic

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

section Pieces
variable {F : FTy → Type} [FloatOps F]

private theorem hz2 : (![0, 0] : Fin 2 → Nat) = fun _ => 0 := funext fun a => by fin_cases a <;> rfl

/-- At a later point the body leaves, in the statistics block holding `xo`, the update of `xo` by this point's rows. -/
private theorem out_B (c : Dev nD) (i : grid0.Coords) (a1 : Memref sig .tc .vmem S1024x128 .f32) (h1 : a1.IsWhole)
    (a2 : Memref sig .tc .vmem S1024x16 .f32) (h2 : a2.IsWhole) (a3 : Memref sig .tc .vmem S128x64 .f32) (h3 : a3.IsWhole)
    (a4 : Memref sig .tc .vmem S16x64 .f32) (h4 : a4.IsWhole) (a5 : Memref sig .tc .vmem S1x64 .f32) (h5 : a5.IsWhole)
    (a6 : Memref sig .tc .vmem S1024x64 .f32) (h6 : a6.IsWhole) (a7 : Memref sig .tc .vmem S8x64 .f32) (h7 : a7.IsWhole)
    (hc : ¬cond0_0 i) (x0 : Vec F S1024x128 .f32) (x1 : Vec F S1024x16 .f32) (x2 : Vec F S128x64 .f32)
    (x3 : Vec F S16x64 .f32) (x4 : Vec F S1x64 .f32) (xo : Vec F S8x64 .f32) :
    out0_B_6 c i a1 h1 a2 h2 a3 h3 a4 h4 a5 h5 a6 h6 a7 h7 hc x0 x1 x2 x3 x4 xo = k0_pay3 x0 x2 x1 x3 x4 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, h7.read_unread,
    View.ld_unit_zero (S := S1024x128) hz2, View.ld_unit_zero (S := S1024x16) hz2, View.ld_unit_zero (S := S128x64) hz2,
    View.ld_unit_zero (S := S16x64) hz2, View.ld_unit_zero (S := S1x64) hz2, View.ld_unit_zero (S := S8x64) hz2]

/-- At the first point the body zeroes the statistics block, reads the zeros back and leaves their update by this
    point's rows. -/
private theorem out_A (c : Dev nD) (i : grid0.Coords) (a1 : Memref sig .tc .vmem S1024x128 .f32) (h1 : a1.IsWhole)
    (a2 : Memref sig .tc .vmem S1024x16 .f32) (h2 : a2.IsWhole) (a3 : Memref sig .tc .vmem S128x64 .f32) (h3 : a3.IsWhole)
    (a4 : Memref sig .tc .vmem S16x64 .f32) (h4 : a4.IsWhole) (a5 : Memref sig .tc .vmem S1x64 .f32) (h5 : a5.IsWhole)
    (a6 : Memref sig .tc .vmem S1024x64 .f32) (h6 : a6.IsWhole) (a7 : Memref sig .tc .vmem S8x64 .f32) (h7 : a7.IsWhole)
    (hc : cond0_0 i) (x0 : Vec F S1024x128 .f32) (x1 : Vec F S1024x16 .f32) (x2 : Vec F S128x64 .f32)
    (x3 : Vec F S16x64 .f32) (x4 : Vec F S1x64 .f32) :
    out0_A_6 c i a1 h1 a2 h2 a3 h3 a4 h4 a5 h5 a6 h6 a7 h7 hc x0 x1 x2 x3 x4 = k0_pay3 x0 x2 x1 x3 x4 (k0_pay2 (F := F)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S8x64) hz2, View.readCov_unit_zero (S := S8x64) _ hz2]
  simp only [View.readAt_eq_ld, h1.read_unread, h2.read_unread, h3.read_unread, h4.read_unread, h5.read_unread,
    View.ld_unit_zero (S := S1024x128) hz2, View.ld_unit_zero (S := S1024x16) hz2, View.ld_unit_zero (S := S128x64) hz2,
    View.ld_unit_zero (S := S16x64) hz2, View.ld_unit_zero (S := S1x64) hz2]

end Pieces

section AtIdeal

/-- A sum over the rows of a [1024, 64] block, lane by lane. -/
private theorem colsum_apply (x : FVec Ideal S1024x64 .f32) (hφ : FKind.Formats .f32)
    (hacc : (0x00000000#32 : BitVec FTy.f32.bits) = FKind.add.neutral .f32 hφ) (j : Fin 64) :
    multiReduction (F := Ideal) .add [0] S64 x 0x00000000#32 reduces_S1024x64_S64 hφ hacc (ix1 j)
      = ∑ r : Fin 1024, x (ix2 r j) := by
  refine (Ideal.multiReduction_add_single x 0x00000000#32 reduces_S1024x64_S64 hφ hacc (ix1 j)).trans ?_
  refine Finset.sum_congr rfl fun r _ => congrArg x ?_
  funext a
  match a with
  | ⟨0, _⟩ => rfl
  | ⟨1, _⟩ => rfl

/-- The statistics update at an entry: row 0 gains the lane's sum over the block's rows, row 1 the sum of squares,
    the other rows nothing. -/
private theorem stat_apply (x : FVec Ideal S1024x64 .f32) (v25 : FVec Ideal S8x64 .f32) (p : Fin 8) (j : Fin 64) :
    addf (shapeCast S8x64 v25 shapeCasts_S8x64_S8x64)
      (concatenate S8x64 0
        [⟨S1x64, shapeCast S1x64 (multiReduction (F := Ideal) .add [0] S64 x 0x00000000#32 reduces_S1024x64_S64 (.inl rfl) rfl) shapeCasts_S64_S1x64⟩,
         ⟨S1x64, shapeCast S1x64 (multiReduction (F := Ideal) .add [0] S64 (mulf x x) 0x00000000#32 reduces_S1024x64_S64 (.inl rfl) rfl) shapeCasts_S64_S1x64⟩,
         ⟨S6x64, broadcast S6x64 (Scalar.ofBits (F := Ideal) .f32 0x00000000#32)⟩]
        concatenates_S1x64_S1x64_S6x64_S8x64_d0) (ix2 p j)
      = v25 (ix2 p j) + (if p.val = 0 then ∑ r : Fin 1024, x (ix2 r j)
          else if p.val = 1 then ∑ r : Fin 1024, x (ix2 r j) * x (ix2 r j) else 0) := by
  refine (addf_apply _ _ _).trans ?_
  rw [shapeCast_self]
  congr 1
  by_cases h0 : p.val = 0
  · rw [if_pos h0]
    refine (concatenate_apply_piece (0 : Fin S8x64.rank) _ _ (ix2 p j) 0 (by simp)
      S1x64 _ rfl rfl 0 rfl (ix2 (0 : Fin 1) j) ?_ ?_).trans ?_
    · intro b hb
      match b with
      | ⟨0, _⟩ => exact absurd rfl hb
      | ⟨1, _⟩ => rfl
    · show 0 + 0 = p.val
      omega
    · rw [shapeCast_a_1a_apply]
      exact colsum_apply x _ _ j
  · rw [if_neg h0]
    by_cases h1 : p.val = 1
    · rw [if_pos h1]
      refine (concatenate_apply_piece (0 : Fin S8x64.rank) _ _ (ix2 p j) 1 (by simp)
        S1x64 _ rfl rfl 1 rfl (ix2 (0 : Fin 1) j) ?_ ?_).trans ?_
      · intro b hb
        match b with
        | ⟨0, _⟩ => exact absurd rfl hb
        | ⟨1, _⟩ => rfl
      · show 1 + 0 = p.val
        omega
      · rw [shapeCast_a_1a_apply]
        exact colsum_apply (mulf x x) _ _ j
    · rw [if_neg h1]
      have hp : p.val - 2 < 6 := by have := p.isLt; omega
      refine (concatenate_apply_piece (0 : Fin S8x64.rank) _ _ (ix2 p j) 2 (by simp)
        S6x64 _ rfl rfl 2 rfl (ix2 (⟨p.val - 2, hp⟩ : Fin 6) j) ?_ ?_).trans ?_
      · intro b hb
        match b with
        | ⟨0, _⟩ => exact absurd rfl hb
        | ⟨1, _⟩ => rfl
      · show 2 + (p.val - 2) = p.val
        omega
      · exact Ideal.ofBits_zero_f32

/-- The statistics payload at an entry. -/
private theorem pay3_apply (v0 : Vec Ideal S1024x128 .f32) (v1 : Vec Ideal S128x64 .f32) (v4 : Vec Ideal S1024x16 .f32)
    (v6 : Vec Ideal S16x64 .f32) (v10 : Vec Ideal S1x64 .f32) (v25 : Vec Ideal S8x64 .f32) (p : Fin 8) (j : Fin 64) :
    k0_pay3 (F := Ideal) v0 v1 v4 v6 v10 v25 (ix2 p j)
      = v25 (ix2 p j) + (if p.val = 0 then ∑ r : Fin 1024, k0_pay1 (F := Ideal) v0 v1 v4 v6 v10 (ix2 r j)
          else if p.val = 1 then ∑ r : Fin 1024, k0_pay1 (F := Ideal) v0 v1 v4 v6 v10 (ix2 r j) * k0_pay1 (F := Ideal) v0 v1 v4 v6 v10 (ix2 r j)
          else 0) :=
  stat_apply (k0_pay1 (F := Ideal) v0 v1 v4 v6 v10) v25 p j

/-- The zero block at an entry. -/
private theorem pay2_apply (i : S8x64.Idx) : k0_pay2 (F := Ideal) i = 0 := Ideal.ofBits_zero_f32

end AtIdeal

section Blocks

variable (V : (c : Dev nD) → (b : Ref sig .tc) → Buf (Elt Ideal) ((c : Thread nD τ).loc b))

/-- The five arrays the first region reads, at their literal types. -/
private abbrev xarr (c : Dev nD) : Cert.Node.Mat 16384 512 := V c main_arg0
private abbrev aarr (c : Dev nD) : Cert.Node.Mat 16384 16 := V c main_v1
private abbrev waarr (c : Dev nD) : Cert.Node.Mat 128 64 := V c main_v3
private abbrev wbarr (c : Dev nD) : Cert.Node.Mat 16 64 := V c main_v5
private abbrev barr (c : Dev nD) : Cert.Node.Mat 1 64 := V c main_v7

/-- Their blocks at a grid point, at their literal types. -/
private abbrev xblk (c : Dev nD) (t : Fin cfg0.N) : Vec Ideal S1024x128 .f32 := iblk0 V c 0 t
private abbrev ablk (c : Dev nD) (t : Fin cfg0.N) : Vec Ideal S1024x16 .f32 := iblk0 V c 1 t
private abbrev wablk (c : Dev nD) (t : Fin cfg0.N) : Vec Ideal S128x64 .f32 := iblk0 V c 2 t
private abbrev wbblk (c : Dev nD) (t : Fin cfg0.N) : Vec Ideal S16x64 .f32 := iblk0 V c 3 t
private abbrev bblk (c : Dev nD) (t : Fin cfg0.N) : Vec Ideal S1x64 .f32 := iblk0 V c 4 t

/-- Where each window's block sits: the row windows at block row `t`, the weight and bias windows at the origin. -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
private theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
private theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
private theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
private theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

private theorem xblk_apply (c : Dev nD) (t : Fin cfg0.N) (r : Fin 1024) (k : Fin 128) (hR : 1024 * t.val + r.val < 16384) :
    xblk V c t (ix2 r k) = xarr V c (ix2 (⟨1024 * t.val + r.val, hR⟩ : Fin 16384) (Fin.castLE (by norm_num) k : Fin 512)) := by
  show iblk0 V c 0 t (ix2 r k) = _
  unfold iblk0
  rw [View.read_apply]
  show V c main_arg0 _ = V c main_arg0 _
  congr 1
  funext a
  apply Fin.ext
  match a with
  | ⟨0, _⟩ => show win0_0.index t 0 * 1024 + 1 * r.val = 1024 * t.val + r.val; rw [(idx0 t).1]; omega
  | ⟨1, _⟩ => show win0_0.index t 1 * 128 + 1 * k.val = k.val; rw [(idx0 t).2]; omega

private theorem ablk_apply (c : Dev nD) (t : Fin cfg0.N) (r : Fin 1024) (k : Fin 16) (hR : 1024 * t.val + r.val < 16384) :
    ablk V c t (ix2 r k) = aarr V c (ix2 (⟨1024 * t.val + r.val, hR⟩ : Fin 16384) k) := by
  show iblk0 V c 1 t (ix2 r k) = _
  unfold iblk0
  rw [View.read_apply]
  show V c main_v1 _ = V c main_v1 _
  congr 1
  funext a
  apply Fin.ext
  match a with
  | ⟨0, _⟩ => show win0_1.index t 0 * 1024 + 1 * r.val = 1024 * t.val + r.val; rw [(idx1 t).1]; omega
  | ⟨1, _⟩ => show win0_1.index t 1 * 16 + 1 * k.val = k.val; rw [(idx1 t).2]; omega

private theorem wablk_apply (c : Dev nD) (t : Fin cfg0.N) (k : Fin 128) (j : Fin 64) :
    wablk V c t (ix2 k j) = waarr V c (ix2 k j) := by
  show iblk0 V c 2 t (ix2 k j) = _
  unfold iblk0
  rw [View.read_apply]
  show V c main_v3 _ = V c main_v3 _
  congr 1
  funext a
  apply Fin.ext
  match a with
  | ⟨0, _⟩ => show win0_2.index t 0 * 128 + 1 * k.val = k.val; rw [(idx2 t).1]; omega
  | ⟨1, _⟩ => show win0_2.index t 1 * 64 + 1 * j.val = j.val; rw [(idx2 t).2]; omega

private theorem wbblk_apply (c : Dev nD) (t : Fin cfg0.N) (k : Fin 16) (j : Fin 64) :
    wbblk V c t (ix2 k j) = wbarr V c (ix2 k j) := by
  show iblk0 V c 3 t (ix2 k j) = _
  unfold iblk0
  rw [View.read_apply]
  show V c main_v5 _ = V c main_v5 _
  congr 1
  funext a
  apply Fin.ext
  match a with
  | ⟨0, _⟩ => show win0_3.index t 0 * 16 + 1 * k.val = k.val; rw [(idx3 t).1]; omega
  | ⟨1, _⟩ => show win0_3.index t 1 * 64 + 1 * j.val = j.val; rw [(idx3 t).2]; omega

private theorem bblk_apply (c : Dev nD) (t : Fin cfg0.N) (u : Fin 1) (j : Fin 64) :
    bblk V c t (ix2 u j) = barr V c (ix2 u j) := by
  show iblk0 V c 4 t (ix2 u j) = _
  unfold iblk0
  rw [View.read_apply]
  show V c main_v7 _ = V c main_v7 _
  congr 1
  funext a
  apply Fin.ext
  match a with
  | ⟨0, _⟩ => show win0_4.index t 0 * 1 + 1 * u.val = u.val; rw [(idx4 t).1]; omega
  | ⟨1, _⟩ => show win0_4.index t 1 * 64 + 1 * j.val = j.val; rw [(idx4 t).2]; omega

end Blocks

section Acc

variable (V : (c : Dev nD) → (b : Ref sig .tc) → Buf (Elt Ideal) ((c : Thread nD τ).loc b))

/-- Row `R` of h, for every natural `R` (zero past the array's 16384 rows, which no grid point reads). -/
private def hrow (c : Dev nD) (R : ℕ) (j : Fin 64) : EReal :=
  if h : R < 16384 then Cert.Node.lin1 (xarr V c) (aarr V c) (waarr V c) (wbarr V c) (barr V c) ⟨R, h⟩ j else 0

/-- What grid point `s` adds to the statistics block: the column sums of its 1024 rows of h, of their squares, zeros. -/
private def addend (c : Dev nD) (s : ℕ) (p : Fin 8) (j : Fin 64) : EReal :=
  if p.val = 0 then ∑ r : Fin 1024, hrow V c (1024 * s + r.val) j
  else if p.val = 1 then ∑ r : Fin 1024, hrow V c (1024 * s + r.val) j * hrow V c (1024 * s + r.val) j
  else 0

/-- The block of h a grid point computes is rows `1024 t … 1024 t + 1023` of h. -/
private theorem pay1_blk (c : Dev nD) (t : Fin cfg0.N) (r : Fin 1024) (j : Fin 64) :
    k0_pay1 (F := Ideal) (xblk V c t) (wablk V c t) (ablk V c t) (wbblk V c t) (bblk V c t) (ix2 r j)
      = hrow V c (1024 * t.val + r.val) j := by
  have hN : t.val < 16 := lt_of_lt_of_eq t.isLt (show cfg0.N = 16 from N_0)
  have hR : 1024 * t.val + r.val < 16384 := by have := r.isLt; omega
  refine (pay1_apply (xblk V c t) (wablk V c t) (ablk V c t) (wbblk V c t) (bblk V c t) r j).trans ?_
  unfold hrow
  rw [dif_pos hR]
  unfold Cert.Node.lin1
  refine congrArg₂ (· + ·) (congrArg₂ (· + ·) ?_ ?_) ?_
  · exact Finset.sum_congr rfl fun k _ => by rw [xblk_apply V c t r k hR, wablk_apply V c t k j]
  · exact Finset.sum_congr rfl fun k _ => by rw [ablk_apply V c t r k hR, wbblk_apply V c t k j]
  · exact bblk_apply V c t 0 j

/-- One point's update of the statistics block, at an entry. -/
private theorem upd_apply (c : Dev nD) (t : Fin cfg0.N) (xo : Vec Ideal S8x64 .f32) (p : Fin 8) (j : Fin 64) :
    k0_pay3 (F := Ideal) (xblk V c t) (wablk V c t) (ablk V c t) (wbblk V c t) (bblk V c t) xo (ix2 p j)
      = xo (ix2 p j) + addend V c t.val p j := by
  refine (pay3_apply (xblk V c t) (wablk V c t) (ablk V c t) (wbblk V c t) (bblk V c t) xo p j).trans ?_
  unfold addend
  refine congrArg (xo (ix2 p j) + ·) ?_
  by_cases h0 : p.val = 0
  · simp only [if_pos h0]
    exact Finset.sum_congr rfl fun r _ => pay1_blk V c t r j
  · simp only [if_neg h0]
    by_cases h1 : p.val = 1
    · simp only [if_pos h1]
      exact Finset.sum_congr rfl fun r _ => by rw [pay1_blk V c t r j]
    · simp only [if_neg h1]

/-- After point `n` the statistics block holds the addends of points `0 … n`: by induction on the point. -/
private theorem outs_eq (c : Dev nD) : ∀ (n : ℕ) (h : n < cfg0.N) (p : Fin 8) (j : Fin 64),
    (outsAt0 V c n h).2 (ix2 p j) = ∑ s ∈ Finset.range (n + 1), addend V c s p j
  | 0, h, p, j => by
    rw [outsAt0_A V c ⟨0, h⟩ rfl]
    dsimp only
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
      (ms0_6 ⟨0, h⟩) (hs0_6 ⟨0, h⟩) ((hcond0_0 ⟨0, h⟩).mpr rfl) (xblk V c ⟨0, h⟩) (ablk V c ⟨0, h⟩) (wablk V c ⟨0, h⟩)
      (wbblk V c ⟨0, h⟩) (bblk V c ⟨0, h⟩)) (ix2 p j)).trans ?_
    refine (upd_apply V c ⟨0, h⟩ (k0_pay2 (F := Ideal)) p j).trans ?_
    rw [pay2_apply, zero_add, Finset.sum_range_one]
  | n + 1, h, p, j => by
    have hN : cfg0.N = 16 := N_0
    have hB : ¬(⟨n + 1, h⟩ : Fin cfg0.N).val % 16 = 0 := by dsimp only; omega
    rw [outsAt0_B V c ⟨n + 1, h⟩ hB]
    dsimp only
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (xblk V c ⟨n + 1, h⟩) (ablk V c ⟨n + 1, h⟩) (wablk V c ⟨n + 1, h⟩)
      (wbblk V c ⟨n + 1, h⟩) (bblk V c ⟨n + 1, h⟩) (outsAt0 V c n (Nat.lt_of_succ_lt h)).2) (ix2 p j)).trans ?_
    refine (upd_apply V c ⟨n + 1, h⟩ (outsAt0 V c n (Nat.lt_of_succ_lt h)).2 p j).trans ?_
    rw [Finset.sum_range_succ _ (n + 1)]
    exact congrArg (· + addend V c (n + 1) p j) (outs_eq c n (Nat.lt_of_succ_lt h) p j)

/-- After the last point the block is the statistics of all 16384 rows. -/
private theorem outs_last (c : Dev nD) (n : ℕ) (h : n < cfg0.N) (hn : n = 15) :
    (outsAt0 V c n h).2
      = fun i => Cert.Node.stats (Cert.Node.lin1 (V c main_arg0) (V c main_v1) (V c main_v3) (V c main_v5) (V c main_v7)) (i 0) (i 1) := by
  subst hn
  funext i
  obtain ⟨p, j, rfl⟩ : ∃ (p : Fin 8) (j : Fin 64), i = ix2 p j := ⟨i 0, i 1, eq_ix2 i⟩
  refine (outs_eq V c 15 h p j).trans ?_
  show ∑ s ∈ Finset.range 16, addend V c s p j = Cert.Node.stats _ p j
  unfold addend Cert.Node.stats
  by_cases h0 : p.val = 0
  · simp only [if_pos h0]
    refine (Cert.Lib.sum_range_blocks 16 1024 (fun R => hrow V c R j)).trans ?_
    exact Finset.sum_congr rfl fun R _ => dif_pos R.isLt
  · simp only [if_neg h0]
    by_cases h1 : p.val = 1
    · simp only [if_pos h1]
      refine (Cert.Lib.sum_range_blocks 16 1024 (fun R => hrow V c R j * hrow V c R j)).trans ?_
      exact Finset.sum_congr rfl fun R _ => by rw [show hrow V c R.val j = _ from dif_pos R.isLt]
    · simp only [if_neg h1, Finset.sum_const_zero]

/-- The one write-back, at the last point, writes that block: block (0, 0) of the [8, 64] array is the array. -/
private theorem flushed_eq (c : Dev nD) (t : Fin cfg0.N) (hf : (cfg0.win 6).flush t = true) :
    (dat0 (F := Ideal) V c).flushed 6 t
      = ((cfg0.win 6).blk t).view.read (Elt Ideal)
          (fun i => Cert.Node.stats (Cert.Node.lin1 (V c main_arg0) (V c main_v1) (V c main_v3) (V c main_v5) (V c main_v7)) (i 0) (i 1)) := by
  have hN : t.val < 16 := lt_of_lt_of_eq t.isLt (show cfg0.N = 16 from N_0)
  have h15 : t.val = 15 := by have := (flush0_6 t).mp hf; omega
  show (cfg0.win 6).cut (grid0.coords t) ((dat0 (F := Ideal) V c).after 6 t) = _
  rw [after0_6, outs_last V c t.val t.isLt h15]
  have hz' : (fun a => win0_6.index t a * main_v8_1.ty.shape.size a) = fun _ => 0 :=
    funext fun a => by
      match a with
      | ⟨0, _⟩ => show win0_6.index t 0 * 8 = 0; rw [(idx6 t).1]
      | ⟨1, _⟩ => show win0_6.index t 1 * 64 = 0; rw [(idx6 t).2]
  exact (Memref.read_access_unit_zero (Elt Ideal) main_v8_1 hz' (fun a => by rw [congrFun hz' a]; simp) _).symm

end Acc

variable (V : (c : Dev nD) → (b : Ref sig .tc) → Buf (Elt Ideal) ((c : Thread nD τ).loc b))

/-- After the first region the statistics array holds the column sums of h and of h², and zeros below. -/
theorem st_final (c : Dev nD) :
    (dat0 (F := Ideal) V c).arrAt 6 cfg0.N
      = fun i => Cert.Node.stats (Cert.Node.lin1 (V c main_arg0) (V c main_v1) (V c main_v3) (V c main_v5) (V c main_v7)) (i 0) (i 1) :=
  (dat0 (F := Ideal) V c).arrAt_eq_of_cover 6 _ (flushed_eq V c) fun i =>
    ⟨t0_15, (flush0_6 t0_15).mpr rfl, by
      show i ∈ ((View.whole main_v8_1).slice (win0_6.rect t0_15)).set
      rw [View.set_slice_whole, Rect.mem_set_unit]
      intro a
      have h0 : (i 0 : Nat) < 8 := (i 0).isLt
      have h1 : (i 1 : Nat) < 64 := (i 1).isLt
      match a with
      | ⟨0, _⟩ =>
        show win0_6.index t0_15 0 * win0_6.size 0 ≤ (i 0 : Nat)
          ∧ (i 0 : Nat) < win0_6.index t0_15 0 * win0_6.size 0 + win0_6.xsize (grid0.coords t0_15) 0
        rw [show win0_6.index t0_15 0 * win0_6.size 0 = 0 from by decide +kernel,
          show win0_6.xsize (grid0.coords t0_15) 0 = 8 from by decide +kernel]
        omega
      | ⟨1, _⟩ =>
        show win0_6.index t0_15 1 * win0_6.size 1 ≤ (i 1 : Nat)
          ∧ (i 1 : Nat) < win0_6.index t0_15 1 * win0_6.size 1 + win0_6.xsize (grid0.coords t0_15) 1
        rw [show win0_6.index t0_15 1 * win0_6.size 1 = 0 from by decide +kernel,
          show win0_6.xsize (grid0.coords t0_15) 1 = 64 from by decide +kernel]
        omega⟩

end Cert.KernelIdeal.R0

end
-- ==== Proof.Consts.lean ====
/-
  The float words both programs spell, as the extended reals they denote: 0, 1, 2¹⁴ = 16384, 2⁻¹⁴ = 1/16384, the
  guard ε = 10995116 · 2⁻⁴⁰ (the float nearest 1e-5; only its sign matters), and +∞. Stated once, here, so that no other
  module unfolds the word-to-value map.
-/
import Idealize.ShloMosaic.PureOps.Ideal
import Mathlib.Tactic.NormNum
import Mathlib.Tactic.Positivity

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_inv16384 : Ideal.ofBits .f32 0x38800000#32 = (((1 : ℝ) / 16384 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem ofBits_inf : Ideal.ofBits .f32 0x7F800000#32 = ⊤ := by
  simp [Ideal.ofBits, Ideal.ieee]

end Cert.Consts

end
-- ==== Proof.KR1Pay.lean ====
import proofs.«107747_g15401752723588_cont_week2b_928_3_alg».proof.Proof.Gen.KernelIdeal.Skeleton
import proofs.«107747_g15401752723588_cont_week2b_928_3_alg».proof.Proof.Spec
import proofs.«107747_g15401752723588_cont_week2b_928_3_alg».proof.Proof.Consts
import Idealize.ShloMosaic.Lib.Pipeline.Value
import Idealize.ShloMosaic.Lib.ValueLayout
import Idealize.ShloMosaic.PureOps.Ideal.Laws

noncomputable section

namespace Cert.KernelIdeal.R1

open Idealize.ShloMosaic Idealize.ShloMosaic.TcCoe Idealize.ShloMosaic.ValueIdx Idealize.SL.Sem
open Cert.KernelIdeal Cert.KernelIdeal.Gen

/-! ## The transcendental vector operations at an index -/

private theorem rsqrt_at {s : Shape} (a : FVec Ideal s .f32) (i : s.Idx) : rsqrt a i = Ideal.rsqrt (a i) := rfl
private theorem exp_at {s : Shape} (a : FVec Ideal s .f32) (i : s.Idx) : exp a i = Ideal.exp (a i) := rfl
private theorem tanh_at {s : Shape} (a : FVec Ideal s .f32) (i : s.Idx) : tanh a i = Ideal.tanh (a i) := rfl

/-! ## The four [1, 64] rows: mean, variance, scale, shift -/

section Rows
variable (v0 : Vec Ideal S8x64 .f32) (v13 v16 : Vec Ideal S1x64 .f32) (v20 : Vec Ideal S1024x64 .f32)

/-- The mean row: row 0 of the statistics block times 2⁻¹⁴. -/
private def meanRow : FVec Ideal S1x64 .f32 :=
  mulf (extractStridedSlice S1x64 ![0, 0] (shapeCast S8x64 v0 shapeCasts_S8x64_S8x64) slices_S8x64_o0_0_S1x64)
    (broadcast S1x64 (Scalar.ofBits (F := Ideal) .f32 0x38800000#32))

private theorem meanRow_apply (k : Fin 64) : meanRow v0 (ix2 0 k) = Cert.Node.mean v0 k := by
  unfold meanRow Cert.Node.mean Cert.Node.invN
  rw [mulf_apply, broadcast_apply, shapeCast_self, slice2_axis0_apply 0 v0 _ (0 : Fin 1) k (0 : Fin 8) rfl]
  rfl

/-- The variance row: row 1 times 2⁻¹⁴, minus the mean squared. -/
private def varRow : FVec Ideal S1x64 .f32 :=
  subf (mulf (extractStridedSlice S1x64 ![1, 0] (shapeCast S8x64 v0 shapeCasts_S8x64_S8x64) slices_S8x64_o1_0_S1x64)
      (broadcast S1x64 (Scalar.ofBits (F := Ideal) .f32 0x38800000#32)))
    (mulf (meanRow v0) (meanRow v0))

private theorem varRow_apply (k : Fin 64) : varRow v0 (ix2 0 k) = Cert.Node.var v0 k := by
  unfold varRow Cert.Node.var Cert.Node.invN
  rw [subf_apply, mulf_apply, mulf_apply, broadcast_apply, meanRow_apply, shapeCast_self,
    slice2_axis0_apply 1 v0 _ (0 : Fin 1) k (1 : Fin 8) rfl]
  rfl

/-- The scale row: the reciprocal square root of variance plus ε, times γ. -/
private def scaleRow : FVec Ideal S1x64 .f32 :=
  mulf (rsqrt (addf (varRow v0) (broadcast S1x64 (Scalar.ofBits (F := Ideal) .f32 0x3727C5AC#32))))
    (shapeCast S1x64 v13 shapeCasts_S1x64_S1x64)

private theorem scaleRow_apply (k : Fin 64) : scaleRow v0 v13 (ix2 0 k) = Cert.Node.scale v0 v13 k := by
  unfold scaleRow Cert.Node.scale Cert.Node.eps
  rw [mulf_apply, rsqrt_at, addf_apply, broadcast_apply, varRow_apply, shapeCast_self]
  rfl

/-- The shift row: β minus mean times scale. -/
private def shiftRow : FVec Ideal S1x64 .f32 :=
  subf (shapeCast S1x64 v16 shapeCasts_S1x64_S1x64) (mulf (meanRow v0) (scaleRow v0 v13))

private theorem shiftRow_apply (k : Fin 64) : shiftRow v0 v13 v16 (ix2 0 k) = Cert.Node.shift v0 v13 v16 k := by
  unfold shiftRow Cert.Node.shift
  rw [subf_apply, mulf_apply, shapeCast_self, meanRow_apply, scaleRow_apply]

/-! ## The [1024, 64] activations -/

/-- The normalised block: h · scale + shift, the two rows broadcast over the 1024 rows. -/
private def normBlock : FVec Ideal S1024x64 .f32 :=
  addf (mulf (shapeCast S1024x64 v20 shapeCasts_S1024x64_S1024x64)
      (broadcastTo S1024x64 (scaleRow v0 v13) broadcasts_S1x64_S1024x64))
    (broadcastTo S1024x64 (shiftRow v0 v13 v16) broadcasts_S1x64_S1024x64)

private theorem normBlock_apply (r : Fin 1024) (k : Fin 64) :
    normBlock v0 v13 v16 v20 (ix2 r k)
      = v20 (ix2 r k) * Cert.Node.scale v0 v13 k + Cert.Node.shift v0 v13 v16 k := by
  unfold normBlock
  rw [addf_apply, mulf_apply, shapeCast_self, broadcastTo_1b_ab_apply, broadcastTo_1b_ab_apply, scaleRow_apply,
    shiftRow_apply]

/-- ELU of the normalised block: x where x > 0, exp x − 1 elsewhere. -/
private def eluBlock : FVec Ideal S1024x64 .f32 :=
  select (cmpf .ogt (normBlock v0 v13 v16 v20) (broadcast S1024x64 (Scalar.ofBits (F := Ideal) .f32 0x00000000#32)))
    (normBlock v0 v13 v16 v20)
    (subf (exp (normBlock v0 v13 v16 v20)) (broadcast S1024x64 (Scalar.ofBits (F := Ideal) .f32 0x3F800000#32)))

private theorem eluBlock_apply (r : Fin 1024) (k : Fin 64) :
    eluBlock v0 v13 v16 v20 (ix2 r k)
      = Cert.Node.elu (v20 (ix2 r k) * Cert.Node.scale v0 v13 k + Cert.Node.shift v0 v13 v16 k) := by
  unfold eluBlock Cert.Node.elu
  rw [select_apply, cmpf_apply, subf_apply, exp_at, broadcast_apply, broadcast_apply, normBlock_apply,
    Ideal.cmpf_def, Ideal.ofBits_def, Ideal.ofBits_def, Ideal.ofBits_zero_f32, Cert.Consts.ofBits_one]

end Rows

/-! ## The product with the weight block -/

private theorem lhs_ax0 (j : S1024x128.Idx) (k : dot_S1024x64_S64x128_S1024x128_1_0_0_1_n_n.contr.Idx) :
    (dot_S1024x64_S64x128_S1024x128_1_0_0_1_n_n.lhsIdx j k 0 : ℕ) = j 0 := by
  simp [DotDims.lhsIdx, dot_S1024x64_S64x128_S1024x128_1_0_0_1_n_n]; rfl
private theorem lhs_ax1 (j : S1024x128.Idx) (k : dot_S1024x64_S64x128_S1024x128_1_0_0_1_n_n.contr.Idx) :
    (dot_S1024x64_S64x128_S1024x128_1_0_0_1_n_n.lhsIdx j k 1 : ℕ) = k ⟨0, by decide⟩ := by
  simp [DotDims.lhsIdx, dot_S1024x64_S64x128_S1024x128_1_0_0_1_n_n]; rfl
private theorem rhs_ax0 (j : S1024x128.Idx) (k : dot_S1024x64_S64x128_S1024x128_1_0_0_1_n_n.contr.Idx) :
    (dot_S1024x64_S64x128_S1024x128_1_0_0_1_n_n.rhsIdx j k 0 : ℕ) = k ⟨0, by decide⟩ := by
  simp [DotDims.rhsIdx, dot_S1024x64_S64x128_S1024x128_1_0_0_1_n_n]; rfl
private theorem rhs_ax1 (j : S1024x128.Idx) (k : dot_S1024x64_S64x128_S1024x128_1_0_0_1_n_n.contr.Idx) :
    (dot_S1024x64_S64x128_S1024x128_1_0_0_1_n_n.rhsIdx j k 1 : ℕ) = j 1 := by
  simp [DotDims.rhsIdx, dot_S1024x64_S64x128_S1024x128_1_0_0_1_n_n]; rfl

/-- The [1024, 64] by [64, 128] product into a zero accumulator, at (r, n): the sum over the 64 contracted columns. -/
private theorem matmul_at (A : FVec Ideal S1024x64 .f32) (B : FVec Ideal S64x128 .f32) (r : Fin 1024) (n : Fin 128) :
    matmul dot_S1024x64_S64x128_S1024x128_1_0_0_1_n_n none A B (constant S1024x128 .f32 0x00000000#32) (ix2 r n)
      = ∑ k : Fin 64, A (ix2 r k) * B (ix2 k n) := by
  show FloatOps.matmul dot_S1024x64_S64x128_S1024x128_1_0_0_1_n_n none A B (constant S1024x128 .f32 0x00000000#32) (ix2 r n) = _
  rw [Ideal.matmul_constant_zero_apply,
    ← Equiv.sum_comp (contrEquiv1 dot_S1024x64_S64x128_S1024x128_1_0_0_1_n_n 64 rfl rfl).symm]
  refine Finset.sum_congr rfl fun k _ => ?_
  have hk := contrEquiv1_symm_val dot_S1024x64_S64x128_S1024x128_1_0_0_1_n_n 64 rfl rfl k
  have hl : dot_S1024x64_S64x128_S1024x128_1_0_0_1_n_n.lhsIdx (ix2 r n)
      ((contrEquiv1 dot_S1024x64_S64x128_S1024x128_1_0_0_1_n_n 64 rfl rfl).symm k) = ix2 r k :=
    Shape.idx_ext₂ (lhs_ax0 _ _) ((lhs_ax1 _ _).trans hk)
  have hr : dot_S1024x64_S64x128_S1024x128_1_0_0_1_n_n.rhsIdx (ix2 r n)
      ((contrEquiv1 dot_S1024x64_S64x128_S1024x128_1_0_0_1_n_n 64 rfl rfl).symm k) = ix2 k n :=
    Shape.idx_ext₂ ((rhs_ax0 _ _).trans hk) (rhs_ax1 _ _)
  rw [hl, hr]

/-! ## The payload -/

/-- The payload is tanh of the product of the ELU block with the weight block plus the broadcast bias row. -/
private theorem pay2_eq (v0 : Vec Ideal S8x64 .f32) (v13 v16 : Vec Ideal S1x64 .f32) (v20 : Vec Ideal S1024x64 .f32)
    (v32 : Vec Ideal S64x128 .f32) (v35 : Vec Ideal S1x128 .f32) :
    k1_pay2 (F := Ideal) v0 v13 v16 v20 v32 v35
      = tanh (addf (matmul dot_S1024x64_S64x128_S1024x128_1_0_0_1_n_n none (eluBlock v0 v13 v16 v20)
            (shapeCast S64x128 v32 shapeCasts_S64x128_S64x128 : FVec Ideal S64x128 .f32) (constant S1024x128 .f32 0x00000000#32))
          (broadcastTo S1024x128 (shapeCast S1x128 v35 shapeCasts_S1x128_S1x128 : FVec Ideal S1x128 .f32)
            broadcasts_S1x128_S1024x128)) := rfl

/-- The second region's block of results at one grid point, entry by entry: the statistics block gives mean, variance,
    scale and shift per feature; row r of the h block is scaled, shifted, passed through ELU, multiplied into the
    weight block, the bias row added, tanh taken. -/
theorem pay2_apply (v0 : Vec Ideal S8x64 .f32) (v13 v16 : Vec Ideal S1x64 .f32) (v20 : Vec Ideal S1024x64 .f32)
    (v32 : Vec Ideal S64x128 .f32) (v35 : Vec Ideal S1x128 .f32) (r : Fin 1024) (n : Fin 128) :
    k1_pay2 (F := Ideal) v0 v13 v16 v20 v32 v35 (ix2 r n)
      = Ideal.tanh ((∑ k : Fin 64,
            Cert.Node.elu (v20 (ix2 r k) * Cert.Node.scale v0 v13 k + Cert.Node.shift v0 v13 v16 k) * v32 (ix2 k n))
          + v35 (ix2 0 n)) := by
  rw [pay2_eq, tanh_at, addf_apply, matmul_at, shapeCast_self, shapeCast_self, broadcastTo_1b_ab_apply]
  exact congrArg (fun s => Ideal.tanh (s + v35 (ix2 0 n)))
    (Finset.sum_congr rfl fun k _ => by rw [eluBlock_apply])

end Cert.KernelIdeal.R1

end
-- ==== Proof.KR1.lean ====
import proofs.«107747_g15401752723588_cont_week2b_928_3_alg».proof.Proof.Gen.KernelIdeal.Frame
import proofs.«107747_g15401752723588_cont_week2b_928_3_alg».proof.Proof.KR1Pay
import Idealize.ShloMosaic.Lib.Pipeline.Value
import Idealize.ShloMosaic.PureOps.Ideal.Laws

/-
  The second region's result array, for any contents the region finds.

  At one grid point the body stores a block of zeros over its whole [1024, 512] result block and then the [1024, 128]
  block of projected rows over columns 128 … 255; read entry by entry the block is the projected row inside those columns
  and zero elsewhere (`block_apply`). The h block at point t is rows 1024 t … 1024 t + 1023 of the h array, every other
  operand's block is its whole array (`idx_facts`, `hblk_apply`, `stblk_eq` … `bblk_eq`), so the projected row is the second
  linear layer at row 1024 t + r (`pay2_eq_lin2`), and what point t writes back is block t of the placed array
  (`flushed_eq`). Row R lies in the block of point R / 1024, so the sixteen blocks cover the array (`out_final`).
-/

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body leaves in its result block, entry by entry: the zero block, overwritten in columns 128 … 255 by the
    block of projected rows computed from the six operand blocks. -/
theorem block_apply (c : Dev nD) (i : grid1.Coords) (arg1 : Memref sig .tc .vmem S1024x64 .f32) (harg1 : arg1.IsWhole) (arg2 : Memref sig .tc .vmem S8x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1024x512 .f32) (harg7 : arg7.IsWhole)
    (x0 : Vec Ideal S1024x64 .f32) (x1 : Vec Ideal S8x64 .f32) (x2 : Vec Ideal S1x64 .f32) (x3 : Vec Ideal S1x64 .f32) (x4 : Vec Ideal S64x128 .f32) (x5 : Vec Ideal S1x128 .f32)
    (r : Fin 1024) (q : Fin 512) :
    out1_A_6 (F := Ideal) c i arg1 harg1 arg2 harg2 arg3 harg3 arg4 harg4 arg5 harg5 arg6 harg6 arg7 harg7 x0 x1 x2 x3 x4 x5 (ix2 r q)
      = if h : 128 ≤ q.val ∧ q.val < 256 then k1_pay2 (F := Ideal) x1 x2 x3 x0 x4 x5 (ix2 r ⟨q.val - 128, by omega⟩) else 0 := by
  unfold out1_A_6
  rw [View.read_writes_eq_canon _ _ _ (cover1_A_6 c i arg1 harg1 arg2 harg2 arg3 harg3 arg4 harg4 arg5 harg5 arg6 harg6 arg7 harg7 x0 x1 x2 x3 x4 x5)]
  unfold kernelRun1_A
  dsimp only
  sl_unfold_words
  simp only [View.readAt_eq_ld, harg1.read_unread, harg2.read_unread, harg3.read_unread, harg4.read_unread, harg5.read_unread,
    harg6.read_unread, View.ld_unit_zero (S := S1024x64) hz, View.ld_unit_zero (S := S8x64) hz, View.ld_unit_zero (S := S1x64) hz,
    View.ld_unit_zero (S := S64x128) hz, View.ld_unit_zero (S := S1x128) hz]
  by_cases h : 128 ≤ q.val ∧ q.val < 256
  · rw [dif_pos h]
    have e : (ix2 r q : S1024x512.Idx)
        = (Rect.unit (s := S1024x512) ![0, 128] ![1024, 128] inb_S1024x512_S1024x128_0_128).emb (ix2 r ⟨q.val - 128, by omega⟩) := by
      funext a; apply Fin.ext
      match a with
      | ⟨0, _⟩ => show r.val = 0 + 1 * r.val; omega
      | ⟨1, _⟩ => show q.val = 128 + 1 * (q.val - 128); omega
    rw [e, View.canon_cons_emb]
  · rw [dif_neg h, View.canon_cons_of_not_mem _ _ (by
      rw [Rect.mem_set_unit]
      intro hm
      have h1 : 128 ≤ q.val ∧ q.val < 128 + 128 := hm 1
      exact h ⟨h1.1, by omega⟩), View.canon_unit_zero hz]
    exact Ideal.ofBits_zero_f32

/-- The printed index maps over the grid: the block of h rows and the result block move with the point along the rows,
    every other operand's block stays at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the block of h at point t is row 1024 t + r of the h array. -/
theorem hblk_apply (c : Dev nD) (t : Fin cfg1.N) (r : Fin 1024) (k : Fin 64) (R : Fin 16384)
    (hR : R.val = 1024 * t.val + r.val) :
    (iblk1 (F := Ideal) V c 0 t : Vec Ideal S1024x64 .f32) (ix2 r k)
      = (V c main_v8_0 : S16384x64.Idx → Elt Ideal .f32) (ix2 R k) := by
  obtain ⟨e0, e1, -⟩ := idx_facts t
  unfold iblk1
  rw [View.read_apply]
  show V c main_v8_0 _ = V c main_v8_0 _
  congr 1
  funext a; apply Fin.ext
  match a with
  | ⟨0, _⟩ => show win1_0.index t 0 * 1024 + 1 * r.val = R.val; rw [e0, hR]; omega
  | ⟨1, _⟩ => show win1_0.index t 1 * 64 + 1 * k.val = k.val; rw [e1]; omega

/-- The statistics block at any point is the whole statistics array. -/
theorem stblk_eq (c : Dev nD) (t : Fin cfg1.N) :
    (iblk1 (F := Ideal) V c 1 t : Vec Ideal S8x64 .f32) = (V c main_v8_1 : S8x64.Idx → Elt Ideal .f32) := by
  obtain ⟨-, -, e0, e1, -⟩ := idx_facts t
  funext y
  unfold iblk1
  rw [View.read_apply]
  show V c main_v8_1 _ = V c main_v8_1 _
  congr 1
  funext a; apply Fin.ext
  match a with
  | ⟨0, _⟩ => show win1_1.index t 0 * 8 + 1 * (y 0).val = (y 0).val; rw [e0]; omega
  | ⟨1, _⟩ => show win1_1.index t 1 * 64 + 1 * (y 1).val = (y 1).val; rw [e1]; omega

/-- The block of γ at any point is the whole γ row. -/
theorem gblk_eq (c : Dev nD) (t : Fin cfg1.N) :
    (iblk1 (F := Ideal) V c 2 t : Vec Ideal S1x64 .f32) = (V c main_v9 : S1x64.Idx → Elt Ideal .f32) := by
  obtain ⟨-, -, -, -, e0, e1, -⟩ := idx_facts t
  funext y
  unfold iblk1
  rw [View.read_apply]
  show V c main_v9 _ = V c main_v9 _
  congr 1
  funext a; apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The block of β at any point is the whole β row. -/
theorem beblk_eq (c : Dev nD) (t : Fin cfg1.N) :
    (iblk1 (F := Ideal) V c 3 t : Vec Ideal S1x64 .f32) = (V c main_v10 : S1x64.Idx → Elt Ideal .f32) := by
  obtain ⟨-, -, -, -, -, -, e0, e1, -⟩ := idx_facts t
  funext y
  unfold iblk1
  rw [View.read_apply]
  show V c main_v10 _ = V c main_v10 _
  congr 1
  funext a; apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-- The weight block at any point is the whole transposed weight. -/
theorem wblk_eq (c : Dev nD) (t : Fin cfg1.N) :
    (iblk1 (F := Ideal) V c 4 t : Vec Ideal S64x128 .f32) = (V c main_v6 : S64x128.Idx → Elt Ideal .f32) := by
  obtain ⟨-, -, -, -, -, -, -, -, e0, e1, -⟩ := idx_facts t
  funext y
  unfold iblk1
  rw [View.read_apply]
  show V c main_v6 _ = V c main_v6 _
  congr 1
  funext a; apply Fin.ext
  match a with
  | ⟨0, _⟩ => show win1_4.index t 0 * 64 + 1 * (y 0).val = (y 0).val; rw [e0]; omega
  | ⟨1, _⟩ => show win1_4.index t 1 * 128 + 1 * (y 1).val = (y 1).val; rw [e1]; omega

/-- The bias block at any point is the whole bias row. -/
theorem bblk_eq (c : Dev nD) (t : Fin cfg1.N) :
    (iblk1 (F := Ideal) V c 5 t : Vec Ideal S1x128 .f32) = (V c main_v11 : S1x128.Idx → Elt Ideal .f32) := by
  obtain ⟨-, -, -, -, -, -, -, -, -, -, e0, e1, -⟩ := idx_facts t
  funext y
  unfold iblk1
  rw [View.read_apply]
  show V c main_v11 _ = V c main_v11 _
  congr 1
  funext a; apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- The body's block of results over operand blocks that are the statistics, γ, β, weight and bias arrays themselves and
    an h block whose row r is row R of the h array: entry (r, n) is the second linear layer's value at (R, n). -/
theorem pay2_eq_lin2 (h : Vec Ideal S16384x64 .f32) (st : Vec Ideal S8x64 .f32) (g be : Vec Ideal S1x64 .f32)
    (w2 : Vec Ideal S64x128 .f32) (b2 : Vec Ideal S1x128 .f32)
    (hb : Vec Ideal S1024x64 .f32) (stb : Vec Ideal S8x64 .f32) (gb beb : Vec Ideal S1x64 .f32)
    (wb : Vec Ideal S64x128 .f32) (bb : Vec Ideal S1x128 .f32)
    (e1 : stb = st) (e2 : gb = g) (e3 : beb = be) (e4 : wb = w2) (e5 : bb = b2)
    (R : Fin 16384) (r : Fin 1024) (n : Fin 128) (hrow : ∀ k : Fin 64, hb (ix2 r k) = h (ix2 R k)) :
    k1_pay2 (F := Ideal) stb gb beb hb wb bb (ix2 r n) = Cert.Node.lin2 h st g be w2 b2 R n := by
  subst e1 e2 e3 e4 e5
  rw [pay2_apply]
  unfold Cert.Node.lin2 Cert.Node.normed
  simp only [hrow]

/-- The result array the region leaves: the second linear layer's rows placed in columns 128 … 255. -/
abbrev result (c : Dev nD) : Buf (Elt Ideal) ((c : Thread nD τ).loc main_v12) :=
  fun i => Cert.Node.placed (Cert.Node.lin2 (V c main_v8_0) (V c main_v8_1) (V c main_v9) (V c main_v10) (V c main_v6) (V c main_v11)) (i 0) (i 1)

/-- What point t writes back is block t of the result array. -/
theorem flushed_eq (c : Dev nD) (t : Fin cfg1.N) :
    (dat1 (F := Ideal) V c).flushed 6 t = ((cfg1.win 6).blk t).view.read (Elt Ideal) (result V c) := by
  obtain ⟨-, -, -, -, -, -, -, -, -, -, -, -, e0, e1⟩ := idx_facts t
  have hN : cfg1.N = 16 := N_1
  have ht : t.val < 16 := hN ▸ t.isLt
  show (cfg1.win 6).cut (grid1.coords t) ((dat1 V c).after 6 t) = _
  rw [after1_6]
  unfold outsAt1
  funext y
  obtain ⟨r, q, rfl⟩ : ∃ (r : Fin 1024) (q : Fin 512), y = ix2 r q := ⟨y 0, y 1, eq_ix2 y⟩
  rw [View.read_apply]
  have hemb : ((cfg1.win 6).blk t).view.emb (ix2 r q)
      = (ix2 (⟨1024 * t.val + r.val, by omega⟩ : Fin 16384) q : S16384x512.Idx) := by
    funext a; apply Fin.ext
    match a with
    | ⟨0, _⟩ => show win1_6.index t 0 * 1024 + 1 * r.val = 1024 * t.val + r.val; rw [e0]; omega
    | ⟨1, _⟩ => show win1_6.index t 1 * 512 + 1 * q.val = q.val; rw [e1]; omega
  show out1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) (ix2 r q)
    = result V c (((cfg1.win 6).blk t).view.emb (ix2 r q))
  rw [hemb]
  refine (block_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) r q).trans ?_
  show _ = Cert.Node.placed (Cert.Node.lin2 (V c main_v8_0) (V c main_v8_1) (V c main_v9) (V c main_v10) (V c main_v6) (V c main_v11))
    (⟨1024 * t.val + r.val, by omega⟩ : Fin 16384) q
  unfold Cert.Node.placed
  by_cases h : 128 ≤ q.val ∧ q.val < 256
  · rw [dif_pos h, dif_pos h]
    exact pay2_eq_lin2 (V c main_v8_0) (V c main_v8_1) (V c main_v9) (V c main_v10) (V c main_v6) (V c main_v11)
      (iblk1 V c 0 t) (iblk1 V c 1 t) (iblk1 V c 2 t) (iblk1 V c 3 t) (iblk1 V c 4 t) (iblk1 V c 5 t)
      (stblk_eq V c t) (gblk_eq V c t) (beblk_eq V c t) (wblk_eq V c t) (bblk_eq V c t)
      ⟨1024 * t.val + r.val, by omega⟩ r ⟨q.val - 128, by omega⟩
      (fun k => hblk_apply V c t r k ⟨1024 * t.val + r.val, by omega⟩ rfl)
  · rw [dif_neg h, dif_neg h]

/-- After the second region the result array holds the normalised, activated, projected rows in columns 128 … 255. -/
theorem out_final (c : Dev nD) :
    (dat1 (F := Ideal) V c).arrAt 6 cfg1.N
      = fun i => Cert.Node.placed (Cert.Node.lin2 (V c main_v8_0) (V c main_v8_1) (V c main_v9) (V c main_v10) (V c main_v6) (V c main_v11)) (i 0) (i 1) :=
  (dat1 (F := Ideal) V c).arrAt_eq_of_cover 6 (result V c) (fun t _ => flushed_eq V c t) fun i => by
    have hN : cfg1.N = 16 := N_1
    have h0 : (i 0).val < 16384 := (i 0).isLt
    have h1 : (i 1).val < 512 := (i 1).isLt
    obtain ⟨t, ht⟩ : ∃ t : Fin cfg1.N, t.val = (i 0).val / 1024 := ⟨⟨(i 0).val / 1024, by rw [hN]; omega⟩, rfl⟩
    obtain ⟨-, -, -, -, -, -, -, -, -, -, -, -, e0, e1⟩ := idx_facts t
    refine ⟨t, flush1_6 t, ?_⟩
    show i ∈ ((View.whole main_v12).slice (win1_6.rect t)).set
    rw [View.set_slice_whole, Rect.mem_set_unit]
    intro a
    match a with
    | ⟨0, _⟩ =>
      show win1_6.index t 0 * 1024 ≤ (i 0).val ∧ (i 0).val < win1_6.index t 0 * 1024 + 1024
      rw [e0, ht]; omega
    | ⟨1, _⟩ =>
      show win1_6.index t 1 * 512 ≤ (i 1).val ∧ (i 1).val < win1_6.index t 1 * 512 + 512
      rw [e1]; omega

end Cert.KernelIdeal.R1

end
-- ==== Proof.KHost.lean ====
/-
  The kernel program's host operations and its two regions composed: the result array after both regions is
  `Cert.Node.kernelValue` of the eight arguments as launched.

  The host operations before the first region cut row 3 out of attr, split W1 in two column blocks and transpose
  each, transpose W2 and recast b1 as a row; between the regions γ, β and b2 are recast as rows. Each such array is
  read entry by entry against the specification's view of its argument; the first region's two results reach the
  second region untouched; then the three region facts are chained.
-/
import proofs.«107747_g15401752723588_cont_week2b_928_3_alg».proof.Proof.KR0H
import proofs.«107747_g15401752723588_cont_week2b_928_3_alg».proof.Proof.KR0St
import proofs.«107747_g15401752723588_cont_week2b_928_3_alg».proof.Proof.KR1
import Idealize.ShloMosaic.Lib.StableHlo.Run
import Idealize.ShloMosaic.Lib.ValueLayout

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The host's layout operations, read entry by entry -/

/-- Row 3 of attr cut out and flattened: entry (R, k) is attr (R, 3, k). -/
private theorem attr_view (X : Cert.Node.Ten 16384 8 16)
    (h1 : S16384x8x16.Slices ![0, 3, 0] S16384x1x16) (h2 : S16384x1x16.ShapeCasts S16384x16) :
    shapeCast S16384x16 (extractStridedSlice S16384x1x16 ![0, 3, 0] X h1) h2 = Cert.Node.attrRow X := by
  funext i
  obtain ⟨a, b, rfl⟩ : ∃ a b, i = ix2 a b := ⟨i 0, i 1, eq_ix2 i⟩
  rw [shapeCast_apply _ h2 (ix2 a b) (ix3 a (0 : Fin 1) b) (by
    rw [Shape.rowMajor_val_three, Shape.rowMajor_val_two]
    show (a.val * 1 + 0) * 16 + b.val = a.val * 16 + b.val
    omega)]
  rw [slice3_axis1_apply 3 X h1 a (0 : Fin 1) b (3 : Fin 8) rfl]
  rfl

/-- The first 128 columns of W1, transposed: entry (k, j) is W1 (j, k). -/
private theorem w1Left_view (W : Cert.Node.Mat 64 144)
    (h1 : S64x144.Slices ![0, 0] S64x128) (h2 : S64x128.Transposes [1, 0] S128x64) :
    transpose S128x64 [1, 0] (extractStridedSlice S64x128 ![0, 0] W h1) h2 = Cert.Node.w1Left W := by
  funext i
  obtain ⟨k, j, rfl⟩ : ∃ a b, i = ix2 a b := ⟨i 0, i 1, eq_ix2 i⟩
  rw [transpose_ix2_apply _ h2 k j]
  rw [slice2_axis1_apply 0 W h1 j k (Fin.castLE (by norm_num) k : Fin 144) (Nat.zero_add _).symm]
  rfl

/-- The last 16 columns of W1, transposed: entry (k, j) is W1 (j, 128 + k). -/
private theorem w1Right_view (W : Cert.Node.Mat 64 144)
    (h1 : S64x144.Slices ![0, 128] S64x16) (h2 : S64x16.Transposes [1, 0] S16x64) :
    transpose S16x64 [1, 0] (extractStridedSlice S64x16 ![0, 128] W h1) h2 = Cert.Node.w1Right W := by
  funext i
  obtain ⟨k, j, rfl⟩ : ∃ a b, i = ix2 a b := ⟨i 0, i 1, eq_ix2 i⟩
  rw [transpose_ix2_apply _ h2 k j]
  rw [slice2_axis1_apply 128 W h1 j k (⟨128 + k.val, by have := k.isLt; omega⟩ : Fin 144) rfl]
  rfl

/-- A vector recast as a one-row matrix: entry (0, j) is the vector's entry j. -/
private theorem rowOf_view {n : ℕ} (v : Cert.Node.Vc n) (h : (⟨1, ![n]⟩ : Shape).ShapeCasts ⟨2, ![1, n]⟩) :
    shapeCast ⟨2, ![1, n]⟩ v h = Cert.Node.rowOf v := by
  funext i
  obtain ⟨u, j, rfl⟩ : ∃ a b, i = ix2 a b := ⟨i 0, i 1, eq_ix2 i⟩
  rw [shapeCast_a_1a_apply v h u j]
  rfl

/-- A matrix transposed: entry (k, n) is the operand's entry (n, k). -/
private theorem transposed_view {a b : ℕ} (W : Cert.Node.Mat a b)
    (h : (⟨2, ![a, b]⟩ : Shape).Transposes [1, 0] ⟨2, ![b, a]⟩) :
    transpose ⟨2, ![b, a]⟩ [1, 0] W h = Cert.Node.transposed W := by
  funext i
  obtain ⟨k, n, rfl⟩ : ∃ x y, i = ix2 x y := ⟨i 0, i 1, eq_ix2 i⟩
  rw [transpose_ix2_apply W h k n]
  rfl

variable (m : (ℓ : Loc nD τ sig) → Buf (Elt Ideal) ℓ) (ρ : Dev nD → PrngReg)

/-! ## Region 0's operands as the region finds them -/

/-- No host operation before the first region writes x. -/
private theorem V1_arg0 (c : Dev nD) : V1 m ρ c main_arg0 = m ((c.tc : Thread nD τ).loc main_arg0) := by
  show StableHlo.after hostOps0 _ (Proc.devRef .tc main_arg0) = _
  simp only [hostOps0]
  after_results

/-- attr's row 3 as a matrix. -/
private theorem V1_v1 (c : Dev nD) : V1 m ρ c main_v1 = Cert.Node.attrRow (m ((c.tc : Thread nD τ).loc main_arg1)) := by
  show StableHlo.after hostOps0 _ (Proc.devRef .tc main_v1) = _
  simp only [hostOps0]
  after_results
  exact attr_view _ _ _

/-- W1's first 128 columns, transposed. -/
private theorem V1_v3 (c : Dev nD) : V1 m ρ c main_v3 = Cert.Node.w1Left (m ((c.tc : Thread nD τ).loc main_arg2)) := by
  show StableHlo.after hostOps0 _ (Proc.devRef .tc main_v3) = _
  simp only [hostOps0]
  after_results
  exact w1Left_view _ _ _

/-- W1's last 16 columns, transposed. -/
private theorem V1_v5 (c : Dev nD) : V1 m ρ c main_v5 = Cert.Node.w1Right (m ((c.tc : Thread nD τ).loc main_arg2)) := by
  show StableHlo.after hostOps0 _ (Proc.devRef .tc main_v5) = _
  simp only [hostOps0]
  after_results
  exact w1Right_view _ _ _

/-- The first bias as a one-row matrix. -/
private theorem V1_v7 (c : Dev nD) : V1 m ρ c main_v7 = Cert.Node.rowOf (m ((c.tc : Thread nD τ).loc main_arg3)) := by
  show StableHlo.after hostOps0 _ (Proc.devRef .tc main_v7) = _
  simp only [hostOps0]
  after_results
  exact rowOf_view _ _

/-! ## Region 1's operands as the region finds them -/

/-- The first region's h array, from the arguments: no host operation between the regions writes it. -/
private theorem V3_v8_0 (c : Dev nD) :
    V3 m ρ c main_v8_0 = Cert.Node.hArr (m ((c.tc : Thread nD τ).loc main_arg0)) (m ((c.tc : Thread nD τ).loc main_arg1))
      (m ((c.tc : Thread nD τ).loc main_arg2)) (m ((c.tc : Thread nD τ).loc main_arg3)) := by
  have e : V3 m ρ c main_v8_0 = W2 m ρ c (Proc.devRef .tc main_v8_0) := by
    show StableHlo.after hostOps1 _ (Proc.devRef .tc main_v8_0) = _
    simp only [hostOps1]
    after_results
  refine e.trans ((W2_arr m ρ c 5).trans ((R0.h_final (V1 m ρ) c).trans ?_))
  rw [V1_arg0 m ρ c, V1_v1 m ρ c, V1_v3 m ρ c, V1_v5 m ρ c, V1_v7 m ρ c]
  rfl

/-- The first region's statistics array, from the arguments. -/
private theorem V3_v8_1 (c : Dev nD) :
    V3 m ρ c main_v8_1 = Cert.Node.stArr (m ((c.tc : Thread nD τ).loc main_arg0)) (m ((c.tc : Thread nD τ).loc main_arg1))
      (m ((c.tc : Thread nD τ).loc main_arg2)) (m ((c.tc : Thread nD τ).loc main_arg3)) := by
  have e : V3 m ρ c main_v8_1 = W2 m ρ c (Proc.devRef .tc main_v8_1) := by
    show StableHlo.after hostOps1 _ (Proc.devRef .tc main_v8_1) = _
    simp only [hostOps1]
    after_results
  refine e.trans ((W2_arr m ρ c 6).trans ((R0.st_final (V1 m ρ) c).trans ?_))
  rw [V1_arg0 m ρ c, V1_v1 m ρ c, V1_v3 m ρ c, V1_v5 m ρ c, V1_v7 m ρ c]
  rfl

/-- An argument neither the first host stretch nor the first region writes is, at the first region's exit, as launched. -/
private theorem W2_arg4 (c : Dev nD) : W2 m ρ c (Proc.devRef .tc main_arg4) = m ((c.tc : Thread nD τ).loc main_arg4) := by
  refine (W2_of_ne m ρ c main_arg4 (by decide)).trans ?_
  show StableHlo.after hostOps0 _ (Proc.devRef .tc main_arg4) = _
  simp only [hostOps0]
  after_results
private theorem W2_arg5 (c : Dev nD) : W2 m ρ c (Proc.devRef .tc main_arg5) = m ((c.tc : Thread nD τ).loc main_arg5) := by
  refine (W2_of_ne m ρ c main_arg5 (by decide)).trans ?_
  show StableHlo.after hostOps0 _ (Proc.devRef .tc main_arg5) = _
  simp only [hostOps0]
  after_results
private theorem W2_arg7 (c : Dev nD) : W2 m ρ c (Proc.devRef .tc main_arg7) = m ((c.tc : Thread nD τ).loc main_arg7) := by
  refine (W2_of_ne m ρ c main_arg7 (by decide)).trans ?_
  show StableHlo.after hostOps0 _ (Proc.devRef .tc main_arg7) = _
  simp only [hostOps0]
  after_results

/-- γ as a one-row matrix. -/
private theorem V3_v9 (c : Dev nD) : V3 m ρ c main_v9 = Cert.Node.rowOf (m ((c.tc : Thread nD τ).loc main_arg4)) := by
  show StableHlo.after hostOps1 _ (Proc.devRef .tc main_v9) = _
  simp only [hostOps1]
  after_results
  rw [W2_arg4 m ρ c]
  exact rowOf_view _ _

/-- β as a one-row matrix. -/
private theorem V3_v10 (c : Dev nD) : V3 m ρ c main_v10 = Cert.Node.rowOf (m ((c.tc : Thread nD τ).loc main_arg5)) := by
  show StableHlo.after hostOps1 _ (Proc.devRef .tc main_v10) = _
  simp only [hostOps1]
  after_results
  rw [W2_arg5 m ρ c]
  exact rowOf_view _ _

/-- The second bias as a one-row matrix. -/
private theorem V3_v11 (c : Dev nD) : V3 m ρ c main_v11 = Cert.Node.rowOf (m ((c.tc : Thread nD τ).loc main_arg7)) := by
  show StableHlo.after hostOps1 _ (Proc.devRef .tc main_v11) = _
  simp only [hostOps1]
  after_results
  rw [W2_arg7 m ρ c]
  exact rowOf_view _ _

/-- The second layer's weight transposed: written before the first region, which leaves it alone, as does the second host stretch. -/
private theorem V3_v6 (c : Dev nD) : V3 m ρ c main_v6 = Cert.Node.transposed (m ((c.tc : Thread nD τ).loc main_arg6)) := by
  have e : V3 m ρ c main_v6 = W2 m ρ c (Proc.devRef .tc main_v6) := by
    show StableHlo.after hostOps1 _ (Proc.devRef .tc main_v6) = _
    simp only [hostOps1]
    after_results
  refine e.trans ((W2_of_ne m ρ c main_v6 (by decide)).trans ?_)
  show StableHlo.after hostOps0 _ (Proc.devRef .tc main_v6) = _
  simp only [hostOps0]
  after_results
  exact transposed_view _ _

/-! ## The two regions composed -/

/-- The kernel program's result array after both regions, from the launch contents of the arguments. -/
theorem kernel_final (c : Dev nD) :
    (dat1 (F := Ideal) (V3 m ρ) c).arrAt 6 cfg1.N
      = Cert.Node.kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (R1.out_final (V3 m ρ) c).trans ?_
  rw [V3_v8_0 m ρ c, V3_v8_1 m ρ c, V3_v9 m ρ c, V3_v10 m ρ c, V3_v6 m ρ c, V3_v11 m ρ c]
  rfl

end Cert.KernelIdeal.Host

end
-- ==== Proof.RefTerm.lean ====
/-
  The reference program's result as ONE pure term of its eight arguments, cut into stages named after what they
  compute. Each stage is the composition of the host operations the reference runs for it, in the order and with the
  operands it runs them: the column take (index normalisation, range mask, gather, NaN fill), the concatenation with
  attr's row 3, the first linear layer, the batch mean and the centred variance (jnp.var's chain, its ddof = 0 and its
  guard included), the normalisation, jax.nn.elu's two selects around expm1, the second linear layer with tanh, and the
  scatter of the 128 result columns into a zero array. Generic in the float instance.
-/
import proofs.«107747_g15401752723588_cont_week2b_928_3_alg».proof.Proof.Gen.ReferenceIdeal

noncomputable section

namespace Cert.ReferenceIdeal.Term

open Idealize.ShloMosaic Cert.ReferenceIdeal Cert.ReferenceIdeal.Gen

variable {F : FTy → Type} [FloatOps F]

/-- The constant column tables: 0 … 127 (the take) and 128 … 255 (the scatter). -/
def inIdx : IVec S128 32 := fun i => lit0 (S128.rowMajor i)
def outIdx : IVec S128 32 := fun i => lit1 (S128.rowMajor i)

/-- jnp's index normalisation: a negative index has the axis length 512 added. -/
def normIdx (idx : IVec S128 32) : IVec S128 32 :=
  select (cmpi .slt idx (broadcastInDim S128 ![] bcast_S_S128 (constantI S_ 32 0#32)))
    (addi idx (broadcastInDim S128 ![] bcast_S_S128 (constantI S_ 32 512#32))) idx

/-- The normalised indices as a [128, 1] table of start indices. -/
def colIdx (idx : IVec S128 32) : IVec S128x1 32 := broadcastInDim S128x1 ![0] bcast_S128_S128x1_0 (normIdx idx)

/-- The take's range mask: 0 ≤ index ≤ 511, reduced by `and` over the index vector's one component. -/
def inRange (idx : IVec S128 32) : IVec S128 1 :=
  Host.reduce IntOp.andi
    (andi (cmpi .sge (colIdx idx) (broadcastInDim S128x1 ![] bcast_S_S128x1 (constantI S_ 32 0#32)))
      (cmpi .sle (colIdx idx)
        (broadcastInDim S128x1 ![0, 1] bcast_S1x1_S128x1_0_1 (broadcastInDim S1x1 ![1] bcast_S1_S1x1_1 (constantI S1 32 511#32)))))
    (constantI S_ 1 1#1) reducesTo_S128x1_S128_d1 h_S_

/-- jnp.take(x, idx, axis=1) in fill mode: the gathered columns where the index is in range, NaN elsewhere. -/
def takeCols (x : FVec F S16384x512 .f32) (idx : IVec S128 32) : FVec F S16384x128 .f32 :=
  select (broadcastInDim S16384x128 ![1] bcast_S128_S16384x128_1 (inRange idx))
    (Host.gather gather_S16384x512_S128x1_S16384x128_0_1_n_n_1_1_163841 x (colIdx idx))
    (broadcastInDim S16384x128 ![] bcast_S_S16384x128 (constant S_ .f32 0x7FC00000#32))

/-- attr[:, 3, :] as a [16384, 16] matrix: the slice, reshaped. -/
def attrRow (ar : FVec F S16384x8x16 .f32) : FVec F S16384x16 .f32 :=
  shapeCast S16384x16 (extractStridedSlice S16384x1x16 ![0, 3, 0] ar slices_S16384x8x16_S16384x1x16_0_3_0) shapeCasts_S16384x1x16_S16384x16

/-- A sample's 144 inputs: the taken columns beside attr's row. -/
def xin (x : FVec F S16384x512 .f32) (ar : FVec F S16384x8x16 .f32) : FVec F S16384x144 .f32 :=
  concatenate S16384x144 1 [⟨S16384x128, takeCols x inIdx⟩, ⟨S16384x16, attrRow ar⟩] concatenates_S16384x128_S16384x16_S16384x144_d1

/-- A [64] vector along the rows of a [16384, 64] array (broadcast in two steps, through [1, 64]). -/
def rows64 (v : FVec F S64 .f32) : FVec F S16384x64 .f32 :=
  broadcastInDim S16384x64 ![0, 1] bcast_S1x64_S16384x64_0_1 (broadcastInDim S1x64 ![1] bcast_S64_S1x64_1 v)

/-- First linear layer: xin · W1ᵀ + b1. -/
def lin1 (x : FVec F S16384x512 .f32) (ar : FVec F S16384x8x16 .f32) (w1 : FVec F S64x144 .f32) (b1 : FVec F S64 .f32) :
    FVec F S16384x64 .f32 :=
  addf (Host.dotGeneral dot_S16384x144_S144x64_S16384x64_1_0_0_1_n_n none (xin x ar)
      (transpose S144x64 [1, 0] w1 transposes_S64x144_S144x64_1_0))
    (rows64 b1)

/-- jnp.mean(h, axis=0): the column sums over 16384. -/
def meanV (h : FVec F S16384x64 .f32) : FVec F S64 .f32 :=
  Host.divf (Host.reduceAdd h (constant S_ .f32 0x00000000#32) reducesTo_S16384x64_S64_d0 h_S_)
    (broadcastInDim S64 ![] bcast_S_S64 (constant S_ .f32 0x46800000#32))

/-- The divisor jnp.var computes: 16384 − ddof, ddof the integer 0 converted. -/
def varDen : FVec F S_ .f32 :=
  subf (constant S_ .f32 0x46800000#32) (sitofp .f32 (constantI S_ 32 0#32))

/-- jnp.var(h, axis=0): centre on the keep-dims mean, square, sum, divide by 16384 − ddof; NaN unless that is positive. -/
def varV (h : FVec F S16384x64 .f32) : FVec F S64 .f32 :=
  select (broadcastInDim S64 ![] bcast_S_S64 (cmpf .ogt (varDen (F := F)) (constant S_ .f32 0x00000000#32)))
    (Host.divf
      (Host.reduceAdd
        (mulf
          (subf h (broadcastInDim S16384x64 ![0, 1] bcast_S1x64_S16384x64_0_1
            (Host.divf (broadcastInDim S1x64 ![1] bcast_S64_S1x64_1
                (Host.reduceAdd h (constant S_ .f32 0x00000000#32) reducesTo_S16384x64_S64_d0 h_S_))
              (broadcastInDim S1x64 ![] bcast_S_S1x64 (constant S_ .f32 0x46800000#32)))))
          (subf h (broadcastInDim S16384x64 ![0, 1] bcast_S1x64_S16384x64_0_1
            (Host.divf (broadcastInDim S1x64 ![1] bcast_S64_S1x64_1
                (Host.reduceAdd h (constant S_ .f32 0x00000000#32) reducesTo_S16384x64_S64_d0 h_S_))
              (broadcastInDim S1x64 ![] bcast_S_S1x64 (constant S_ .f32 0x46800000#32))))))
        (constant S_ .f32 0x00000000#32) reducesTo_S16384x64_S64_d0 h_S_)
      (broadcastInDim S64 ![] bcast_S_S64 (varDen (F := F))))
    (broadcastInDim S64 ![] bcast_S_S64 (id (constant S_ .f32 0x7FC00000#32)))

/-- Batch normalisation: (h − mean) / sqrt (var + ε) · γ + β. -/
def normed (h : FVec F S16384x64 .f32) (g be : FVec F S64 .f32) : FVec F S16384x64 .f32 :=
  addf
    (mulf
      (Host.divf (subf h (rows64 (meanV h)))
        (rows64 (Host.sqrt (addf (varV h) (broadcastInDim S64 ![] bcast_S_S64 (constant S_ .f32 0x3727C5AC#32))))))
      (rows64 g))
    (rows64 be)

/-- jax.nn.elu: v where v > 0, else 1 · expm1 (0 where v > 0, else v). -/
def elu (v : FVec F S16384x64 .f32) : FVec F S16384x64 .f32 :=
  select (cmpf .ogt v (broadcastInDim S16384x64 ![] bcast_S_S16384x64 (constant S_ .f32 0x00000000#32))) v
    (mulf (broadcastInDim S16384x64 ![] bcast_S_S16384x64 (constant S_ .f32 0x3F800000#32))
      (Host.expm1
        (select (cmpf .ogt v (broadcastInDim S16384x64 ![] bcast_S_S16384x64 (constant S_ .f32 0x00000000#32)))
          (broadcastInDim S16384x64 ![] bcast_S_S16384x64 (id (constant S_ .f32 0x00000000#32))) v)))

/-- Second linear layer and tanh: tanh (a · W2ᵀ + b2). -/
def lin2 (a : FVec F S16384x64 .f32) (w2 : FVec F S128x64 .f32) (b2 : FVec F S128 .f32) : FVec F S16384x128 .f32 :=
  Host.tanh
    (addf (Host.dotGeneral dot_S16384x64_S64x128_S16384x128_1_0_0_1_n_n none a
        (transpose S64x128 [1, 0] w2 transposes_S128x64_S64x128_1_0))
      (broadcastInDim S16384x128 ![0, 1] bcast_S1x128_S16384x128_0_1 (broadcastInDim S1x128 ![1] bcast_S128_S1x128_1 b2)))

/-- zeros_like(x).at[:, 128:256].set(u): the scatter of u's 128 columns at the normalised column table. -/
def place (u : FVec F S16384x128 .f32) : FVec F S16384x512 .f32 :=
  Host.scatter scatter_S16384x512_S128x1_S16384x128_0_1_1_1 (fun _ b => b)
    (broadcastInDim S16384x512 ![] bcast_S_S16384x512 (constant S_ .f32 0x00000000#32)) (colIdx outIdx) u

/-- THE REFERENCE'S RESULT from its arguments. -/
def out (x : FVec F S16384x512 .f32) (ar : FVec F S16384x8x16 .f32) (w1 : FVec F S64x144 .f32) (b1 g be : FVec F S64 .f32)
    (w2 : FVec F S128x64 .f32) (b2 : FVec F S128 .f32) : FVec F S16384x512 .f32 :=
  place (lin2 (elu (normed (lin1 x ar w1 b1) g be)) w2 b2)

end Cert.ReferenceIdeal.Term

end
-- ==== Proof.RRun.lean ====
import proofs.«107747_g15401752723588_cont_week2b_928_3_alg».proof.Proof.RefTerm
import Idealize.ShloMosaic.Lib.StableHlo.Run
import Idealize.ShloMosaic.Lib.ValueIdx

noncomputable section

namespace Cert.ReferenceIdeal.Hand

open Idealize.ShloMosaic Idealize.ShloMosaic.TcCoe Idealize.ShloMosaic.ValueIdx Idealize.SL.Sem Idealize.ShloMosaic.StableHlo
open Cert.ReferenceIdeal Cert.ReferenceIdeal.Gen

variable {F : FTy → Type} [FloatOps F]

/-! The reference's operations in the order it runs them, each call's operations at the call site over the call's own
buffers with the callee's formal arguments replaced by the caller's buffers, cut into seven consecutive stages. -/

/-- The two constant column tables: 0 … 127 for the take, 128 … 255 for the scatter. -/
abbrev w0 : List (HloOp τ sig (Elt F)) :=
  [ nullary main_c Term.inIdx,
    nullary main_c_0 Term.outIdx ]

/-- The take of the first table's columns of the first argument: the index normalisation and its select, the range
    mask and its `and` reduction, the gather, the NaN fill and the closing select. -/
abbrev w1 : List (HloOp τ sig (Elt F)) :=
  [ TRef.nullary main_call0.c (constantI S_ 32 0#32),
    TRef.unary main_call0.c main_call0.v0 (broadcastInDim S128 ![] bcast_S_S128),
    TRef.binary (.of main_c : TRef sig ⟨S128, .i32⟩) main_call0.v0 main_call0.v1 (cmpi .slt),
    TRef.nullary main_call0.c_0 (constantI S_ 32 512#32),
    TRef.unary main_call0.c_0 main_call0.v2 (broadcastInDim S128 ![] bcast_S_S128),
    TRef.binary (.of main_c : TRef sig ⟨S128, .i32⟩) main_call0.v2 main_call0.v3 addi,
    TRef.ternary main_call0.v1 main_call0.v3 (.of main_c : TRef sig ⟨S128, .i32⟩) main_call0.call0.v0 select,
    TRef.unary main_call0.call0.v0 main_call0.v5 (broadcastInDim S128x1 ![0] bcast_S128_S128x1_0),
    TRef.nullary main_call0.c_1 (constantI S1 32 511#32),
    TRef.nullary main_call0.c_2 (constantI S_ 32 0#32),
    TRef.unary main_call0.c_2 main_call0.v6 (broadcastInDim S128x1 ![] bcast_S_S128x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S128x1 ![0, 1] bcast_S1x1_S128x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S128x1_S128_d1 h_S_),
    TRef.binary (.of main_arg0 : TRef sig ⟨S16384x512, .f32⟩) main_call0.v5 main_call0.v13 (fun x i => Host.gather gather_S16384x512_S128x1_S16384x128_0_1_n_n_1_1_163841 x i),
    TRef.unary main_call0.v12 main_call0.v14 (broadcastInDim S16384x128 ![1] bcast_S128_S16384x128_1),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- attr's row 3 (slice, reshape), the concatenation with the taken columns, and the first linear layer (transpose,
    contraction, bias along the rows). -/
abbrev w2 : List (HloOp τ sig (Elt F)) :=
  [ unary main_arg1 main_v1 (extractStridedSlice S16384x1x16 ![0, 3, 0] · slices_S16384x8x16_S16384x1x16_0_3_0),
    reshape main_v1 main_v2 rfl shapeCasts_S16384x1x16_S16384x16,
    binary main_v0 main_v2 main_v3 ((fun a b => concatenate S16384x144 1 [⟨S16384x128, a⟩, ⟨S16384x16, b⟩] concatenates_S16384x128_S16384x16_S16384x144_d1) : (⟨S16384x128, .f32⟩ : BufTy).Contents (Elt F) → (⟨S16384x16, .f32⟩ : BufTy).Contents (Elt F) → (⟨S16384x144, .f32⟩ : BufTy).Contents (Elt F)),
    unary main_arg2 main_v4 (transpose S144x64 [1, 0] · transposes_S64x144_S144x64_1_0),
    binary main_v3 main_v4 main_v5 (fun l r => Host.dotGeneral dot_S16384x144_S144x64_S16384x64_1_0_0_1_n_n none l r),
    unary main_arg3 main_v6 (broadcastInDim S1x64 ![1] bcast_S64_S1x64_1),
    unary main_v6 main_v7 (broadcastInDim S16384x64 ![0, 1] bcast_S1x64_S16384x64_0_1),
    binary main_v5 main_v7 main_v8 addf ]

/-- The batch mean, and the variance's twenty-two operations: its own mean with kept dimension, the centred squares,
    their sum over the rows, the divisor 16384 minus the converted 0, its positivity guard and the guarded select. -/
abbrev w3 : List (HloOp τ sig (Elt F)) :=
  [ nullary main_cst (constant S_ .f32 0x00000000#32),
    binary main_v8 main_cst main_v9 (fun x v => Host.reduceAdd x v reducesTo_S16384x64_S64_d0 h_S_),
    nullary main_cst_1 (constant S_ .f32 0x46800000#32),
    unary main_cst_1 main_v10 (broadcastInDim S64 ![] bcast_S_S64),
    binary main_v9 main_v10 main_v11 Host.divf,
    nullary main_c_2 (constantI S_ 32 0#32),
    TRef.nullary main_call1.cst (constant S_ .f32 0x00000000#32),
    TRef.binary (.of main_v8 : TRef sig ⟨S16384x64, .f32⟩) main_call1.cst main_call1.v0 (fun x v => Host.reduceAdd x v reducesTo_S16384x64_S64_d0 h_S_),
    TRef.unary main_call1.v0 main_call1.v1 (broadcastInDim S1x64 ![1] bcast_S64_S1x64_1),
    TRef.nullary main_call1.cst_0 (constant S_ .f32 0x46800000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S16384x64 ![0, 1] bcast_S1x64_S16384x64_0_1),
    TRef.binary (.of main_v8 : TRef sig ⟨S16384x64, .f32⟩) main_call1.v4 main_call1.v5 subf,
    TRef.binary main_call1.v5 main_call1.v5 main_call1.v6 mulf,
    TRef.unary (.of main_c_2 : TRef sig ⟨S_, .i32⟩) main_call1.v7 (sitofp .f32),
    TRef.nullary main_call1.cst_1 (constant S_ .f32 0x46800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The normalisation: centring on the mean, division by the root of variance plus ε, scale and shift along the
    rows. -/
abbrev w4 : List (HloOp τ sig (Elt F)) :=
  [ unary main_v11 main_v13 (broadcastInDim S1x64 ![1] bcast_S64_S1x64_1),
    unary main_v13 main_v14 (broadcastInDim S16384x64 ![0, 1] bcast_S1x64_S16384x64_0_1),
    binary main_v8 main_v14 main_v15 subf,
    nullary main_cst_3 (constant S_ .f32 0x3727C5AC#32),
    unary main_cst_3 main_v16 (broadcastInDim S64 ![] bcast_S_S64),
    binary main_v12 main_v16 main_v17 addf,
    unary main_v17 main_v18 Host.sqrt,
    unary main_v18 main_v19 (broadcastInDim S1x64 ![1] bcast_S64_S1x64_1),
    unary main_v19 main_v20 (broadcastInDim S16384x64 ![0, 1] bcast_S1x64_S16384x64_0_1),
    binary main_v15 main_v20 main_v21 Host.divf,
    unary main_arg4 main_v22 (broadcastInDim S1x64 ![1] bcast_S64_S1x64_1),
    unary main_v22 main_v23 (broadcastInDim S16384x64 ![0, 1] bcast_S1x64_S16384x64_0_1),
    binary main_v21 main_v23 main_v24 mulf,
    unary main_arg5 main_v25 (broadcastInDim S1x64 ![1] bcast_S64_S1x64_1),
    unary main_v25 main_v26 (broadcastInDim S16384x64 ![0, 1] bcast_S1x64_S16384x64_0_1),
    binary main_v24 main_v26 main_v27 addf ]

/-- elu's fifteen operations: the two comparisons with zero, the inner select feeding expm1, the product with one, the
    outer select. -/
abbrev w5 : List (HloOp τ sig (Elt F)) :=
  [ TRef.nullary main_call2.cst (constant S_ .f32 0x00000000#32),
    TRef.unary main_call2.cst main_call2.v0 (broadcastInDim S16384x64 ![] bcast_S_S16384x64),
    TRef.binary (.of main_v27 : TRef sig ⟨S16384x64, .f32⟩) main_call2.v0 main_call2.v1 (cmpf .ogt),
    TRef.nullary main_call2.cst_0 (constant S_ .f32 0x00000000#32),
    TRef.unary main_call2.cst_0 main_call2.v2 (broadcastInDim S16384x64 ![] bcast_S_S16384x64),
    TRef.binary (.of main_v27 : TRef sig ⟨S16384x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S16384x64 ![] bcast_S_S16384x64),
    TRef.ternary main_call2.v3 main_call2.call0.v1 (.of main_v27 : TRef sig ⟨S16384x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S16384x64 ![] bcast_S_S16384x64),
    TRef.binary main_call2.v6 main_call2.v5 main_call2.v7 mulf,
    TRef.ternary main_call2.v1 (.of main_v27 : TRef sig ⟨S16384x64, .f32⟩) main_call2.v7 main_call2.call1.v0 select ]

/-- The second linear layer with tanh, the zero array, the scatter's normalised column table and the scatter. -/
abbrev w6 : List (HloOp τ sig (Elt F)) :=
  [ unary main_arg6 main_v29 (transpose S64x128 [1, 0] · transposes_S128x64_S64x128_1_0),
    binary main_v28 main_v29 main_v30 (fun l r => Host.dotGeneral dot_S16384x64_S64x128_S16384x128_1_0_0_1_n_n none l r),
    unary main_arg7 main_v31 (broadcastInDim S1x128 ![1] bcast_S128_S1x128_1),
    unary main_v31 main_v32 (broadcastInDim S16384x128 ![0, 1] bcast_S1x128_S16384x128_0_1),
    binary main_v30 main_v32 main_v33 addf,
    unary main_v33 main_v34 Host.tanh,
    nullary main_cst_4 (constant S_ .f32 0x00000000#32),
    unary main_cst_4 main_v35 (broadcastInDim S16384x512 ![] bcast_S_S16384x512),
    nullary main_c_5 (constantI S_ 32 0#32),
    unary main_c_5 main_v36 (broadcastInDim S128 ![] bcast_S_S128),
    binary main_c_0 main_v36 main_v37 (cmpi .slt),
    nullary main_c_6 (constantI S_ 32 512#32),
    unary main_c_6 main_v38 (broadcastInDim S128 ![] bcast_S_S128),
    binary main_c_0 main_v38 main_v39 addi,
    ternary main_v37 main_v39 main_c_0 main_v40 select,
    unary main_v40 main_v41 (broadcastInDim S128x1 ![0] bcast_S128_S128x1_0),
    ternary main_v35 main_v41 main_v34 main_v42 (fun x i u => Host.scatter scatter_S16384x512_S128x1_S16384x128_0_1_1_1 (fun _ b => b) x i u) ]

/-- The whole line: the seven stages one after the other, one hundred and nine operations. -/
abbrev ops : List (HloOp τ sig (Elt F)) := w0 ++ (w1 ++ (w2 ++ (w3 ++ (w4 ++ (w5 ++ w6)))))

-- one hundred and nine binds re-associated: the rewrite under the chain recurses once per statement
set_option maxRecDepth 4096 in
set_option maxHeartbeats 3200000 in
/-- The reference is that straight line: with the outlined functions' bodies substituted at their calls and the calls'
    buffer records read at their fields, both sides are one chain of the same steps once sequencing is
    re-associated and the stages are joined. -/
theorem main_eq (c : Dev nD) : main (F := F) c = seq ops := by
  simp only [main, fn_take.body, fn_where.body, fn_var.body, fn_where_0.body, fn_elu.body, fn_where_1.body,
    fn_where_2.body, ops, w0, w1, w2, w3, w4, w5, w6, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

private theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem w0_sub : (w0 : List (HloOp τ sig (Elt F))).Forall fun op => op.bufs ⊆ tcRefs τ sig :=
  ⟨nullary_bufs_sub .., nullary_bufs_sub ..⟩
theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem w2_sub : (w2 : List (HloOp τ sig (Elt F))).Forall fun op => op.bufs ⊆ tcRefs τ sig :=
  ⟨unary_bufs_sub .., reshape_bufs_sub .., binary_bufs_sub .., unary_bufs_sub .., binary_bufs_sub .., unary_bufs_sub ..,
    unary_bufs_sub .., binary_bufs_sub ..⟩
theorem w3_sub : (w3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem w6_sub : (w6 : List (HloOp τ sig (Elt F))).Forall fun op => op.bufs ⊆ tcRefs τ sig :=
  ⟨unary_bufs_sub .., binary_bufs_sub .., unary_bufs_sub .., unary_bufs_sub .., binary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub ..⟩

theorem ops_sub : (ops : List (HloOp τ sig (Elt F))).Forall fun op => op.bufs ⊆ tcRefs τ sig :=
  forall_append w0_sub (forall_append w1_sub (forall_append w2_sub (forall_append w3_sub (forall_append w4_sub
    (forall_append w5_sub w6_sub)))))

/-- On a literal list: each member in turn has no buffer whose contents it leaves undetermined. -/
local macro "fresh_lit" : tactic =>
  `(tactic| (intro _ h; (repeat (cases h with | head => rfl | tail _ h => ?_)); exact nomatch h))

private theorem w0_fresh : ∀ op ∈ (w0 : List (HloOp τ sig (Elt F))), op.fresh = ∅ := by fresh_lit
private theorem w1_fresh : ∀ op ∈ (w1 : List (HloOp τ sig (Elt F))), op.fresh = ∅ := by fresh_lit
private theorem w2_fresh : ∀ op ∈ (w2 : List (HloOp τ sig (Elt F))), op.fresh = ∅ := by fresh_lit
private theorem w3_fresh : ∀ op ∈ (w3 : List (HloOp τ sig (Elt F))), op.fresh = ∅ := by fresh_lit
private theorem w4_fresh : ∀ op ∈ (w4 : List (HloOp τ sig (Elt F))), op.fresh = ∅ := by fresh_lit
private theorem w5_fresh : ∀ op ∈ (w5 : List (HloOp τ sig (Elt F))), op.fresh = ∅ := by fresh_lit
private theorem w6_fresh : ∀ op ∈ (w6 : List (HloOp τ sig (Elt F))), op.fresh = ∅ := by fresh_lit

theorem ops_fresh : ∀ op ∈ (ops : List (HloOp τ sig (Elt F))), op.fresh = ∅ := by
  intro op h
  rcases List.mem_append.mp h with h | h
  · exact w0_fresh op h
  rcases List.mem_append.mp h with h | h
  · exact w1_fresh op h
  rcases List.mem_append.mp h with h | h
  · exact w2_fresh op h
  rcases List.mem_append.mp h with h | h
  · exact w3_fresh op h
  rcases List.mem_append.mp h with h | h
  · exact w4_fresh op h
  rcases List.mem_append.mp h with h | h
  · exact w5_fresh op h
  · exact w6_fresh op h

/-! ## The fold of each stage

Each stage's fold over ANY contents `W`: the stage's result buffers at the stage's term of the contents it reads, and
the buffers that live across it unchanged. Each is by computation: the fold unrolled, every operation's result
read at its own buffer is its function of its operands' contents and at any other buffer what was there, and the
typed references' transports are the identity at these literal references. The reductions, the gather, the scatter
and the concatenation are kept folded meanwhile: no equation here looks inside them. -/

attribute [local irreducible] Host.reduce Host.reduceAdd Host.gather Host.scatter concatenate

/-- The fold unrolled, then computation. -/
local macro "fold_rfl" : tactic => `(tactic| (simp only [after_cons, after_nil]; rfl))

/-- The fold of a line run after another is the second's over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first linear layer from the taken columns. -/
private def lin1Of (t : FVec F S16384x128 .f32) (ar : FVec F S16384x8x16 .f32) (w1 : FVec F S64x144 .f32) (b1 : FVec F S64 .f32) :
    FVec F S16384x64 .f32 :=
  addf (Host.dotGeneral dot_S16384x144_S144x64_S16384x64_1_0_0_1_n_n none
      (concatenate S16384x144 1 [⟨S16384x128, t⟩, ⟨S16384x16, Term.attrRow ar⟩] concatenates_S16384x128_S16384x16_S16384x144_d1)
      (transpose S144x64 [1, 0] w1 transposes_S64x144_S144x64_1_0))
    (Term.rows64 b1)

/-- The scatter of the result columns at a given column table. -/
private def placeOf (idx : IVec S128 32) (u : FVec F S16384x128 .f32) : FVec F S16384x512 .f32 :=
  Host.scatter scatter_S16384x512_S128x1_S16384x128_0_1_1_1 (fun _ b => b)
    (broadcastInDim S16384x512 ![] bcast_S_S16384x512 (constant S_ .f32 0x00000000#32)) (Term.colIdx idx) u

/-- The normalisation from a given mean and variance. -/
private def normedOf (h : FVec F S16384x64 .f32) (mu var g be : FVec F S64 .f32) : FVec F S16384x64 .f32 :=
  addf
    (mulf
      (Host.divf (subf h (Term.rows64 mu))
        (Term.rows64 (Host.sqrt (addf var (broadcastInDim S64 ![] bcast_S_S64 (constant S_ .f32 0x3727C5AC#32))))))
      (Term.rows64 g))
    (Term.rows64 be)

theorem w0_in (W : Valuation τ sig (Elt F)) : after w0 W (main_c : DevRef τ sig) = Term.inIdx := by fold_rfl
theorem w0_out (W : Valuation τ sig (Elt F)) : after w0 W (main_c_0 : DevRef τ sig) = Term.outIdx := by fold_rfl

-- here the composed term is read off operation by operation and the stage's term unfolded before the two are
-- compared: compared folded, the unifier opens the valuation's chain under the folded term's binders
set_option maxRecDepth 8192 in
set_option maxHeartbeats 800000 in
theorem w1_out (W : Valuation τ sig (Elt F)) :
    after w1 W (main_v0 : DevRef τ sig) = Term.takeCols (W (main_arg0 : DevRef τ sig)) (W (main_c : DevRef τ sig)) := by
  after_results_simp
  simp only [Term.takeCols, Term.inRange, Term.colIdx, Term.normIdx]
  rfl

set_option maxRecDepth 8192 in
set_option maxHeartbeats 800000 in
theorem w2_out (W : Valuation τ sig (Elt F)) :
    after w2 W (main_v8 : DevRef τ sig)
      = lin1Of (W (main_v0 : DevRef τ sig)) (W (main_arg1 : DevRef τ sig)) (W (main_arg2 : DevRef τ sig))
          (W (main_arg3 : DevRef τ sig)) := by fold_rfl

set_option maxRecDepth 8192 in
set_option maxHeartbeats 800000 in
theorem w3_mean (W : Valuation τ sig (Elt F)) :
    after w3 W (main_v11 : DevRef τ sig) = Term.meanV (W (main_v8 : DevRef τ sig)) := by fold_rfl

set_option maxRecDepth 8192 in
set_option maxHeartbeats 800000 in
theorem w3_var (W : Valuation τ sig (Elt F)) :
    after w3 W (main_v12 : DevRef τ sig) = Term.varV (W (main_v8 : DevRef τ sig)) := by fold_rfl

set_option maxRecDepth 8192 in
set_option maxHeartbeats 800000 in
theorem w3_lin (W : Valuation τ sig (Elt F)) :
    after w3 W (main_v8 : DevRef τ sig) = W (main_v8 : DevRef τ sig) := by fold_rfl

set_option maxRecDepth 8192 in
set_option maxHeartbeats 800000 in
theorem w4_out (W : Valuation τ sig (Elt F)) :
    after w4 W (main_v27 : DevRef τ sig)
      = normedOf (W (main_v8 : DevRef τ sig)) (W (main_v11 : DevRef τ sig)) (W (main_v12 : DevRef τ sig))
          (W (main_arg4 : DevRef τ sig)) (W (main_arg5 : DevRef τ sig)) := by fold_rfl

set_option maxRecDepth 8192 in
set_option maxHeartbeats 800000 in
theorem w5_out (W : Valuation τ sig (Elt F)) :
    after w5 W (main_v28 : DevRef τ sig) = Term.elu (W (main_v27 : DevRef τ sig)) := by fold_rfl

set_option maxRecDepth 8192 in
set_option maxHeartbeats 800000 in
theorem w6_out (W : Valuation τ sig (Elt F)) :
    after w6 W (main_v42 : DevRef τ sig)
      = placeOf (W (main_c_0 : DevRef τ sig))
          (Term.lin2 (W (main_v28 : DevRef τ sig)) (W (main_arg6 : DevRef τ sig)) (W (main_arg7 : DevRef τ sig))) := by
  after_results_simp
  simp only [placeOf, Term.lin2, Term.colIdx, Term.normIdx]
  rfl

/-- The scatter's column table lives from the first stage to the last. -/
theorem w1_tab (W : Valuation τ sig (Elt F)) : after w1 W (main_c_0 : DevRef τ sig) = W (main_c_0 : DevRef τ sig) := by fold_rfl
theorem w2_tab (W : Valuation τ sig (Elt F)) : after w2 W (main_c_0 : DevRef τ sig) = W (main_c_0 : DevRef τ sig) := by fold_rfl
theorem w3_tab (W : Valuation τ sig (Elt F)) : after w3 W (main_c_0 : DevRef τ sig) = W (main_c_0 : DevRef τ sig) := by fold_rfl
theorem w4_tab (W : Valuation τ sig (Elt F)) : after w4 W (main_c_0 : DevRef τ sig) = W (main_c_0 : DevRef τ sig) := by fold_rfl
theorem w5_tab (W : Valuation τ sig (Elt F)) : after w5 W (main_c_0 : DevRef τ sig) = W (main_c_0 : DevRef τ sig) := by fold_rfl

/-! ## The arguments are never written -/

/-- A line that leaves the eight argument buffers as they were, over any contents. -/
private structure Keeps (l : List (HloOp τ sig (Elt F))) : Prop where
  a0 : ∀ W : Valuation τ sig (Elt F), after l W (main_arg0 : DevRef τ sig) = W (main_arg0 : DevRef τ sig)
  a1 : ∀ W : Valuation τ sig (Elt F), after l W (main_arg1 : DevRef τ sig) = W (main_arg1 : DevRef τ sig)
  a2 : ∀ W : Valuation τ sig (Elt F), after l W (main_arg2 : DevRef τ sig) = W (main_arg2 : DevRef τ sig)
  a3 : ∀ W : Valuation τ sig (Elt F), after l W (main_arg3 : DevRef τ sig) = W (main_arg3 : DevRef τ sig)
  a4 : ∀ W : Valuation τ sig (Elt F), after l W (main_arg4 : DevRef τ sig) = W (main_arg4 : DevRef τ sig)
  a5 : ∀ W : Valuation τ sig (Elt F), after l W (main_arg5 : DevRef τ sig) = W (main_arg5 : DevRef τ sig)
  a6 : ∀ W : Valuation τ sig (Elt F), after l W (main_arg6 : DevRef τ sig) = W (main_arg6 : DevRef τ sig)
  a7 : ∀ W : Valuation τ sig (Elt F), after l W (main_arg7 : DevRef τ sig) = W (main_arg7 : DevRef τ sig)

/-- Two such lines one after the other are such a line. -/
private theorem Keeps.append {l₁ l₂ : List (HloOp τ sig (Elt F))} (h₁ : Keeps l₁) (h₂ : Keeps l₂) : Keeps (l₁ ++ l₂) :=
  ⟨fun W => by rw [after_app, h₂.a0, h₁.a0], fun W => by rw [after_app, h₂.a1, h₁.a1],
    fun W => by rw [after_app, h₂.a2, h₁.a2], fun W => by rw [after_app, h₂.a3, h₁.a3],
    fun W => by rw [after_app, h₂.a4, h₁.a4], fun W => by rw [after_app, h₂.a5, h₁.a5],
    fun W => by rw [after_app, h₂.a6, h₁.a6], fun W => by rw [after_app, h₂.a7, h₁.a7]⟩

private theorem keeps0 : Keeps (F := F) w0 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps1 : Keeps (F := F) w1 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps2 : Keeps (F := F) w2 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps3 : Keeps (F := F) w3 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps4 : Keeps (F := F) w4 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps5 : Keeps (F := F) w5 :=
  ⟨fun _ => by fold_rfl, fun _ => by fold_rfl, fun _ => by fold_rfl, fun _ => by fold_rfl,
    fun _ => by fold_rfl, fun _ => by fold_rfl, fun _ => by fold_rfl, fun _ => by fold_rfl⟩
set_option maxRecDepth 8192 in
private theorem keeps6 : Keeps (F := F) w6 :=
  ⟨fun _ => by fold_rfl, fun _ => by fold_rfl, fun _ => by fold_rfl, fun _ => by fold_rfl,
    fun _ => by fold_rfl, fun _ => by fold_rfl, fun _ => by fold_rfl, fun _ => by fold_rfl⟩

private theorem keeps_ops : Keeps (F := F) ops :=
  keeps0.append (keeps1.append (keeps2.append (keeps3.append (keeps4.append (keeps5.append keeps6)))))

/-! ## The whole fold -/

/-- The fold of the whole line at the result buffer is the staged term of the arguments: the stages' folds composed,
    from the last stage inwards — each stage's result at its term of what it reads, what it reads being an earlier
    stage's result or a buffer no stage between has written —, and the term's stages unfolded (the first linear
    layer is `lin1Of` at the taken columns, the normalisation `normedOf` at the mean and the variance, the scatter
    `placeOf` at the second column table). -/
theorem out_eq (V : Valuation τ sig (Elt F)) :
    after ops V (main_v42 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [ops, after_app]
  rw [w6_out, w5_out, w5_tab, keeps5.a6, keeps5.a7, w4_out, w4_tab, keeps4.a6, keeps4.a7,
    w3_mean, w3_var, w3_lin, w3_tab, keeps3.a4, keeps3.a5, keeps3.a6, keeps3.a7,
    w2_out, w2_tab, keeps2.a4, keeps2.a5, keeps2.a6, keeps2.a7,
    w1_out, w1_tab, keeps1.a1, keeps1.a2, keeps1.a3, keeps1.a4, keeps1.a5, keeps1.a6, keeps1.a7,
    w0_in, w0_out, keeps0.a0, keeps0.a1, keeps0.a2, keeps0.a3, keeps0.a4, keeps0.a5, keeps0.a6, keeps0.a7]
  rfl

/-- Every weakly fair execution of the reference terminates with its result at the staged term of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v42).trans (out_eq _),
      (h c main_arg0).trans (keeps_ops.a0 _), (h c main_arg1).trans (keeps_ops.a1 _),
      (h c main_arg2).trans (keeps_ops.a2 _), (h c main_arg3).trans (keeps_ops.a3 _),
      (h c main_arg4).trans (keeps_ops.a4 _), (h c main_arg5).trans (keeps_ops.a5 _),
      (h c main_arg6).trans (keeps_ops.a6 _), (h c main_arg7).trans (keeps_ops.a7 _)⟩)
    (run_seq scopedRefs_eq scopedSems_eq defs main (fun _ => ops) main_eq (fun _ => ops_sub) m ρ (fun _ => ops_fresh))

end Cert.ReferenceIdeal.Hand

end
-- ==== Proof.RReadA.lean ====
import proofs.«107747_g15401752723588_cont_week2b_928_3_alg».proof.Proof.RefTerm
import proofs.«107747_g15401752723588_cont_week2b_928_3_alg».proof.Proof.Spec
import Idealize.ShloMosaic.Lib.Pipeline.Value
import Idealize.ShloMosaic.PureOps.Ideal.Laws
import Idealize.ShloMosaic.Lib.StableHlo.Predicate
import Idealize.ShloMosaic.Lib.ValueLayout

noncomputable section

namespace Cert.ReferenceIdeal.Read

open Idealize.ShloMosaic Idealize.ShloMosaic.TcCoe Idealize.ShloMosaic.ValueIdx Idealize.SL.Sem Idealize.ShloMosaic.StableHlo
open Cert.ReferenceIdeal Cert.ReferenceIdeal.Gen

/-- The take's constant table holds its own position at every entry. -/
private theorem lit0_eq : ∀ k : Fin 128, lit0 k = BitVec.ofNat 32 k.val := by decide +kernel

private theorem inIdx_apply (k : Fin 128) : Term.inIdx (ix1 k) = BitVec.ofNat 32 k.val := by
  have h : (S128.rowMajor (ix1 k) : Fin 128) = k := Fin.ext (Shape.rowMajor_val_one (ix1 k))
  show lit0 (S128.rowMajor (ix1 k)) = _
  rw [h]
  exact lit0_eq k

private theorem norm_word : ∀ k : Fin 128,
    Scalar.select (IntOp.cmpi .slt (BitVec.ofNat 32 k.val) 0#32) (IntOp.addi (BitVec.ofNat 32 k.val) 512#32) (BitVec.ofNat 32 k.val)
      = BitVec.ofNat 32 k.val := by decide +kernel

private theorem normIdx_apply (k : Fin 128) : Term.normIdx Term.inIdx (ix1 k) = BitVec.ofNat 32 k.val := by
  show Scalar.select (IntOp.cmpi .slt (Term.inIdx (ix1 k)) 0#32) (IntOp.addi (Term.inIdx (ix1 k)) 512#32) (Term.inIdx (ix1 k)) = _
  rw [inIdx_apply]
  exact norm_word k

private theorem colIdx_apply (k : Fin 128) : Term.colIdx Term.inIdx (ix2 k (0 : Fin 1)) = BitVec.ofNat 32 k.val := by
  unfold Term.colIdx
  rw [broadcastInDim_apply _ _ _ _ (ix1 k) (fun a => by match a with | ⟨0, _⟩ => rfl)]
  exact normIdx_apply k

private theorem range_word : ∀ k : Fin 128,
    IntOp.andi (IntOp.cmpi .sge (BitVec.ofNat 32 k.val) 0#32) (IntOp.cmpi .sle (BitVec.ofNat 32 k.val) 511#32) = 1#1 := by
  decide +kernel

private theorem foldl_andi_one {ι : Type} (f : ι → BitVec 1) : ∀ (l : List ι) (init : BitVec 1), init = 1#1 →
    (∀ n ∈ l, f n = 1#1) → l.foldl (fun r n => IntOp.andi r (f n)) init = 1#1
  | [], init, h, _ => h
  | a :: l, init, h, hf => by
    refine foldl_andi_one f l _ ?_ (fun n hn => hf n (List.mem_cons_of_mem _ hn))
    show IntOp.andi init (f a) = 1#1
    rw [h, hf a (List.mem_cons.2 (Or.inl rfl))]
    rfl

private theorem inRange_apply (k : Fin 128) : Term.inRange Term.inIdx (ix1 k) = 1#1 := by
  unfold Term.inRange
  rw [Host.reduce_eq_foldl]
  refine foldl_andi_one _ _ _ rfl (fun i _ => ?_)
  obtain ⟨p, q, rfl⟩ : ∃ (p : Fin 128) (q : Fin 1), i = ix2 p q := ⟨i 0, i 1, eq_ix2 i⟩
  obtain rfl : q = 0 := Subsingleton.elim _ _
  show IntOp.andi (IntOp.cmpi .sge (Term.colIdx Term.inIdx (ix2 p 0)) 0#32)
    (IntOp.cmpi .sle (Term.colIdx Term.inIdx (ix2 p 0)) 511#32) = 1#1
  rw [colIdx_apply]
  exact range_word p

/-- The take's dimension numbers: rows are the offset axis, the column axis is collapsed and start-indexed. -/
private abbrev gD : GatherDims S16384x512 S128x1 S16384x128 := gather_S16384x512_S128x1_S16384x128_0_1_n_n_1_1_163841

private theorem gather_axis0 (idx : IVec S128x1 32) (R : Fin 16384) (k : Fin 128) :
    (gD.operandIdx (ix2 R k) idx 0).val = R.val := by
  show gD.start (ix2 R k) idx 0 + gD.batchCoord (ix2 R k) 0 + gD.offCoord (ix2 R k) 0 = R.val
  rw [GatherDims.batchCoord_eq_zero _ _ _ (by decide)]
  unfold GatherDims.start GatherDims.offCoord
  rw [dif_neg (show (0 : Fin S16384x512.rank) ∉ gD.startIndexMap by decide),
    dif_pos (show (0 : Fin S16384x512.rank) ∈ gD.sKept by decide)]
  simp only [Nat.zero_add, Nat.add_zero]
  rfl

private theorem gather_axis1 (R : Fin 16384) (k : Fin 128) :
    (gD.operandIdx (ix2 R k) (Term.colIdx Term.inIdx) 1).val = k.val := by
  show gD.start (ix2 R k) _ 1 + gD.batchCoord (ix2 R k) 1 + gD.offCoord (ix2 R k) 1 = k.val
  rw [GatherDims.batchCoord_eq_zero _ _ _ (by decide), GatherDims.offCoord_eq_zero _ _ _ (by decide)]
  unfold GatherDims.start
  rw [dif_pos (show (1 : Fin S16384x512.rank) ∈ gD.startIndexMap by decide)]
  have hsi : gD.siIdx (ix2 R k) ⟨List.idxOf (1 : Fin S16384x512.rank) gD.startIndexMap,
      List.idxOf_lt_length_iff.2 (by decide)⟩ = ix2 k (0 : Fin 1) := by
    funext b; refine Fin.ext ?_
    match b with
    | ⟨0, _⟩ => rfl
    | ⟨1, _⟩ => rfl
  rw [hsi, colIdx_apply]
  show min (BitVec.ofNat 32 k.val).toInt.toNat (512 - 1) + 0 + 0 = k.val
  rw [Predicate.toInt_ofNat_small k.val (by have := k.isLt; omega)]
  have := k.isLt
  simp only [Int.toNat_natCast]
  omega

/-- The gather reads, at (R, k), the operand at row R and column k. -/
private theorem gather_apply (x : FVec Ideal S16384x512 .f32) (R : Fin 16384) (k : Fin 128) :
    Host.gather gather_S16384x512_S128x1_S16384x128_0_1_n_n_1_1_163841 x (Term.colIdx Term.inIdx) (ix2 R k)
      = x (ix2 R (⟨k.val, by have := k.isLt; omega⟩ : Fin 512)) := by
  unfold Host.gather
  refine congrArg x (funext fun a => Fin.ext ?_)
  match a with
  | ⟨0, _⟩ => exact gather_axis0 _ R k
  | ⟨1, _⟩ => exact gather_axis1 R k

private theorem takeCols_apply (x : FVec Ideal S16384x512 .f32) (R : Fin 16384) (k : Fin 128) :
    Term.takeCols x Term.inIdx (ix2 R k) = x (ix2 R (⟨k.val, by have := k.isLt; omega⟩ : Fin 512)) := by
  unfold Term.takeCols
  rw [select_apply, broadcastInDim_apply _ _ _ _ (ix1 k) (fun a => by match a with | ⟨0, _⟩ => rfl), inRange_apply, select_one]
  exact gather_apply x R k

/-- attr's row 3, as the slice and the reshape leave it. -/
private theorem attrRow_apply (ar : FVec Ideal S16384x8x16 .f32) (R : Fin 16384) (k : Fin 16) :
    Term.attrRow ar (ix2 R k) = ar (ix3 R (3 : Fin 8) k) := by
  unfold Term.attrRow
  rw [shapeCast_apply _ _ (ix2 R k) (ix3 R (0 : Fin 1) k) (by
    rw [Shape.rowMajor_val_three, Shape.rowMajor_val_two]
    show (R.val * 1 + 0) * 16 + k.val = R.val * 16 + k.val
    omega)]
  exact slice3_axis1_apply 3 ar _ R 0 k 3 rfl

/-- A sample's 144 inputs: the first 128 columns of x, then attr's row 3. -/
private theorem xin_apply (x : FVec Ideal S16384x512 .f32) (ar : FVec Ideal S16384x8x16 .f32) (R : Fin 16384) (k : Fin 144) :
    Term.xin x ar (ix2 R k) = Cert.Node.xin x ar R k := by
  unfold Term.xin Cert.Node.xin
  have hk := k.isLt
  by_cases h : k.val < 128
  · rw [dif_pos h,
      concatenate_pair_apply_left (t := S16384x144) (s₁ := S16384x128) (s₂ := S16384x16) (1 : Fin S16384x144.rank) _ _ _ (ix2 R k) rfl (ix2 R (⟨k.val, h⟩ : Fin 128))
        (fun b => by match b with | ⟨0, _⟩ => rfl | ⟨1, _⟩ => rfl)]
    exact takeCols_apply x R ⟨k.val, h⟩
  · rw [dif_neg h,
      concatenate_pair_apply_right (t := S16384x144) (s₁ := S16384x128) (s₂ := S16384x16) (1 : Fin S16384x144.rank) _ _ _ (ix2 R k) rfl rfl (ix2 R (⟨k.val - 128, by omega⟩ : Fin 16))
        (fun b hb => by match b, hb with | ⟨0, _⟩, _ => rfl | ⟨1, _⟩, hb => exact absurd rfl hb)
        (by show k.val - 128 + 128 = k.val; omega)]
    exact attrRow_apply ar R _

/-! The first product's operand indices, axis by axis. -/

private theorem lhs_lin1_0 (i : S16384x64.Idx) (q : dot_S16384x144_S144x64_S16384x64_1_0_0_1_n_n.contr.Idx) :
    (dot_S16384x144_S144x64_S16384x64_1_0_0_1_n_n.lhsIdx i q 0).val = (i 0).val := by
  unfold DotDims.lhsIdx
  rw [dif_neg (show ¬(0 : Fin S16384x144.rank) ∈ dot_S16384x144_S144x64_S16384x64_1_0_0_1_n_n.lhsBatch by decide),
    dif_pos (show (0 : Fin S16384x144.rank) ∈ dot_S16384x144_S144x64_S16384x64_1_0_0_1_n_n.lhsNonContracting by decide)]
  rfl
private theorem lhs_lin1_1 (i : S16384x64.Idx) (q : dot_S16384x144_S144x64_S16384x64_1_0_0_1_n_n.contr.Idx) :
    (dot_S16384x144_S144x64_S16384x64_1_0_0_1_n_n.lhsIdx i q 1).val = (q ⟨0, by decide⟩).val :=
  dot_S16384x144_S144x64_S16384x64_1_0_0_1_n_n.lhsIdx_val_of_single rfl i q
private theorem rhs_lin1_0 (i : S16384x64.Idx) (q : dot_S16384x144_S144x64_S16384x64_1_0_0_1_n_n.contr.Idx) :
    (dot_S16384x144_S144x64_S16384x64_1_0_0_1_n_n.rhsIdx i q 0).val = (q ⟨0, by decide⟩).val :=
  dot_S16384x144_S144x64_S16384x64_1_0_0_1_n_n.rhsIdx_val_of_single rfl i q
private theorem rhs_lin1_1 (i : S16384x64.Idx) (q : dot_S16384x144_S144x64_S16384x64_1_0_0_1_n_n.contr.Idx) :
    (dot_S16384x144_S144x64_S16384x64_1_0_0_1_n_n.rhsIdx i q 1).val = (i 1).val := by
  unfold DotDims.rhsIdx
  rw [dif_neg (show ¬(1 : Fin S144x64.rank) ∈ dot_S16384x144_S144x64_S16384x64_1_0_0_1_n_n.rhsBatch by decide),
    dif_pos (show (1 : Fin S144x64.rank) ∈ dot_S16384x144_S144x64_S16384x64_1_0_0_1_n_n.rhsNonContracting by decide)]
  rfl

/-- The first product at (R, j): the sum over the 144 inputs. -/
private theorem dot_apply (l : FVec Ideal S16384x144 .f32) (r : FVec Ideal S144x64 .f32) (R : Fin 16384) (j : Fin 64) :
    Host.dotGeneral dot_S16384x144_S144x64_S16384x64_1_0_0_1_n_n none l r (ix2 R j) = ∑ k : Fin 144, l (ix2 R k) * r (ix2 k j) := by
  simp only [Host.dotGeneral]
  rw [Ideal.dotGeneral_apply, ← Equiv.sum_comp (ValueIdx.contrEquiv1 dot_S16384x144_S144x64_S16384x64_1_0_0_1_n_n 144 rfl rfl).symm]
  refine Finset.sum_congr rfl fun k _ => ?_
  have hk := ValueIdx.contrEquiv1_symm_val dot_S16384x144_S144x64_S16384x64_1_0_0_1_n_n 144 rfl rfl k
  have el : dot_S16384x144_S144x64_S16384x64_1_0_0_1_n_n.lhsIdx (ix2 R j) ((ValueIdx.contrEquiv1 dot_S16384x144_S144x64_S16384x64_1_0_0_1_n_n 144 rfl rfl).symm k) = ix2 R k :=
    funext fun a => Fin.ext (by
      match a with
      | ⟨0, _⟩ => exact lhs_lin1_0 _ _
      | ⟨1, _⟩ => exact (lhs_lin1_1 _ _).trans hk)
  have er : dot_S16384x144_S144x64_S16384x64_1_0_0_1_n_n.rhsIdx (ix2 R j) ((ValueIdx.contrEquiv1 dot_S16384x144_S144x64_S16384x64_1_0_0_1_n_n 144 rfl rfl).symm k) = ix2 k j :=
    funext fun a => Fin.ext (by
      match a with
      | ⟨0, _⟩ => exact (rhs_lin1_0 _ _).trans hk
      | ⟨1, _⟩ => exact rhs_lin1_1 _ _)
  rw [el, er]

/-- A vector laid along the rows reads its own entry in every row. -/
private theorem rows64_apply (v : FVec Ideal S64 .f32) (R : Fin 16384) (j : Fin 64) : Term.rows64 v (ix2 R j) = v (ix1 j) := by
  unfold Term.rows64
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The reference's first linear layer, entry by entry. -/
theorem lin1_apply (x : FVec Ideal S16384x512 .f32) (ar : FVec Ideal S16384x8x16 .f32) (w1 : FVec Ideal S64x144 .f32)
    (b1 : FVec Ideal S64 .f32) : Term.lin1 x ar w1 b1 = fun i => Cert.Node.rlin1 x ar w1 b1 (i 0) (i 1) := by
  funext i
  obtain ⟨R, j, rfl⟩ : ∃ (R : Fin 16384) (j : Fin 64), i = ix2 R j := ⟨i 0, i 1, eq_ix2 i⟩
  show Term.lin1 x ar w1 b1 (ix2 R j) = Cert.Node.rlin1 x ar w1 b1 R j
  unfold Term.lin1 Cert.Node.rlin1
  rw [addf_apply, dot_apply, rows64_apply]
  congr 1
  refine Finset.sum_congr rfl fun k _ => ?_
  rw [xin_apply, transpose_ix2_apply]

end Cert.ReferenceIdeal.Read

end
-- ==== Proof.RReadB.lean ====
import proofs.«107747_g15401752723588_cont_week2b_928_3_alg».proof.Proof.RefTerm
import proofs.«107747_g15401752723588_cont_week2b_928_3_alg».proof.Proof.Spec
import proofs.«107747_g15401752723588_cont_week2b_928_3_alg».proof.Proof.Consts
import Idealize.ShloMosaic.Lib.Pipeline.Value
import Idealize.ShloMosaic.Lib.ValueLayout
import Idealize.ShloMosaic.PureOps.Ideal.Laws

noncomputable section

namespace Cert.ReferenceIdeal.Read

open Idealize.ShloMosaic Idealize.ShloMosaic.TcCoe Idealize.ShloMosaic.ValueIdx Idealize.SL.Sem Idealize.ShloMosaic.StableHlo
open Cert.ReferenceIdeal Cert.ReferenceIdeal.Gen

/-! ## Constants -/

/-- The word of 16384.0 denotes the real 16384. -/
private theorem bigN_eq : Cert.Node.bigN = ((16384 : ℝ) : EReal) := Cert.Consts.ofBits_16384

/-- The word of 1.0 denotes 1. -/
private theorem ofBits_one_f32 : Ideal.ofBits .f32 0x3F800000#32 = 1 := Cert.Consts.ofBits_one

/-! ## Broadcasts at an index -/

/-- A scalar broadcast to any shape reads the scalar everywhere. -/
private theorem bcast0_apply {α : Type} {t : Shape} (hb : S_.BroadcastsInDim t (![] : Fin 0 → Fin t.rank))
    (x : S_.Idx → α) (i : t.Idx) : broadcastInDim t ![] hb x i = x ix0 :=
  broadcastInDim_apply _ hb x i ix0 (fun a => a.elim0)

/-- A [64] vector as a one-row matrix reads, at (0, j), the vector at j. -/
private theorem row64_apply {α : Type} (v : S64.Idx → α) (z : Fin 1) (j : Fin 64) :
    broadcastInDim S1x64 ![1] bcast_S64_S1x64_1 v (ix2 z j) = v (ix1 j) :=
  broadcastInDim_apply _ bcast_S64_S1x64_1 v (ix2 z j) (ix1 j) (fun a => by
    match a with
    | ⟨0, _⟩ => rfl)

/-- A one-row matrix broadcast over the 16384 rows reads, at (R, j), its row at j. -/
private theorem rowsOf_apply {α : Type} (v : S1x64.Idx → α) (R : Fin 16384) (j : Fin 64) :
    broadcastInDim S16384x64 ![0, 1] bcast_S1x64_S16384x64_0_1 v (ix2 R j) = v (ix2 (0 : Fin 1) j) :=
  broadcastInDim_apply _ bcast_S1x64_S16384x64_0_1 v (ix2 R j) (ix2 (0 : Fin 1) j) (fun a => by
    match a with
    | ⟨0, _⟩ => rfl
    | ⟨1, _⟩ => rfl)

/-- A [64] vector along the rows reads, at (R, j), the vector at j. -/
private theorem rows64_apply (v : FVec Ideal S64 .f32) (R : Fin 16384) (j : Fin 64) :
    Term.rows64 v (ix2 R j) = v (ix1 j) := by
  unfold Term.rows64
  rw [rowsOf_apply, row64_apply]

/-! ## The batch sum, the mean and the variance -/

/-- A sum over the 16384 rows, from the zero word: at column j the sum over R of the entries (R, j). -/
private theorem colsum_apply (x : FVec Ideal S16384x64 .f32) (j : Fin 64) :
    Host.reduceAdd (F := Ideal) x (constant (F := Ideal) S_ .f32 0x00000000#32) reducesTo_S16384x64_S64_d0 h_S_ (ix1 j)
      = ∑ R : Fin 16384, x (ix2 R j) := by
  unfold Host.reduceAdd
  rw [Ideal.hostReduceAdd_def, Ideal.hostReduceAdd_single reducesTo_S16384x64_S64_d0 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The batch mean at column j: the column sum divided by 16384. -/
private theorem meanV_apply (h : FVec Ideal S16384x64 .f32) (j : Fin 64) :
    Term.meanV h (ix1 j) = Cert.Node.rmean (fun R j => h (ix2 R j)) j := by
  unfold Term.meanV Cert.Node.rmean Cert.Node.bigN
  show Ideal.div _ _ = _
  rw [colsum_apply, bcast0_apply, constant_apply]

/-- The variance's divisor 16384 − 0 is 16384. -/
private theorem varDen_apply : Term.varDen (F := Ideal) ix0 = Cert.Node.bigN := by
  unfold Term.varDen
  rw [subf_apply, constant_apply, sitofp_apply, constantI_apply]
  show Cert.Node.bigN - (((0#32 : BitVec 32).toInt : ℝ) : EReal) = _
  simp

/-- The divisor is positive, so the guard's bit is set. -/
private theorem guard_apply :
    cmpf .ogt (Term.varDen (F := Ideal)) (constant (F := Ideal) S_ .f32 0x00000000#32) ix0 = 1#1 := by
  rw [cmpf_apply, varDen_apply, constant_apply, Ideal.ofBits_zero_f32, Ideal.cmpf_def, bigN_eq]
  simp [Ideal.cmp]

/-- The mean the variance centres on, held as a one-row matrix and spread over the rows: at (R, j) the same column sum
    divided by 16384. -/
private theorem keepMean_apply (h : FVec Ideal S16384x64 .f32) (R : Fin 16384) (j : Fin 64) :
    broadcastInDim S16384x64 ![0, 1] bcast_S1x64_S16384x64_0_1
        (Host.divf (F := Ideal) (broadcastInDim S1x64 ![1] bcast_S64_S1x64_1
            (Host.reduceAdd (F := Ideal) h (constant (F := Ideal) S_ .f32 0x00000000#32) reducesTo_S16384x64_S64_d0 h_S_))
          (broadcastInDim S1x64 ![] bcast_S_S1x64 (constant (F := Ideal) S_ .f32 0x46800000#32))) (ix2 R j)
      = Cert.Node.rmean (fun R j => h (ix2 R j)) j := by
  rw [rowsOf_apply]
  unfold Cert.Node.rmean Cert.Node.bigN
  show Ideal.div _ _ = _
  rw [row64_apply, colsum_apply, bcast0_apply, constant_apply]

/-- The batch variance at column j: the sum of the squared centred entries divided by 16384. -/
private theorem varV_apply (h : FVec Ideal S16384x64 .f32) (j : Fin 64) :
    Term.varV h (ix1 j) = Cert.Node.rvar (fun R j => h (ix2 R j)) j := by
  unfold Term.varV
  rw [select_apply, bcast0_apply, guard_apply, select_one]
  unfold Cert.Node.rvar
  show Ideal.div _ _ = _
  rw [bcast0_apply, varDen_apply, colsum_apply]
  refine congrArg (fun s => Ideal.div s Cert.Node.bigN) (Finset.sum_congr rfl fun k _ => ?_)
  rw [mulf_apply, subf_apply, keepMean_apply]

/-! ## Normalisation and ELU -/

/-- Batch normalisation at (R, j). -/
private theorem normed_apply (h : FVec Ideal S16384x64 .f32) (g be : FVec Ideal S64 .f32) (R : Fin 16384) (j : Fin 64) :
    Term.normed h g be (ix2 R j) = Cert.Node.rnormed (fun R j => h (ix2 R j)) g be R j := by
  unfold Term.normed Cert.Node.rnormed Cert.Node.eps
  rw [addf_apply, mulf_apply, rows64_apply, rows64_apply]
  show Ideal.div _ _ * _ + _ = _
  rw [subf_apply, rows64_apply, rows64_apply, meanV_apply]
  show Ideal.div _ (Ideal.sqrt _) * _ + _ = _
  rw [addf_apply, varV_apply, bcast0_apply, constant_apply]

/-- ELU at an index: the entry where it is positive, else 1 · (exp (0 where it is positive, else the entry) − 1). -/
private theorem elu_apply (v : FVec Ideal S16384x64 .f32) (i : S16384x64.Idx) :
    Term.elu v i = Cert.Node.relu (v i) := by
  unfold Term.elu Cert.Node.relu
  rw [select_apply, cmpf_apply, bcast0_apply, constant_apply, Ideal.ofBits_zero_f32, Ideal.cmpf_def, mulf_apply,
    bcast0_apply, constant_apply, ofBits_one_f32]
  show Scalar.select _ _ (1 * (Ideal.exp _ - 1)) = _
  rw [select_apply, cmpf_apply, bcast0_apply, constant_apply, Ideal.ofBits_zero_f32, Ideal.cmpf_def, bcast0_apply,
    id_eq, constant_apply, Ideal.ofBits_zero_f32]

/-! ## The second linear layer -/

/-- Left operand, axis 0: the result's row. -/
private theorem lhs_lin2_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide),
    dif_pos (show (0 : Fin S16384x64.rank) ∈ dot_S16384x64_S64x128_S16384x128_1_0_0_1_n_n.lhsNonContracting by decide)]
  rfl

/-- Left operand, axis 1: the contraction position. -/
private theorem lhs_lin2_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q

/-- Right operand, axis 0: the contraction position. -/
private theorem rhs_lin2_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q

/-- Right operand, axis 1: the result's column. -/
private theorem rhs_lin2_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide),
    dif_pos (show (1 : Fin S64x128.rank) ∈ dot_S16384x64_S64x128_S16384x128_1_0_0_1_n_n.rhsNonContracting by decide)]
  rfl

/-- The product a · w at (R, n): the sum over k of a (R, k) · w (k, n). -/
private theorem dot_lin2_apply (a : FVec Ideal S16384x64 .f32) (w : FVec Ideal S64x128 .f32) (R : Fin 16384) (n : Fin 128) :
    Host.dotGeneral (F := Ideal) dot_S16384x64_S64x128_S16384x128_1_0_0_1_n_n none a w (ix2 R n)
      = ∑ k : Fin 64, a (ix2 R k) * w (ix2 k n) := by
  simp only [Host.dotGeneral]
  rw [Ideal.dotGeneral_apply,
    ← Equiv.sum_comp (ValueIdx.contrEquiv1 dot_S16384x64_S64x128_S16384x128_1_0_0_1_n_n 64 rfl rfl).symm]
  refine Finset.sum_congr rfl fun k _ => ?_
  have hk := ValueIdx.contrEquiv1_symm_val dot_S16384x64_S64x128_S16384x128_1_0_0_1_n_n 64 rfl rfl k
  have el : dot_S16384x64_S64x128_S16384x128_1_0_0_1_n_n.lhsIdx (ix2 R n)
      ((ValueIdx.contrEquiv1 dot_S16384x64_S64x128_S16384x128_1_0_0_1_n_n 64 rfl rfl).symm k) = ix2 R k :=
    funext fun c => Fin.ext (by
      match c with
      | ⟨0, _⟩ => exact lhs_lin2_0 _ _
      | ⟨1, _⟩ => exact (lhs_lin2_1 _ _).trans hk)
  have er : dot_S16384x64_S64x128_S16384x128_1_0_0_1_n_n.rhsIdx (ix2 R n)
      ((ValueIdx.contrEquiv1 dot_S16384x64_S64x128_S16384x128_1_0_0_1_n_n 64 rfl rfl).symm k) = ix2 k n :=
    funext fun c => Fin.ext (by
      match c with
      | ⟨0, _⟩ => exact (rhs_lin2_0 _ _).trans hk
      | ⟨1, _⟩ => exact rhs_lin2_1 _ _)
  rw [el, er]

/-- The bias along the rows, at (R, n). -/
private theorem bias128_apply (b2 : FVec Ideal S128 .f32) (R : Fin 16384) (n : Fin 128) :
    broadcastInDim S16384x128 ![0, 1] bcast_S1x128_S16384x128_0_1 (broadcastInDim S1x128 ![1] bcast_S128_S1x128_1 b2) (ix2 R n)
      = b2 (ix1 n) := by
  rw [broadcastInDim_apply _ bcast_S1x128_S16384x128_0_1 _ (ix2 R n) (ix2 (0 : Fin 1) n) (fun c => by
    match c with
    | ⟨0, _⟩ => rfl
    | ⟨1, _⟩ => rfl)]
  exact broadcastInDim_apply _ bcast_S128_S1x128_1 b2 (ix2 (0 : Fin 1) n) (ix1 n) (fun c => by
    match c with
    | ⟨0, _⟩ => rfl)

/-- Second linear layer and tanh at (R, n), over any activation. -/
private theorem lin2_at (a : FVec Ideal S16384x64 .f32) (w2 : FVec Ideal S128x64 .f32) (b2 : FVec Ideal S128 .f32)
    (R : Fin 16384) (n : Fin 128) :
    Term.lin2 a w2 b2 (ix2 R n) = Ideal.tanh ((∑ k : Fin 64, a (ix2 R k) * w2 (ix2 n k)) + b2 (ix1 n)) := by
  unfold Term.lin2
  show Ideal.tanh _ = _
  rw [addf_apply, dot_lin2_apply, bias128_apply]
  refine congrArg (fun s => Ideal.tanh (s + b2 (ix1 n))) (Finset.sum_congr rfl fun k _ => ?_)
  rw [transpose_ix2_apply]

/-- Normalisation, ELU, second linear layer and tanh of the reference, entry by entry, over any h. -/
theorem lin2_apply (h : FVec Ideal S16384x64 .f32) (g be : FVec Ideal S64 .f32) (w2 : FVec Ideal S128x64 .f32)
    (b2 : FVec Ideal S128 .f32) (R : Fin 16384) (n : Fin 128) :
    Term.lin2 (Term.elu (Term.normed h g be)) w2 b2 (ix2 R n)
      = Cert.Node.rlin2 (fun R j => h (ix2 R j)) g be w2 b2 R n := by
  rw [lin2_at]
  unfold Cert.Node.rlin2
  refine congrArg (fun s => Ideal.tanh (s + b2 (ix1 n))) (Finset.sum_congr rfl fun k _ => ?_)
  rw [elu_apply, normed_apply]

end Cert.ReferenceIdeal.Read

end
-- ==== Proof.RReadP.lean ====
import proofs.«107747_g15401752723588_cont_week2b_928_3_alg».proof.Proof.RefTerm
import proofs.«107747_g15401752723588_cont_week2b_928_3_alg».proof.Proof.Spec
import Idealize.ShloMosaic.Lib.Pipeline.Value
import Idealize.ShloMosaic.PureOps.Ideal.Laws
import Idealize.ShloMosaic.Lib.StableHlo.Predicate

noncomputable section

namespace Cert.ReferenceIdeal.Read

open Idealize.ShloMosaic Idealize.ShloMosaic.TcCoe Idealize.ShloMosaic.ValueIdx Idealize.SL.Sem Idealize.ShloMosaic.StableHlo
open Cert.ReferenceIdeal Cert.ReferenceIdeal.Gen

/-! ## A scatter read at an index

`Host.scatter` is a left fold over the update indices in row-major order. When the body returns the update and no two
update indices land on one result index, the order does not matter: the result at `i'` is the update whose index lands
on `i'`, and the operand's element where none does. Both facts go by induction over the list the fold runs over. -/

section ScatterRead
variable {α : Type} {s si u : Shape} {w : Nat}

/-- One step of the scatter's fold: the update index `n` replaces the element its result index names. -/
private def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

private theorem scatter_eq_foldl (d : ScatterDims s si u) (f : α → α → α) (x : s.Idx → α) (idx : IVec si w) (upd : u.Idx → α) :
    Host.scatter d f x idx upd = (List.finRange u.numel).foldl (scatterStep d f idx upd) x := rfl

/-- A step whose update index does not land on `i'` leaves the element at `i'`. -/
private theorem scatterStep_miss (d : ScatterDims s si u) (f : α → α → α) (idx : IVec si w) (upd : u.Idx → α)
    (r : s.Idx → α) (n : Fin u.numel) (i' : s.Idx) (h : d.resultIdx? (u.rowMajor.symm n) idx ≠ some i') :
    scatterStep d f idx upd r n i' = r i' := by
  unfold scatterStep
  cases hr : d.resultIdx? (u.rowMajor.symm n) idx with
  | none => rfl
  | some i =>
    have hne : i' ≠ i := fun e => h (by rw [hr, e])
    simp only [if_neg hne]

/-- A step whose update index lands on `i'` leaves there the body's value of the old element and the update. -/
private theorem scatterStep_hit (d : ScatterDims s si u) (f : α → α → α) (idx : IVec si w) (upd : u.Idx → α)
    (r : s.Idx → α) (n : Fin u.numel) (i' : s.Idx) (h : d.resultIdx? (u.rowMajor.symm n) idx = some i') :
    scatterStep d f idx upd r n i' = f (r i') (upd (u.rowMajor.symm n)) := by
  unfold scatterStep
  rw [h]
  exact if_pos rfl

/-- The fold over a list none of whose update indices lands on `i'` leaves the element at `i'` (any body). -/
private theorem foldl_scatterStep_miss (d : ScatterDims s si u) (f : α → α → α) (idx : IVec si w) (upd : u.Idx → α) (i' : s.Idx) :
    ∀ (l : List (Fin u.numel)) (r : s.Idx → α), (∀ n ∈ l, d.resultIdx? (u.rowMajor.symm n) idx ≠ some i') →
      l.foldl (scatterStep d f idx upd) r i' = r i'
  | [], r, _ => rfl
  | m :: l, r, h => by
    rw [List.foldl_cons, foldl_scatterStep_miss d f idx upd i' l _ (fun n hn => h n (List.mem_cons_of_mem _ hn)),
      scatterStep_miss d f idx upd r m i' (h m List.mem_cons_self)]

/-- The fold over a duplicate-free list one of whose update indices, `n`, lands on `i'`, and no other does: the update at `n`. -/
private theorem foldl_scatterStep_hit (d : ScatterDims s si u) (idx : IVec si w) (upd : u.Idx → α) (i' : s.Idx) (n : Fin u.numel)
    (hn : d.resultIdx? (u.rowMajor.symm n) idx = some i')
    (hinj : ∀ m : Fin u.numel, d.resultIdx? (u.rowMajor.symm m) idx = some i' → m = n) :
    ∀ (l : List (Fin u.numel)) (r : s.Idx → α), l.Nodup → n ∈ l →
      l.foldl (scatterStep d (fun _ b => b) idx upd) r i' = upd (u.rowMajor.symm n)
  | [], _, _, hmem => absurd hmem List.not_mem_nil
  | m :: l, r, hnd, hmem => by
    rw [List.foldl_cons]
    by_cases hmn : m = n
    · subst hmn
      have hnot : m ∉ l := (List.nodup_cons.mp hnd).1
      rw [foldl_scatterStep_miss d _ idx upd i' l _ (fun k hk e => hnot (hinj k e ▸ hk)),
        scatterStep_hit d _ idx upd r m i' hn]
    · have hmem' : n ∈ l := by
        rcases List.mem_cons.mp hmem with e | e
        · exact absurd e.symm hmn
        · exact e
      exact foldl_scatterStep_hit d idx upd i' n hn hinj l _ (List.nodup_cons.mp hnd).2 hmem'

/-- A SET-SCATTER READ WHERE AN UPDATE LANDS. With the body that returns the update, if the update index `j` lands on `i'`
    and every update index that lands on `i'` is `j`, the scatter holds `upd j` at `i'`. -/
theorem scatter_set_apply_hit (d : ScatterDims s si u) (x : s.Idx → α) (idx : IVec si w) (upd : u.Idx → α) (i' : s.Idx) (j : u.Idx)
    (hj : d.resultIdx? j idx = some i') (hinj : ∀ j' : u.Idx, d.resultIdx? j' idx = some i' → j' = j) :
    Host.scatter d (fun _ b => b) x idx upd i' = upd j := by
  rw [scatter_eq_foldl]
  have hn : d.resultIdx? (u.rowMajor.symm (u.rowMajor j)) idx = some i' := by rw [Equiv.symm_apply_apply]; exact hj
  have := foldl_scatterStep_hit d idx upd i' (u.rowMajor j) hn
    (fun m hm => by
      have := hinj _ hm
      rw [← this, Equiv.apply_symm_apply])
    (List.finRange u.numel) x (List.nodup_finRange _) (List.mem_finRange _)
  rw [this, Equiv.symm_apply_apply]

/-- A SCATTER READ WHERE NO UPDATE LANDS (any body): the operand's element. -/
theorem scatter_apply_miss (d : ScatterDims s si u) (f : α → α → α) (x : s.Idx → α) (idx : IVec si w) (upd : u.Idx → α) (i' : s.Idx)
    (h : ∀ j : u.Idx, d.resultIdx? j idx ≠ some i') :
    Host.scatter d f x idx upd i' = x i' := by
  rw [scatter_eq_foldl]
  exact foldl_scatterStep_miss d f idx upd i' _ x (fun n _ => h _)

end ScatterRead

/-! ## The placement's scatter: its index table and where each update lands -/

/-- The scatter's column table holds 128 + n at entry n, and jnp's index normalisation (add 512 where negative) leaves it. -/
private theorem lit1_norm : ∀ n : Fin 128,
    Scalar.select (IntOp.cmpi .slt (lit1 n) 0#32) (IntOp.addi (lit1 n) 512#32) (lit1 n) = BitVec.ofNat 32 (128 + n.val) := by
  decide

private theorem rowMajor_ix1 (n : Fin 128) : S128.rowMajor (ix1 n) = n := Fin.ext (Shape.rowMajor_val_one _)

/-- The normalised column table at entry n: 128 + n. -/
private theorem normIdx_outIdx (n : Fin 128) : Term.normIdx Term.outIdx (ix1 n) = BitVec.ofNat 32 (128 + n.val) := by
  show Scalar.select (IntOp.cmpi .slt (lit1 (S128.rowMajor (ix1 n))) 0#32)
    (IntOp.addi (lit1 (S128.rowMajor (ix1 n))) 512#32) (lit1 (S128.rowMajor (ix1 n))) = _
  rw [rowMajor_ix1]
  exact lit1_norm n

/-- The [128, 1] table of start indices at (n, 0): 128 + n. -/
private theorem colIdx_outIdx (n : Fin 128) : Term.colIdx Term.outIdx (ix2 n 0) = BitVec.ofNat 32 (128 + n.val) := by
  unfold Term.colIdx
  rw [broadcastInDim_apply _ _ _ _ (ix1 n) (fun a => by
    obtain rfl : a = 0 := Subsingleton.elim _ _
    rfl)]
  exact normIdx_outIdx n

/-- WHERE AN UPDATE LANDS. For this record (the update's axis 0 is the window over the operand's axis 0; the operand's axis 1
    is inserted and is the one the start index names), update index (R, n) lands on (R, c), c the start index the table
    holds at (n, 0), when that is a column of the operand. -/
private theorem resultIdx_place (idx : IVec S128x1 32) (R : Fin 16384) (n : Fin 128) (c : Fin 512)
    (hc : (idx (ix2 n 0)).toInt = (c.val : Int)) :
    scatter_S16384x512_S128x1_S16384x128_0_1_1_1.resultIdx? (ix2 R n) idx = some (ix2 R c) := by
  have key0 : scatter_S16384x512_S128x1_S16384x128_0_1_1_1.start (ix2 R n) idx 0
      + scatter_S16384x512_S128x1_S16384x128_0_1_1_1.window (ix2 R n) 0 = ((ix2 R c 0).val : Int) := by
    unfold ScatterDims.start ScatterDims.window
    rw [dif_neg (by decide), dif_pos (by decide)]
    show (0 : Int) + ((R.val : Nat) : Int) = ((R.val : Nat) : Int)
    exact zero_add _
  have key1 : scatter_S16384x512_S128x1_S16384x128_0_1_1_1.start (ix2 R n) idx 1
      + scatter_S16384x512_S128x1_S16384x128_0_1_1_1.window (ix2 R n) 1 = ((ix2 R c 1).val : Int) := by
    unfold ScatterDims.start ScatterDims.window
    rw [dif_pos (by decide), dif_neg (by decide)]
    have hsi : scatter_S16384x512_S128x1_S16384x128_0_1_1_1.siIdx (ix2 R n)
        ⟨List.idxOf (1 : Fin 2) scatter_S16384x512_S128x1_S16384x128_0_1_1_1.scatterDimsToOperandDims,
          List.idxOf_lt_length_iff.2 (by decide)⟩ = ix2 n 0 := by
      funext b; refine Fin.ext ?_
      match b with
      | ⟨0, _⟩ => rfl
      | ⟨1, _⟩ => rfl
    rw [hsi, hc]
    show ((c.val : Nat) : Int) + ((0 : Nat) : Int) = ((c.val : Nat) : Int)
    simp
  have key : ∀ a : Fin 2, scatter_S16384x512_S128x1_S16384x128_0_1_1_1.start (ix2 R n) idx a
      + scatter_S16384x512_S128x1_S16384x128_0_1_1_1.window (ix2 R n) a = ((ix2 R c a).val : Int) :=
    Fin.forall_fin_two.2 ⟨key0, key1⟩
  unfold ScatterDims.resultIdx?
  rw [dif_pos (fun a => by
    rw [key a]
    exact ⟨Int.natCast_nonneg _, Int.ofNat_lt.2 (ix2 R c a).isLt⟩)]
  congr 1
  funext a
  refine Fin.ext ?_
  show (scatter_S16384x512_S128x1_S16384x128_0_1_1_1.start (ix2 R n) idx a
      + scatter_S16384x512_S128x1_S16384x128_0_1_1_1.window (ix2 R n) a).toNat = (ix2 R c a).val
  rw [key a]
  exact Int.toNat_natCast _

/-- The start index of update (R, n), read signed: 128 + n. -/
private theorem colIdx_toInt (n : Fin 128) : (Term.colIdx Term.outIdx (ix2 n 0)).toInt = ((128 + n.val : Nat) : Int) := by
  rw [colIdx_outIdx, Predicate.toInt_ofNat_small _ (by have := n.isLt; omega)]

/-- Update (R, n) lands on (R, 128 + n). -/
private theorem resultIdx_outIdx (R : Fin 16384) (n : Fin 128) :
    scatter_S16384x512_S128x1_S16384x128_0_1_1_1.resultIdx? (ix2 R n) (Term.colIdx Term.outIdx)
      = some (ix2 R (⟨128 + n.val, by have := n.isLt; omega⟩ : Fin 512)) :=
  resultIdx_place _ R n ⟨128 + n.val, by have := n.isLt; omega⟩ (colIdx_toInt n)

/-- The operand of the scatter is zero everywhere. -/
private theorem zeros_apply (i : S16384x512.Idx) :
    broadcastInDim S16384x512 ![] bcast_S_S16384x512 (constant (F := Ideal) S_ .f32 0x00000000#32) i = 0 := by
  show Ideal.ofBits .f32 0x00000000#32 = 0
  exact Ideal.ofBits_zero_f32

/-- The reference's scatter puts the 128 columns of u at columns 128 … 255 of a zero array. -/
theorem place_apply (u : FVec Ideal S16384x128 .f32) :
    Term.place u = fun i => Cert.Node.placed (fun R n => u (ix2 R n)) (i 0) (i 1) := by
  funext i
  obtain ⟨R, c, rfl⟩ : ∃ R c, i = ix2 R c := ⟨i 0, i 1, eq_ix2 i⟩
  show Host.scatter scatter_S16384x512_S128x1_S16384x128_0_1_1_1 (fun _ b => b) _ (Term.colIdx Term.outIdx) u (ix2 R c)
    = Cert.Node.placed (fun R n => u (ix2 R n)) R c
  unfold Cert.Node.placed
  by_cases h : 128 ≤ c.val ∧ c.val < 256
  · -- a column of the block: the one update that lands there is (R, c − 128)
    rw [dif_pos h]
    refine scatter_set_apply_hit _ _ _ _ _ (ix2 R (⟨c.val - 128, by omega⟩ : Fin 128)) ?_ ?_
    · exact resultIdx_place _ R _ c (by rw [colIdx_toInt]; show ((128 + (c.val - 128) : Nat) : Int) = _; omega)
    · intro j' hj'
      obtain ⟨R', n', rfl⟩ : ∃ R' n', j' = ix2 R' n' := ⟨j' 0, j' 1, eq_ix2 j'⟩
      rw [resultIdx_outIdx] at hj'
      have e := Option.some.inj hj'
      have e0 : R' = R := congrFun e 0
      have e1 : 128 + n'.val = c.val := congrArg Fin.val (congrFun e 1)
      have e2 : n' = (⟨c.val - 128, by omega⟩ : Fin 128) := Fin.ext (by show n'.val = c.val - 128; omega)
      rw [e0, e2]
  · -- any other column: no update lands there, and the operand is zero
    rw [dif_neg h, scatter_apply_miss _ _ _ _ _ _ (fun j hj => by
      obtain ⟨R', n', rfl⟩ : ∃ R' n', j = ix2 R' n' := ⟨j 0, j 1, eq_ix2 j⟩
      rw [resultIdx_outIdx] at hj
      have e1 : 128 + n'.val = c.val := congrArg Fin.val (congrFun (Option.some.inj hj) 1)
      have := n'.isLt
      omega)]
    exact zeros_apply _

end Cert.ReferenceIdeal.Read

end
-- ==== Proof.BridgeA.lean ====
import proofs.«107747_g15401752723588_cont_week2b_928_3_alg».proof.Proof.Spec
import Mathlib.Algebra.BigOperators.Fin
import Mathlib.Data.EReal.Basic
import Mathlib.Data.Finset.Insert

noncomputable section

namespace Cert.Node

open Idealize.ShloMosaic Idealize.ShloMosaic.ValueIdx

/-- A sum over 144 indices is the sum over the first 128 plus the sum over the last 16. -/
private theorem sum144 {M : Type*} [AddCommMonoid M] (f : Fin 144 → M) :
    ∑ k : Fin 144, f k
      = (∑ k : Fin 128, f ⟨k.val, by have := k.isLt; omega⟩)
        + ∑ k : Fin 16, f ⟨128 + k.val, by have := k.isLt; omega⟩ :=
  Fin.sum_univ_add (a := 128) (b := 16) (fun i : Fin (128 + 16) => f i)

/-- A finite sum of real numbers is a real number. -/
private theorem exists_real_sum {ι : Type*} [Fintype ι] (f : ι → EReal)
    (h : ∀ k, ∃ r : ℝ, f k = (r : EReal)) : ∃ r : ℝ, ∑ k, f k = (r : EReal) := by
  classical
  have key : ∀ s : Finset ι, ∃ r : ℝ, ∑ k ∈ s, f k = (r : EReal) := by
    intro s
    refine Finset.induction_on s ?_ ?_
    · exact ⟨0, by rw [Finset.sum_empty, EReal.coe_zero]⟩
    · intro a s ha ih
      obtain ⟨r, hr⟩ := ih
      obtain ⟨q, hq⟩ := h a
      exact ⟨q + r, by rw [Finset.sum_insert ha, hr, hq, EReal.coe_add]⟩
  exact key Finset.univ

/-- A product of two real numbers is a real number. -/
private theorem exists_real_mul {u v : EReal} (hu : ∃ a : ℝ, u = (a : EReal)) (hv : ∃ b : ℝ, v = (b : EReal)) :
    ∃ c : ℝ, u * v = (c : EReal) := by
  obtain ⟨a, ha⟩ := hu
  obtain ⟨b, hb⟩ := hv
  exact ⟨a * b, by rw [ha, hb, EReal.coe_mul]⟩

/-- A sum of two real numbers is a real number. -/
private theorem exists_real_add {u v : EReal} (hu : ∃ a : ℝ, u = (a : EReal)) (hv : ∃ b : ℝ, v = (b : EReal)) :
    ∃ c : ℝ, u + v = (c : EReal) := by
  obtain ⟨a, ha⟩ := hu
  obtain ⟨b, hb⟩ := hv
  exact ⟨a + b, by rw [ha, hb, EReal.coe_add]⟩

variable (x : Mat 16384 512) (ar : Ten 16384 8 16) (w1 : Mat 64 144) (b1 : Vc 64)

/-- On the first 128 inputs a sample's input is x's column, and W1's entry is the left block's transposed entry. -/
private theorem term_left (R : Fin 16384) (j : Fin 64) (k : Fin 128) :
    xin x ar R ⟨k.val, by have := k.isLt; omega⟩ * w1 (ix2 j (⟨k.val, by have := k.isLt; omega⟩ : Fin 144))
      = x (ix2 R (Fin.castLE (by norm_num) k)) * w1Left w1 (ix2 k j) := by
  have hk : (⟨k.val, by have := k.isLt; omega⟩ : Fin 144).val < 128 := k.isLt
  unfold xin
  rw [dif_pos hk]
  rfl

/-- On the last 16 inputs a sample's input is attr's row 3, and W1's entry is the right block's transposed entry. -/
private theorem term_right (R : Fin 16384) (j : Fin 64) (k : Fin 16) :
    xin x ar R ⟨128 + k.val, by have := k.isLt; omega⟩ * w1 (ix2 j (⟨128 + k.val, by have := k.isLt; omega⟩ : Fin 144))
      = attrRow ar (ix2 R k) * w1Right w1 (ix2 k j) := by
  have hk : ¬ (⟨128 + k.val, by have := k.isLt; omega⟩ : Fin 144).val < 128 := by
    show ¬ (128 + k.val < 128)
    omega
  have hidx : (⟨(⟨128 + k.val, by have := k.isLt; omega⟩ : Fin 144).val - 128,
      by have := k.isLt; show 128 + k.val - 128 < 16; omega⟩ : Fin 16) = k :=
    Fin.ext (by show 128 + k.val - 128 = k.val; omega)
  unfold xin
  rw [dif_neg hk, hidx]
  rfl

/-- One product over the 144 inputs is the product over x's 128 columns plus the product over attr's 16 numbers. -/
theorem rlin1_eq (R : Fin 16384) (j : Fin 64) :
    rlin1 x ar w1 b1 R j = lin1 x (attrRow ar) (w1Left w1) (w1Right w1) (rowOf b1) R j := by
  have h3 : b1 (ix1 j) = rowOf b1 (ix2 0 j) := rfl
  unfold rlin1 lin1
  rw [sum144, Finset.sum_congr rfl (fun k _ => term_left x ar w1 R j k),
    Finset.sum_congr rfl (fun k _ => term_right x ar w1 R j k), h3]

/-- With real inputs the first layer's values are real. -/
theorem rlin1_real (hx : IsReal x) (har : IsReal ar) (hw1 : IsReal w1) (hb1 : IsReal b1) (R : Fin 16384) (j : Fin 64) :
    ∃ r : ℝ, rlin1 x ar w1 b1 R j = (r : EReal) := by
  have hxin : ∀ k : Fin 144, ∃ r : ℝ, xin x ar R k = (r : EReal) := by
    intro k
    unfold xin
    by_cases h : k.val < 128
    · rw [dif_pos h]
      exact hx _
    · rw [dif_neg h]
      exact har _
  have hsum : ∃ s : ℝ, (∑ k : Fin 144, xin x ar R k * w1 (ix2 j k)) = (s : EReal) :=
    exists_real_sum _ (fun k => exists_real_mul (hxin k) (hw1 (ix2 j k)))
  unfold rlin1
  exact exists_real_add hsum (hb1 (ix1 j))

end Cert.Node

end
-- ==== Proof.BridgeB.lean ====
import proofs.«107747_g15401752723588_cont_week2b_928_3_alg».proof.Proof.Spec
import proofs.«107747_g15401752723588_cont_week2b_928_3_alg».proof.Proof.Consts
import Mathlib.Analysis.SpecialFunctions.Sqrt
import Mathlib.Tactic.Ring
import Mathlib.Tactic.NormNum
import Mathlib.Tactic.Linarith
import Mathlib.Tactic.Positivity

noncomputable section

namespace Cert.Node

open Idealize.ShloMosaic Idealize.ShloMosaic.ValueIdx

/-! ## The three constants as reals -/

/-- The reference's divisor is the real 16384. -/
private theorem bigN_real : bigN = ((16384 : ℝ) : EReal) := Cert.Consts.ofBits_16384

/-- The kernel's factor is the real 1/16384. -/
private theorem invN_real : invN = (((1 : ℝ) / 16384 : ℝ) : EReal) := Cert.Consts.ofBits_inv16384

/-- The guard is a positive real, (2²³ + 2606508) · 2⁻⁴⁰. -/
private theorem eps_real : ∃ e : ℝ, 0 < e ∧ eps = (e : EReal) := Cert.Consts.ofBits_eps

/-! ## Identities over the reals -/

/-- The centred mean square is the mean of squares less the squared mean. -/
private theorem var_split (f : Fin 16384 → ℝ) :
    (∑ R, (f R - (∑ R, f R) * (1 / 16384)) * (f R - (∑ R, f R) * (1 / 16384))) * (1 / 16384)
      = (∑ R, f R * f R) * (1 / 16384) - (∑ R, f R) * (1 / 16384) * ((∑ R, f R) * (1 / 16384)) := by
  have key : ∀ μ : ℝ, ∑ R, (f R - μ) * (f R - μ)
      = (∑ R, f R * f R) - 2 * μ * (∑ R, f R) + 16384 * (μ * μ) := by
    intro μ
    have e : ∀ R, (f R - μ) * (f R - μ) = f R * f R - 2 * μ * f R + μ * μ := fun R => by ring
    simp only [e, Finset.sum_add_distrib, Finset.sum_sub_distrib, ← Finset.mul_sum, Finset.sum_const,
      Finset.card_univ, Fintype.card_fin, nsmul_eq_mul]
    push_cast; ring
  rw [key]; ring

/-- A mean of squares is not negative. -/
private theorem var_nonneg (f : Fin 16384 → ℝ) (μ : ℝ) :
    0 ≤ (∑ R, (f R - μ) * (f R - μ)) * (1 / 16384) :=
  mul_nonneg (Finset.sum_nonneg fun R _ => mul_self_nonneg _) (by norm_num)

/-- Centring then dividing by s, scaling by γ and adding β, is scaling by γ/s and shifting. -/
private theorem affine_real (x μ s γ β : ℝ) :
    (x - μ) * (1 / s) * γ + β = x * (s⁻¹ * γ) + (β - μ * (s⁻¹ * γ)) := by
  rw [one_div]; ring

/-! ## Extended-real readings -/

/-- A finite sum of reals, read in the extended reals, is the sum of the readings. -/
private theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- Row 0 of the statistics block is the column sum. -/
private theorem stats_zero (h : Fin 16384 → Fin 64 → EReal) (j : Fin 64) :
    stats h (0 : Fin 8) j = ∑ R, h R j := by
  unfold stats; exact if_pos rfl

/-- Row 1 of the statistics block is the column sum of squares. -/
private theorem stats_one (h : Fin 16384 → Fin 64 → EReal) (j : Fin 64) :
    stats h (1 : Fin 8) j = ∑ R, h R j * h R j := by
  unfold stats; rw [if_neg (by decide)]; exact if_pos rfl

section Real
variable (h : Fin 16384 → Fin 64 → EReal) (hr : Fin 16384 → Fin 64 → ℝ)
  (hh : ∀ R j, h R j = (hr R j : EReal)) (j : Fin 64)
include hh

/-- The reference's batch mean over real entries. -/
private theorem rmean_real : rmean h j = (((∑ R, hr R j) * (1 / 16384) : ℝ) : EReal) := by
  unfold rmean
  simp only [hh]
  rw [coe_sum, bigN_real, Ideal.div_coe (y := 16384) (by norm_num), ← EReal.coe_mul]

/-- The reference's batch variance over real entries. -/
private theorem rvar_real :
    rvar h j = (((∑ R, (hr R j - (∑ R, hr R j) * (1 / 16384)) * (hr R j - (∑ R, hr R j) * (1 / 16384)))
      * (1 / 16384) : ℝ) : EReal) := by
  unfold rvar
  rw [rmean_real h hr hh j]
  simp only [hh, ← EReal.coe_sub, ← EReal.coe_mul]
  rw [coe_sum, bigN_real, Ideal.div_coe (y := 16384) (by norm_num), ← EReal.coe_mul]

/-- The kernel's batch mean over real entries. -/
private theorem mean_real :
    mean (fun i => stats h (i 0) (i 1)) j = (((∑ R, hr R j) * (1 / 16384) : ℝ) : EReal) := by
  show stats h (0 : Fin 8) j * invN = _
  rw [stats_zero]
  simp only [hh]
  rw [coe_sum, invN_real, ← EReal.coe_mul]

/-- The kernel's batch variance over real entries equals the reference's. -/
private theorem var_real :
    var (fun i => stats h (i 0) (i 1)) j
      = (((∑ R, (hr R j - (∑ R, hr R j) * (1 / 16384)) * (hr R j - (∑ R, hr R j) * (1 / 16384)))
        * (1 / 16384) : ℝ) : EReal) := by
  show stats h (1 : Fin 8) j * invN - mean (fun i => stats h (i 0) (i 1)) j * mean (fun i => stats h (i 0) (i 1)) j = _
  rw [mean_real h hr hh j, stats_one]
  simp only [hh, ← EReal.coe_mul]
  rw [coe_sum, invN_real, ← EReal.coe_mul, ← EReal.coe_sub, var_split (fun R => hr R j)]

end Real

/-- The reference's normalisation at real data, as one real. -/
private theorem ref_side (x μ v e γ β : ℝ) (hv : 0 ≤ v) (he : 0 < e) :
    Ideal.div ((x : EReal) - (μ : EReal)) (Ideal.sqrt ((v : EReal) + (e : EReal))) * (γ : EReal) + (β : EReal)
      = (((x - μ) * (1 / Real.sqrt (v + e)) * γ + β : ℝ) : EReal) := by
  have hpos : 0 < v + e := by linarith
  have hs : Real.sqrt (v + e) ≠ 0 := (Real.sqrt_pos.mpr hpos).ne'
  rw [← EReal.coe_add, Ideal.sqrt_coe, if_neg (not_lt.mpr hpos.le), ← EReal.coe_sub, Ideal.div_coe hs,
    ← EReal.coe_mul, ← EReal.coe_mul, ← EReal.coe_add]

/-- The kernel's normalisation at real data, as one real. -/
private theorem ker_side (x μ v e γ β : ℝ) (hv : 0 ≤ v) (he : 0 < e) :
    (x : EReal) * (Ideal.rsqrt ((v : EReal) + (e : EReal)) * (γ : EReal))
        + ((β : EReal) - (μ : EReal) * (Ideal.rsqrt ((v : EReal) + (e : EReal)) * (γ : EReal)))
      = ((x * ((Real.sqrt (v + e))⁻¹ * γ) + (β - μ * ((Real.sqrt (v + e))⁻¹ * γ)) : ℝ) : EReal) := by
  have hpos : 0 < v + e := by linarith
  rw [← EReal.coe_add, Ideal.rsqrt_coe, if_neg (not_lt.mpr hpos.le), if_neg hpos.ne']
  simp only [← EReal.coe_mul, ← EReal.coe_sub, ← EReal.coe_add]

/-- Over real h, γ, β: centring then dividing by the root is scaling by the reciprocal root and shifting, and the
    centred mean square is the mean of squares less the squared mean. -/
theorem rnormed_eq (h : Fin 16384 → Fin 64 → EReal) (g be : Vc 64) (hh : ∀ R j, ∃ r : ℝ, h R j = (r : EReal))
    (hg : IsReal g) (hbe : IsReal be) (R : Fin 16384) (j : Fin 64) :
    rnormed h g be R j
      = normed (fun i => h (i 0) (i 1)) (fun i => stats h (i 0) (i 1)) (rowOf g) (rowOf be) R j := by
  choose hr hhr using hh
  obtain ⟨γ, hγ⟩ := hg (ix1 j)
  obtain ⟨β, hβ⟩ := hbe (ix1 j)
  obtain ⟨e, he, hee⟩ := eps_real
  have hv := var_nonneg (fun R => hr R j) ((∑ R, hr R j) * (1 / 16384))
  show Ideal.div (h R j - rmean h j) (Ideal.sqrt (rvar h j + eps)) * g (ix1 j) + be (ix1 j)
    = h R j * (Ideal.rsqrt (var (fun i => stats h (i 0) (i 1)) j + eps) * g (ix1 j))
      + (be (ix1 j) - mean (fun i => stats h (i 0) (i 1)) j
          * (Ideal.rsqrt (var (fun i => stats h (i 0) (i 1)) j + eps) * g (ix1 j)))
  rw [rmean_real h hr hhr j, rvar_real h hr hhr j, mean_real h hr hhr j, var_real h hr hhr j, hhr R j, hγ, hβ, hee,
    ref_side _ _ _ _ _ _ hv he, ker_side _ _ _ _ _ _ hv he, affine_real]

/-- The two spellings of ELU agree on every extended real. -/
theorem relu_eq (v : EReal) : relu v = elu v := by
  unfold relu elu
  by_cases hv : (0 : EReal) < v
  · have hc : Ideal.cmp .ogt v 0 = 1#1 := by simp [Ideal.cmp, hv]
    rw [hc, select_one, select_one]
  · have hc : Ideal.cmp .ogt v 0 = 0#1 := by simp [Ideal.cmp, hv]
    rw [hc, select_zero, select_zero, select_zero, one_mul]

end Cert.Node

end
-- ==== Proof.Bridge.lean ====
/-
  The reference-side value is the kernel-side value when every input entry is real.
  Both are a placement of tanh (Σ_k act R k · W2 n k + b2 n); the activations agree because the two spellings of ELU
  agree everywhere and the two spellings of batch normalisation agree over real h, γ, β; and h itself is one sum over
  144 inputs on one side, two sums over 128 and 16 on the other.
-/
import proofs.«107747_g15401752723588_cont_week2b_928_3_alg».proof.Proof.BridgeA
import proofs.«107747_g15401752723588_cont_week2b_928_3_alg».proof.Proof.BridgeB

noncomputable section

namespace Cert.Node

open Idealize.ShloMosaic Idealize.ShloMosaic.ValueIdx

/-- With every input entry real the reference-side value is the kernel-side value. -/
theorem refValue_eq_kernelValue (x : Mat 16384 512) (ar : Ten 16384 8 16) (w1 : Mat 64 144) (b1 g be : Vc 64) (w2 : Mat 128 64)
    (b2 : Vc 128) (hx : IsReal x) (har : IsReal ar) (hw1 : IsReal w1) (hb1 : IsReal b1) (hg : IsReal g) (hbe : IsReal be) :
    refValue x ar w1 b1 g be w2 b2 = kernelValue x ar w1 b1 g be w2 b2 := by
  have hfun : (rlin1 x ar w1 b1 : Fin 16384 → Fin 64 → EReal)
      = lin1 x (attrRow ar) (w1Left w1) (w1Right w1) (rowOf b1) := by
    funext R j; exact rlin1_eq x ar w1 b1 R j
  have hmid : rlin2 (rlin1 x ar w1 b1) g be w2 b2
      = lin2 (hArr x ar w1 b1) (stArr x ar w1 b1) (rowOf g) (rowOf be) (transposed w2) (rowOf b2) := by
    funext R n
    unfold rlin2 lin2
    refine congrArg Ideal.tanh (congrArg₂ (· + ·) (Finset.sum_congr rfl fun k _ => ?_) rfl)
    rw [relu_eq, rnormed_eq (rlin1 x ar w1 b1) g be (fun R j => rlin1_real x ar w1 b1 hx har hw1 hb1 R j) hg hbe R k]
    refine congrArg₂ (· * ·) (congrArg elu ?_) rfl
    unfold hArr stArr
    rw [hfun]
  funext i
  unfold refValue kernelValue
  rw [hmid]

end Cert.Node

end
-- ==== Proof.Finite.lean ====
import proofs.«107747_g15401752723588_cont_week2b_928_3_alg».proof.Defs
import proofs.«107747_g15401752723588_cont_week2b_928_3_alg».proof.Proof.Gen.Pre_finite_inputs
import proofs.«107747_g15401752723588_cont_week2b_928_3_alg».proof.Proof.Spec
import proofs.«107747_g15401752723588_cont_week2b_928_3_alg».proof.Proof.Consts
import Idealize.ShloMosaic.Lib.ReduceAll

noncomputable section

namespace Cert.Proof.Finite

open Idealize.ShloMosaic Idealize.ShloMosaic.TcCoe Idealize.SL.Sem

/-- The empty shape has exactly one index. -/
private instance : Subsingleton Cert.Pre_finite_inputs.S_.Idx := ⟨fun a b => funext fun d => d.elim0⟩

/-- The word 0x7F800000 (sign 0, exponent all ones, fraction 0) denotes +∞. -/
private theorem inf_word : Ideal.ofBits .f32 0x7F800000#32 = (⊤ : EReal) := Cert.Consts.ofBits_inf

/-- An extended real whose absolute value max x (−x) lies strictly below +∞ is a real number:
    at −∞ the maximum is −(−∞) = +∞ and at +∞ it is +∞ itself, and neither is strictly below +∞. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One conjunct of the precondition, for an array x of any shape: if the conjunction over all indices i of
    the comparisons |x i| < +∞ (the constant +∞ spread to x's shape) is the word 1, every entry of x is real.
    A conjunction that is 1 has every term 1, and a term is the strict bound of the previous lemma. -/
private theorem isReal_of_all {S : Shape} {axes : List (Fin S.rank)} (x : FVec Ideal S .f32)
    (bc : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] bc (constant (F := Ideal) Cert.Pre_finite_inputs.S_ .f32 0x7F800000#32)))
          (constantI Cert.Pre_finite_inputs.S_ 1 1#1) hr hu ValueIdx.ix0 = 1#1) :
    Cert.Node.IsReal (S := S) x := by
  intro i
  have hi := Host.reduce_andi_all _ _ hr hu _ e i
  apply real_of_abs_lt_top
  rw [← inf_word]
  exact hi

/-- Under the precondition every entry of the six float inputs the value proof opens is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Node.IsReal (m ((c.tc : Thread Cert.KernelIdeal.nD Cert.KernelIdeal.τ).loc Cert.KernelIdeal.main_arg0))
    ∧ Cert.Node.IsReal (m ((c.tc : Thread Cert.KernelIdeal.nD Cert.KernelIdeal.τ).loc Cert.KernelIdeal.main_arg1))
    ∧ Cert.Node.IsReal (m ((c.tc : Thread Cert.KernelIdeal.nD Cert.KernelIdeal.τ).loc Cert.KernelIdeal.main_arg2))
    ∧ Cert.Node.IsReal (m ((c.tc : Thread Cert.KernelIdeal.nD Cert.KernelIdeal.τ).loc Cert.KernelIdeal.main_arg3))
    ∧ Cert.Node.IsReal (m ((c.tc : Thread Cert.KernelIdeal.nD Cert.KernelIdeal.τ).loc Cert.KernelIdeal.main_arg4))
    ∧ Cert.Node.IsReal (m ((c.tc : Thread Cert.KernelIdeal.nD Cert.KernelIdeal.τ).loc Cert.KernelIdeal.main_arg5)) := by
  -- the precondition's one word, at the one index of the empty shape
  have e := congrFun (h c) ValueIdx.ix0
  dsimp only [Cert.Pre_finite_inputs.fn, Cert.Pre_finite_inputs.fn_part1, Cert.Pre_finite_inputs.fn_part2,
    Idealize.ShloMosaic.andi] at e
  -- it is the left-nested conjunction ((((((a0 ∧ a1) ∧ a2) ∧ a3) ∧ a4) ∧ a5) ∧ a6) ∧ a7 of the eight arguments'
  -- words; peel it from the right, dropping the last two arguments
  obtain ⟨e, -⟩ := IntOp.andi_eq_one.1 e
  obtain ⟨e, -⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all _ _ _ _ h0, isReal_of_all _ _ _ _ h1, isReal_of_all _ _ _ _ h2,
    isReal_of_all _ _ _ _ h3, isReal_of_all _ _ _ _ h4, isReal_of_all _ _ _ _ h5⟩

end Cert.Proof.Finite

end
-- ==== Proof.lean ====
/-
  The certificate: a two-stage kernel — a linear layer with running batch sums, then batch normalisation, ELU, a second
  linear layer and tanh written into columns 128 … 255 of a zero array — against the plain formulation (take, concatenate,
  linear, mean and centred variance, normalise, ELU, linear, tanh, scatter).

  Frames: the word-level and the idealized kernel by their frame certificates; the reference by its run.
  Preservation: the idealization rewrote nothing.
  Values, at the extended reals: the kernel's result array is `Cert.Node.kernelValue` of the arguments (the launch
  with the result named, Proof/KRun; the two regions' arrays, Proof/KR0H, KR0St, KR1; the host views, Proof/KHost);
  the reference's is its staged term (Proof/RRun), which entry by entry is `Cert.Node.refValue` (Proof/RReadA, RReadB,
  RReadP); and the two agree when every input entry is real (Proof/Bridge), which the precondition gives (Proof/Finite):
  the centred mean square is the mean of squares less the squared mean, and dividing the centred value by the root is
  scaling by the reciprocal root and shifting — identities of the reals, not of the extended reals.
-/
import proofs.«107747_g15401752723588_cont_week2b_928_3_alg».proof.Defs
import proofs.«107747_g15401752723588_cont_week2b_928_3_alg».proof.Proof.Gen.Kernel
import proofs.«107747_g15401752723588_cont_week2b_928_3_alg».proof.Proof.Gen.Kernel.Frame
import proofs.«107747_g15401752723588_cont_week2b_928_3_alg».proof.Proof.Gen.KernelIdeal
import proofs.«107747_g15401752723588_cont_week2b_928_3_alg».proof.Proof.Gen.KernelIdeal.Frame
import proofs.«107747_g15401752723588_cont_week2b_928_3_alg».proof.Proof.Gen.ReferenceIdeal
import proofs.«107747_g15401752723588_cont_week2b_928_3_alg».proof.Proof.Gen.Pre_finite_inputs
import proofs.«107747_g15401752723588_cont_week2b_928_3_alg».proof.Proof.KRun
import proofs.«107747_g15401752723588_cont_week2b_928_3_alg».proof.Proof.KHost
import proofs.«107747_g15401752723588_cont_week2b_928_3_alg».proof.Proof.RRun
import proofs.«107747_g15401752723588_cont_week2b_928_3_alg».proof.Proof.RReadA
import proofs.«107747_g15401752723588_cont_week2b_928_3_alg».proof.Proof.RReadB
import proofs.«107747_g15401752723588_cont_week2b_928_3_alg».proof.Proof.RReadP
import proofs.«107747_g15401752723588_cont_week2b_928_3_alg».proof.Proof.Bridge
import proofs.«107747_g15401752723588_cont_week2b_928_3_alg».proof.Proof.Finite

noncomputable section

namespace Cert.Proof

open Idealize.ShloMosaic Idealize.ShloMosaic.TcCoe Idealize.ShloMosaic.ValueIdx Idealize.SL.Sem

/-- The reference's staged term is, entry by entry, the reference-side value: the scatter places the 128 result
    columns, each of which is the second layer over the normalised, activated first layer. -/
theorem out_eq_refValue (x : FVec Ideal Cert.ReferenceIdeal.S16384x512 .f32) (ar : FVec Ideal Cert.ReferenceIdeal.S16384x8x16 .f32)
    (w1 : FVec Ideal Cert.ReferenceIdeal.S64x144 .f32) (b1 g be : FVec Ideal Cert.ReferenceIdeal.S64 .f32) (w2 : FVec Ideal Cert.ReferenceIdeal.S128x64 .f32)
    (b2 : FVec Ideal Cert.ReferenceIdeal.S128 .f32) :
    Cert.ReferenceIdeal.Term.out (F := Ideal) x ar w1 b1 g be w2 b2 = Cert.Node.refValue x ar w1 b1 g be w2 b2 := by
  unfold Cert.ReferenceIdeal.Term.out Cert.Node.refValue
  rw [Cert.ReferenceIdeal.Read.place_apply]
  have e : (fun (R : Fin 16384) (n : Fin 128) =>
        Cert.ReferenceIdeal.Term.lin2 (Cert.ReferenceIdeal.Term.elu (Cert.ReferenceIdeal.Term.normed (Cert.ReferenceIdeal.Term.lin1 x ar w1 b1) g be)) w2 b2 (ix2 R n))
      = Cert.Node.rlin2 (Cert.Node.rlin1 x ar w1 b1) g be w2 b2 := by
    funext R n
    rw [Cert.ReferenceIdeal.Read.lin2_apply, Cert.ReferenceIdeal.Read.lin1_apply]
  rw [e]

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both programs end with the result array at `Cert.Node.kernelValue` of the kernel program's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Node.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Host.kernel_final m ρ c), (h c).2⟩)
      (Cert.KernelIdeal.Run.run_value (F := Ideal) m ρ)
  · refine (θ_run Cert.ReferenceIdeal.defs _ _).mono (fun r h c => ⟨?_, (h c).2⟩) (Cert.ReferenceIdeal.Hand.run (F := Ideal) m' ρ')
    obtain ⟨a0, a1, a2, a3, a4, a5, a6, a7⟩ := hagree c
    obtain ⟨r0, r1, r2, r3, r4, r5⟩ := Cert.Proof.Finite.real_of_pre m hpre c
    rw [(h c).1, out_eq_refValue, a0, a1, a2, a3, a4, a5, a6, a7]
    exact Cert.Node.refValue_eq_kernelValue _ _ _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
